-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x896 : Shape := ⟨3, ![8, 4096, 896]⟩
abbrev S896x896 : Shape := ⟨2, ![896, 896]⟩
abbrev S896 : Shape := ⟨1, ![896]⟩
abbrev S_ : Shape := ⟨0, ![]⟩

class Facts : Prop where
  bcast_S_S8x4096x896 : S_.BroadcastsInDim S8x4096x896 (![] : Fin 0 → Fin S8x4096x896.rank)
  reducesTo_S8x4096x896_S_d0_1_2 : S8x4096x896.ReducesTo [0, 1, 2] S_
  h_S_ : 0 < S_.numel
  bcast_S_S896x896 : S_.BroadcastsInDim S896x896 (![] : Fin 0 → Fin S896x896.rank)
  reducesTo_S896x896_S_d0_1 : S896x896.ReducesTo [0, 1] S_
  bcast_S_S896 : S_.BroadcastsInDim S896 (![] : Fin 0 → Fin S896.rank)
  reducesTo_S896_S_d0 : S896.ReducesTo [0] S_

variable [Facts]

def fn_part2 {F : FTy → Type} [FloatOps F] (main_arg7 : FVec F S896 .f32) (main_arg8 : FVec F S896x896 .f32) (main_arg9 : FVec F S896 .f32) (main_v33 : IVec S_ 1) : IVec S_ 1 :=
  let main_v34 : FVec F S896 .f32 := Host.absf main_arg7
  let main_cst_12 : FVec F S_ .f32 := constant S_ .f32 0x7F800000#32
  let main_v35 : FVec F S896 .f32 := broadcastInDim S896 ![] bcast_S_S896 main_cst_12
  let main_v36 : IVec S896 1 := cmpf .olt main_v34 main_v35
  let main_c_13 : IVec S_ 1 := constantI S_ 1 1#1
  let main_v37 : IVec S_ 1 := (fun x v => Host.reduce IntOp.andi x v reducesTo_S896_S_d0 h_S_) main_v36 main_c_13
  let main_v38 : IVec S_ 1 := andi main_v33 main_v37
  let main_v39 : FVec F S896x896 .f32 := Host.absf main_arg8
  let main_cst_14 : FVec F S_ .f32 := constant S_ .f32 0x7F800000#32
  let main_v40 : FVec F S896x896 .f32 := broadcastInDim S896x896 ![] bcast_S_S896x896 main_cst_14
  let main_v41 : IVec S896x896 1 := cmpf .olt main_v39 main_v40
  let main_c_15 : IVec S_ 1 := constantI S_ 1 1#1
  let main_v42 : IVec S_ 1 := (fun x v => Host.reduce IntOp.andi x v reducesTo_S896x896_S_d0_1 h_S_) main_v41 main_c_15
  let main_v43 : IVec S_ 1 := andi main_v38 main_v42
  let main_v44 : FVec F S896 .f32 := Host.absf main_arg9
  let main_cst_16 : FVec F S_ .f32 := constant S_ .f32 0x7F800000#32
  let main_v45 : FVec F S896 .f32 := broadcastInDim S896 ![] bcast_S_S896 main_cst_16
  let main_v46 : IVec S896 1 := cmpf .olt main_v44 main_v45
  let main_c_17 : IVec S_ 1 := constantI S_ 1 1#1
  let main_v47 : IVec S_ 1 := (fun x v => Host.reduce IntOp.andi x v reducesTo_S896_S_d0 h_S_) main_v46 main_c_17
  let main_v48 : IVec S_ 1 := andi main_v43 main_v47
  main_v48

def fn_part1 {F : FTy → Type} [FloatOps F] (main_arg4 : FVec F S896x896 .f32) (main_arg5 : FVec F S896 .f32) (main_arg6 : FVec F S896x896 .f32) (main_arg7 : FVec F S896 .f32) (main_arg8 : FVec F S896x896 .f32) (main_arg9 : FVec F S896 .f32) (main_v13 : IVec S_ 1) (main_v16 : IVec S896x896 1) : IVec S_ 1 :=
  let main_c_5 : IVec S_ 1 := constantI S_ 1 1#1
  let main_v17 : IVec S_ 1 := (fun x v => Host.reduce IntOp.andi x v reducesTo_S896x896_S_d0_1 h_S_) main_v16 main_c_5
  let main_v18 : IVec S_ 1 := andi main_v13 main_v17
  let main_v19 : FVec F S896x896 .f32 := Host.absf main_arg4
  let main_cst_6 : FVec F S_ .f32 := constant S_ .f32 0x7F800000#32
  let main_v20 : FVec F S896x896 .f32 := broadcastInDim S896x896 ![] bcast_S_S896x896 main_cst_6
  let main_v21 : IVec S896x896 1 := cmpf .olt main_v19 main_v20
  let main_c_7 : IVec S_ 1 := constantI S_ 1 1#1
  let main_v22 : IVec S_ 1 := (fun x v => Host.reduce IntOp.andi x v reducesTo_S896x896_S_d0_1 h_S_) main_v21 main_c_7
  let main_v23 : IVec S_ 1 := andi main_v18 main_v22
  let main_v24 : FVec F S896 .f32 := Host.absf main_arg5
  let main_cst_8 : FVec F S_ .f32 := constant S_ .f32 0x7F800000#32
  let main_v25 : FVec F S896 .f32 := broadcastInDim S896 ![] bcast_S_S896 main_cst_8
  let main_v26 : IVec S896 1 := cmpf .olt main_v24 main_v25
  let main_c_9 : IVec S_ 1 := constantI S_ 1 1#1
  let main_v27 : IVec S_ 1 := (fun x v => Host.reduce IntOp.andi x v reducesTo_S896_S_d0 h_S_) main_v26 main_c_9
  let main_v28 : IVec S_ 1 := andi main_v23 main_v27
  let main_v29 : FVec F S896x896 .f32 := Host.absf main_arg6
  let main_cst_10 : FVec F S_ .f32 := constant S_ .f32 0x7F800000#32
  let main_v30 : FVec F S896x896 .f32 := broadcastInDim S896x896 ![] bcast_S_S896x896 main_cst_10
  let main_v31 : IVec S896x896 1 := cmpf .olt main_v29 main_v30
  let main_c_11 : IVec S_ 1 := constantI S_ 1 1#1
  let main_v32 : IVec S_ 1 := (fun x v => Host.reduce IntOp.andi x v reducesTo_S896x896_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x896 .f32) (main_arg1 : FVec F S896x896 .f32) (main_arg2 : FVec F S896x896 .f32) (main_arg3 : FVec F S896x896 .f32) (main_arg4 : FVec F S896x896 .f32) (main_arg5 : FVec F S896 .f32) (main_arg6 : FVec F S896x896 .f32) (main_arg7 : FVec F S896 .f32) (main_arg8 : FVec F S896x896 .f32) (main_arg9 : FVec F S896 .f32) : IVec S_ 1 :=
  let main_v0 : FVec F S8x4096x896 .f32 := Host.absf main_arg0
  let main_cst : FVec F S_ .f32 := constant S_ .f32 0x7F800000#32
  let main_v1 : FVec F S8x4096x896 .f32 := broadcastInDim S8x4096x896 ![] bcast_S_S8x4096x896 main_cst
  let main_v2 : IVec S8x4096x896 1 := cmpf .olt main_v0 main_v1
  let main_c : IVec S_ 1 := constantI S_ 1 1#1
  let main_v3 : IVec S_ 1 := (fun x v => Host.reduce IntOp.andi x v reducesTo_S8x4096x896_S_d0_1_2 h_S_) main_v2 main_c
  let main_v4 : FVec F S896x896 .f32 := Host.absf main_arg1
  let main_cst_0 : FVec F S_ .f32 := constant S_ .f32 0x7F800000#32
  let main_v5 : FVec F S896x896 .f32 := broadcastInDim S896x896 ![] bcast_S_S896x896 main_cst_0
  let main_v6 : IVec S896x896 1 := cmpf .olt main_v4 main_v5
  let main_c_1 : IVec S_ 1 := constantI S_ 1 1#1
  let main_v7 : IVec S_ 1 := (fun x v => Host.reduce IntOp.andi x v reducesTo_S896x896_S_d0_1 h_S_) main_v6 main_c_1
  let main_v8 : IVec S_ 1 := andi main_v3 main_v7
  let main_v9 : FVec F S896x896 .f32 := Host.absf main_arg2
  let main_cst_2 : FVec F S_ .f32 := constant S_ .f32 0x7F800000#32
  let main_v10 : FVec F S896x896 .f32 := broadcastInDim S896x896 ![] bcast_S_S896x896 main_cst_2
  let main_v11 : IVec S896x896 1 := cmpf .olt main_v9 main_v10
  let main_c_3 : IVec S_ 1 := constantI S_ 1 1#1
  let main_v12 : IVec S_ 1 := (fun x v => Host.reduce IntOp.andi x v reducesTo_S896x896_S_d0_1 h_S_) main_v11 main_c_3
  let main_v13 : IVec S_ 1 := andi main_v8 main_v12
  let main_v14 : FVec F S896x896 .f32 := Host.absf main_arg3
  let main_cst_4 : FVec F S_ .f32 := constant S_ .f32 0x7F800000#32
  let main_v15 : FVec F S896x896 .f32 := broadcastInDim S896x896 ![] bcast_S_S896x896 main_cst_4
  let main_v16 : IVec S896x896 1 := cmpf .olt main_v14 main_v15
  fn_part1 (F := F) main_arg4 main_arg5 main_arg6 main_arg7 main_arg8 main_arg9 main_v13 main_v16
-- ==== Kernel.lean ====
abbrev S8x4096x896 : Shape := ⟨3, ![8, 4096, 896]⟩
abbrev S896x896 : Shape := ⟨2, ![896, 896]⟩
abbrev S896 : Shape := ⟨1, ![896]⟩
abbrev S_ : Shape := ⟨0, ![]⟩
abbrev S896x1792 : Shape := ⟨2, ![896, 1792]⟩
abbrev S1x896 : Shape := ⟨2, ![1, 896]⟩
abbrev S1x1024x896 : Shape := ⟨3, ![1, 1024, 896]⟩
abbrev S1024x896 : Shape := ⟨2, ![1024, 896]⟩
abbrev S1024x1792 : Shape := ⟨2, ![1024, 1792]⟩
abbrev S8x1x896 : Shape := ⟨3, ![8, 1, 896]⟩
abbrev S1x256x896 : Shape := ⟨3, ![1, 256, 896]⟩
abbrev S1x1x896 : Shape := ⟨3, ![1, 1, 896]⟩
abbrev S4096x896 : Shape := ⟨2, ![4096, 896]⟩
abbrev S1x4096x896 : Shape := ⟨3, ![1, 4096, 896]⟩
abbrev S256x896 : Shape := ⟨2, ![256, 896]⟩
abbrev S256x4096 : Shape := ⟨2, ![256, 4096]⟩
abbrev S256 : Shape := ⟨1, ![256]⟩
abbrev S256x1 : Shape := ⟨2, ![256, 1]⟩
abbrev S8x896 : Shape := ⟨2, ![8, 896]⟩

abbrev nBuf : Space → Nat
  | .hbm => 33
  | .vmem => 17
  | .smem => 0
  | _ => 0

abbrev bufTy : (tb : Table) → Fin (tcTables nBuf tb) → BufTy
  | .hbm, ⟨0, _⟩ => ⟨S8x4096x896, .f32⟩
  | .hbm, ⟨1, _⟩ => ⟨S896x896, .f32⟩
  | .hbm, ⟨2, _⟩ => ⟨S896x896, .f32⟩
  | .hbm, ⟨3, _⟩ => ⟨S896x896, .f32⟩
  | .hbm, ⟨4, _⟩ => ⟨S896x896, .f32⟩
  | .hbm, ⟨5, _⟩ => ⟨S896, .f32⟩
  | .hbm, ⟨6, _⟩ => ⟨S896x896, .f32⟩
  | .hbm, ⟨7, _⟩ => ⟨S896, .f32⟩
  | .hbm, ⟨8, _⟩ => ⟨S896x896, .f32⟩
  | .hbm, ⟨9, _⟩ => ⟨S896, .f32⟩
  | .hbm, ⟨10, _⟩ => ⟨S_, .f32⟩
  | .hbm, ⟨11, _⟩ => ⟨S896x896, .f32⟩
  | .hbm, ⟨12, _⟩ => ⟨S896x896, .f32⟩
  | .hbm, ⟨13, _⟩ => ⟨S896x896, .bf16⟩
  | .hbm, ⟨14, _⟩ => ⟨S896x1792, .f32⟩
  | .hbm, ⟨15, _⟩ => ⟨S896x1792, .bf16⟩
  | .hbm, ⟨16, _⟩ => ⟨S896x896, .bf16⟩
  | .hbm, ⟨17, _⟩ => ⟨S1x896, .f32⟩
  | .hbm, ⟨18, _⟩ => ⟨S8x4096x896, .bf16⟩
  | .hbm, ⟨19, _⟩ => ⟨S8x4096x896, .bf16⟩
  | .hbm, ⟨20, _⟩ => ⟨S8x1x896, .f32⟩
  | .hbm, ⟨21, _⟩ => ⟨S8x896, .f32⟩
  | .hbm, ⟨22, _⟩ => ⟨S8x896, .f32⟩
  | .hbm, ⟨23, _⟩ => ⟨S1x896, .f32⟩
  | .hbm, ⟨24, _⟩ => ⟨S8x896, .f32⟩
  | .hbm, ⟨25, _⟩ => ⟨S8x896, .f32⟩
  | .hbm, ⟨26, _⟩ => ⟨S_, .f32⟩
  | .hbm, ⟨27, _⟩ => ⟨S8x896, .f32⟩
  | .hbm, ⟨28, _⟩ => ⟨S8x896, .f32⟩
  | .hbm, ⟨29, _⟩ => ⟨S8x896, .f32⟩
  | .hbm, ⟨30, _⟩ => ⟨S1x896, .f32⟩
  | .hbm, ⟨31, _⟩ => ⟨S8x896, .f32⟩
  | .hbm, ⟨32, _⟩ => ⟨S8x896, .f32⟩
  | .local _ .vmem, ⟨0, _⟩ => ⟨S1x1024x896, .f32⟩
  | .local _ .vmem, ⟨1, _⟩ => ⟨S1x1024x896, .f32⟩
  | .local _ .vmem, ⟨2, _⟩ => ⟨S896x1792, .bf16⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1x1024x896, .bf16⟩
  | .local _ .vmem, ⟨7, _⟩ => ⟨S1x256x896, .f32⟩
  | .local _ .vmem, ⟨8, _⟩ => ⟨S1x256x896, .f32⟩
  | .local _ .vmem, ⟨9, _⟩ => ⟨S896x896, .bf16⟩
  | .local _ .vmem, ⟨10, _⟩ => ⟨S896x896, .bf16⟩
  | .local _ .vmem, ⟨11, _⟩ => ⟨S1x896, .f32⟩
  | .local _ .vmem, ⟨12, _⟩ => ⟨S1x1x896, .f32⟩
  | .local _ .vmem, ⟨13, _⟩ => ⟨S1x1x896, .f32⟩
  | .local _ .vmem, ⟨14, _⟩ => ⟨S4096x896, .bf16⟩
  | .local _ .vmem, ⟨15, _⟩ => ⟨S4096x896, .bf16⟩
  | .local _ .vmem, ⟨16, _⟩ => ⟨S1x1x896, .f32⟩
  | _, _ => ⟨S8x4096x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S896x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg0 : BitVec 32 := BitVec.ofNat 32 (i 0).val
  let c0_i32_30 : BitVec 32 := 0#32
  let c0_i32_31 : BitVec 32 := 0#32
  ![arg0.toNat, 0, 0]
def k1_cond2 (i : grid1.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_25 : BitVec 32 := 0#32
  let v43 : BitVec 1 := Scalar.cmpi .ne v42 c0_i32_25
  v43

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x896 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S896x896 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S896x896 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x896 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x896 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S896x896 : S_.BroadcastsInDim S896x896 (![] : Fin 0 → Fin S896x896.rank)
  bitsLt_bf16_f32 : FTy.bits .bf16 < FTy.bits .f32
  concatenates_S896x896_S896x896_S896x1792_d1 : Shape.Concatenates [S896x896, S896x896] S896x1792 1
  shapeCasts_S896_S1x896 : S896.ShapeCasts S1x896
  inb_S1x1024x896_S1x1024x896_0_0_0 : ∀ a, (![0, 0, 0] : Fin 3 → Nat) a + S1x1024x896.size a ≤ S1x1024x896.size a
  h_S1x1024x896 : 0 < S1x1024x896.numel
  shapeCasts_S1x1024x896_S1024x896 : S1x1024x896.ShapeCasts S1024x896
  inb_S896x1792_S896x1792_0_0 : ∀ a, (![0, 0] : Fin 2 → Nat) a + S896x1792.size a ≤ S896x1792.size a
  h_S896x1792 : 0 < S896x1792.numel
  shapeCasts_S896x1792_S896x1792 : S896x1792.ShapeCasts S896x1792
  slices_S1024x1792_o0_0_S1024x896 : S1024x1792.Slices ![0, 0] S1024x896
  shapeCasts_S1024x896_S1x1024x896 : S1024x896.ShapeCasts S1x1024x896
  packedbf16_S1x1024x896_S1x1024x896_0_0_0 : (Rect.unit (s := S1x1024x896) ![0, 0, 0] S1x1024x896.size inb_S1x1024x896_S1x1024x896_0_0_0).PackedRows (EltTy.packing .bf16)
  slices_S1024x1792_o0_896_S1024x896 : S1024x1792.Slices ![0, 896] S1024x896
  inb_S1x1x896_S1x1x896_0_0_0 : ∀ a, (![0, 0, 0] : Fin 3 → Nat) a + S1x1x896.size a ≤ S1x1x896.size a
  h_S1x1x896 : 0 < S1x1x896.numel
  shapeCasts_S1x1x896_S1x1x896 : S1x1x896.ShapeCasts S1x1x896
  squeezes_S1x4096x896_S4096x896 : S1x4096x896.Squeezes S4096x896
  inb_S1x256x896_S1x256x896_0_0_0 : ∀ a, (![0, 0, 0] : Fin 3 → Nat) a + S1x256x896.size a ≤ S1x256x896.size a
  h_S1x256x896 : 0 < S1x256x896.numel
  shapeCasts_S1x256x896_S256x896 : S1x256x896.ShapeCasts S256x896
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S4096x896_S4096x896_0_0 : ∀ a, (![0, 0] : Fin 2 → Nat) a + S4096x896.size a ≤ S4096x896.size a
  h_S4096x896 : 0 < S4096x896.numel
  reduces_S256x4096_S256 : S256x4096.Reduces [1] S256
  shapeCasts_S256_S256x1 : S256.ShapeCasts S256x1
  broadcasts_S256x1_S256x4096 : S256x1.Broadcasts S256x4096
  broadcasts_S256x1_S256x896 : S256x1.Broadcasts S256x896
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S256x896 : S1x896.Broadcasts S256x896
  reduces_S256x896_S896 : S256x896.Reduces [0] S896
  shapeCasts_S1x896_S1x1x896 : S1x896.ShapeCasts S1x1x896
  shapeCasts_S8x1x896_S8x896 : S8x1x896.ShapeCasts S8x896
  bcast_S896_S1x896_1 : S896.BroadcastsInDim S1x896 (![1] : Fin 1 → Fin S1x896.rank)
  bcast_S1x896_S8x896_0_1 : S1x896.BroadcastsInDim S8x896 (![0, 1] : Fin 2 → Fin S8x896.rank)
  bcast_S_S8x896 : S_.BroadcastsInDim S8x896 (![] : Fin 0 → Fin S8x896.rank)
  dot_S1024x896_S896x1792_S1024x1792_1_0_0_1_n_n_wf : DotDims.WF S1024x896 S896x1792 S1024x1792 [1] [0] [0] [1] [] []
  dot_S256x896_S896x896_S256x896_1_0_0_1_n_n_wf : DotDims.WF S256x896 S896x896 S256x896 [1] [0] [0] [1] [] []
  dot_S256x896_S4096x896_S256x4096_1_1_0_0_n_n_wf : DotDims.WF S256x896 S4096x896 S256x4096 [1] [1] [0] [0] [] []
  dot_S256x4096_S4096x896_S256x896_1_0_0_1_n_n_wf : DotDims.WF S256x4096 S4096x896 S256x896 [1] [0] [0] [1] [] []
  dot_S8x896_S896x896_S8x896_1_0_0_1_n_n_wf : DotDims.WF S8x896 S896x896 S8x896 [1] [0] [0] [1] [] []
  hcc1_scratch2 : 14 + S_.numel ≤ 16
  hcc1_scratch3 : 15 + S_.numel ≤ 16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x896.size a ≤ S8x4096x896.size a
  hwx0_0 : ∀ i : grid0.Coords, EltTy.bits .f32 = 32 ∨ (Rect.block (s := S8x4096x896) S1x1024x896.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S896x1792.size a ≤ S896x1792.size a
  hwx0_1 : ∀ i : grid0.Coords, EltTy.bits .bf16 = 32 ∨ (Rect.block (s := S896x1792) S896x1792.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x896.size a ≤ S8x4096x896.size a
  hwx0_2 : ∀ i : grid0.Coords, EltTy.bits .bf16 = 32 ∨ (Rect.block (s := S8x4096x896) S1x1024x896.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x896.size a ≤ S8x4096x896.size a
  hwx0_3 : ∀ i : grid0.Coords, EltTy.bits .bf16 = 32 ∨ (Rect.block (s := S8x4096x896) S1x1024x896.size (cc0_transform_3 i) (hinb0_3 i)).WholeWords (EltTy.packing .bf16)
  hrank1 : 0 < grid1.rank
  k1_off1_inb : ∀ i : grid1.Coords, ∀ (k1_h1 : k1_cond1 i = 1#1), ∀ a, (k1_off1 i) a + S1x4096x896.size a ≤ S8x4096x896.size a
  k1_off1_wordsbf16 : ∀ i : grid1.Coords, ∀ (k1_h1 : k1_cond1 i = 1#1), (Rect.unit (s := S8x4096x896) (k1_off1 i) S1x4096x896.size (k1_off1_inb i k1_h1)).WholeWords (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x896.size a ≤ S8x4096x896.size a
  hwx1_0 : ∀ i : grid1.Coords, EltTy.bits .f32 = 32 ∨ (Rect.block (s := S8x4096x896) S1x256x896.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_3 i = cc1_transform_3 i'
  hinb1_1 : ∀ (i : grid1.Coords) a, (cc1_transform_3 i a + 1) * S896x896.size a ≤ S896x896.size a
  hwx1_1 : ∀ i : grid1.Coords, EltTy.bits .bf16 = 32 ∨ (Rect.block (s := S896x896) S896x896.size (cc1_transform_3 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_4 i = cc1_transform_4 i'
  hinb1_2 : ∀ (i : grid1.Coords) a, (cc1_transform_4 i a + 1) * S896x896.size a ≤ S896x896.size a
  hwx1_2 : ∀ i : grid1.Coords, EltTy.bits .bf16 = 32 ∨ (Rect.block (s := S896x896) S896x896.size (cc1_transform_4 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_5 i = cc1_transform_5 i'
  hinb1_3 : ∀ (i : grid1.Coords) a, (cc1_transform_5 i a + 1) * S1x896.size a ≤ S1x896.size a
  hwx1_3 : ∀ i : grid1.Coords, EltTy.bits .f32 = 32 ∨ (Rect.block (s := S1x896) S1x896.size (cc1_transform_5 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_6 i = cc1_transform_6 i'
  hinb1_4 : ∀ (i : grid1.Coords) a, (cc1_transform_6 i a + 1) * S1x1x896.size a ≤ S8x1x896.size a
  hwx1_4 : ∀ i : grid1.Coords, EltTy.bits .f32 = 32 ∨ (Rect.block (s := S8x1x896) S1x1x896.size (cc1_transform_6 i) (hinb1_4 i)).WholeWords (EltTy.packing .f32)

variable [Facts₀]

abbrev cc1_scratch2 : DmaSems sig S_ := SemArray.consecutive 14 S_ hcc1_scratch2
abbrev cc1_scratch3 : DmaSems sig S_ := SemArray.consecutive 15 S_ hcc1_scratch3
def dot_S1024x896_S896x1792_S1024x1792_1_0_0_1_n_n : DotDims S1024x896 S896x1792 S1024x1792 where
  lhsContracting := [1]
  rhsContracting := [0]
  lhsNonContracting := [0]
  rhsNonContracting := [1]
  lhsBatch := []
  rhsBatch := []
  wf := dot_S1024x896_S896x1792_S1024x1792_1_0_0_1_n_n_wf
def dot_S256x896_S896x896_S256x896_1_0_0_1_n_n : DotDims S256x896 S896x896 S256x896 where
  lhsContracting := [1]
  rhsContracting := [0]
  lhsNonContracting := [0]
  rhsNonContracting := [1]
  lhsBatch := []
  rhsBatch := []
  wf := dot_S256x896_S896x896_S256x896_1_0_0_1_n_n_wf
def dot_S256x896_S4096x896_S256x4096_1_1_0_0_n_n : DotDims S256x896 S4096x896 S256x4096 where
  lhsContracting := [1]
  rhsContracting := [1]
  lhsNonContracting := [0]
  rhsNonContracting := [0]
  lhsBatch := []
  rhsBatch := []
  wf := dot_S256x896_S4096x896_S256x4096_1_1_0_0_n_n_wf
def dot_S256x4096_S4096x896_S256x896_1_0_0_1_n_n : DotDims S256x4096 S4096x896 S256x896 where
  lhsContracting := [1]
  rhsContracting := [0]
  lhsNonContracting := [0]
  rhsNonContracting := [1]
  lhsBatch := []
  rhsBatch := []
  wf := dot_S256x4096_S4096x896_S256x896_1_0_0_1_n_n_wf
def dot_S8x896_S896x896_S8x896_1_0_0_1_n_n : DotDims S8x896 S896x896 S8x896 where
  lhsContracting := [1]
  rhsContracting := [0]
  lhsNonContracting := [0]
  rhsNonContracting := [1]
  lhsBatch := []
  rhsBatch := []
  wf := dot_S8x896_S896x896_S8x896_1_0_0_1_n_n_wf

abbrev win0_0 : Pipeline.Window sig grid0 :=
  Pipeline.Window.ofSpec (Memref.whole main_arg0) S1x1024x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S896x1792.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x1024x896.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1024x896.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x896.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S896x896.size cc1_transform_3 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S896x896.size cc1_transform_4 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x896.size cc1_transform_5 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1x896.size cc1_transform_6 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x4096x896 : Shape := ⟨3, ![8, 4096, 896]⟩
abbrev S896x896 : Shape := ⟨2, ![896, 896]⟩
abbrev S896 : Shape := ⟨1, ![896]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S1x1x896 : Shape := ⟨3, ![1, 1, 896]⟩
abbrev S8x896 : Shape := ⟨2, ![8, 896]⟩
abbrev S1x896 : Shape := ⟨2, ![1, 896]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x896, .f32⟩
  | .hbm, ⟨1, _⟩ => ⟨S896x896, .f32⟩
  | .hbm, ⟨2, _⟩ => ⟨S896x896, .f32⟩
  | .hbm, ⟨3, _⟩ => ⟨S896x896, .f32⟩
  | .hbm, ⟨4, _⟩ => ⟨S896x896, .f32⟩
  | .hbm, ⟨5, _⟩ => ⟨S896, .f32⟩
  | .hbm, ⟨6, _⟩ => ⟨S896x896, .f32⟩
  | .hbm, ⟨7, _⟩ => ⟨S896, .f32⟩
  | .hbm, ⟨8, _⟩ => ⟨S896x896, .f32⟩
  | .hbm, ⟨9, _⟩ => ⟨S896, .f32⟩
  | .hbm, ⟨10, _⟩ => ⟨S8x4096x896, .f32⟩
  | .hbm, ⟨11, _⟩ => ⟨S8x4096x896, .f32⟩
  | .hbm, ⟨12, _⟩ => ⟨S8x4096x896, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x4096x896, .f32⟩
  | .hbm, ⟨32, _⟩ => ⟨S8x4096x896, .f32⟩
  | .hbm, ⟨33, _⟩ => ⟨S1x1x896, .f32⟩
  | .hbm, ⟨34, _⟩ => ⟨S8x4096x896, .f32⟩
  | .hbm, ⟨35, _⟩ => ⟨S8x4096x896, .f32⟩
  | .hbm, ⟨36, _⟩ => ⟨S8x4096x896, .f32⟩
  | .hbm, ⟨37, _⟩ => ⟨S_, .f32⟩
  | .hbm, ⟨38, _⟩ => ⟨S8x896, .f32⟩
  | .hbm, ⟨39, _⟩ => ⟨S_, .f32⟩
  | .hbm, ⟨40, _⟩ => ⟨S8x896, .f32⟩
  | .hbm, ⟨41, _⟩ => ⟨S8x896, .f32⟩
  | .hbm, ⟨42, _⟩ => ⟨S8x896, .f32⟩
  | .hbm, ⟨43, _⟩ => ⟨S1x896, .f32⟩
  | .hbm, ⟨44, _⟩ => ⟨S8x896, .f32⟩
  | .hbm, ⟨45, _⟩ => ⟨S8x896, .f32⟩
  | .hbm, ⟨46, _⟩ => ⟨S_, .f32⟩
  | .hbm, ⟨47, _⟩ => ⟨S8x896, .f32⟩
  | .hbm, ⟨48, _⟩ => ⟨S8x896, .f32⟩
  | .hbm, ⟨49, _⟩ => ⟨S8x896, .f32⟩
  | .hbm, ⟨50, _⟩ => ⟨S1x896, .f32⟩
  | .hbm, ⟨51, _⟩ => ⟨S8x896, .f32⟩
  | .hbm, ⟨52, _⟩ => ⟨S8x896, .f32⟩
  | _, _ => ⟨S8x4096x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S896_S1x1x896_2 : S896.BroadcastsInDim S1x1x896 (![2] : Fin 1 → Fin S1x1x896.rank)
  bcast_S1x1x896_S8x4096x896_0_1_2 : S1x1x896.BroadcastsInDim S8x4096x896 (![0, 1, 2] : Fin 3 → Fin S8x4096x896.rank)
  reducesTo_S8x4096x896_S8x896_d1 : S8x4096x896.ReducesTo [1] S8x896
  bcast_S_S8x896 : S_.BroadcastsInDim S8x896 (![] : Fin 0 → Fin S8x896.rank)
  bcast_S896_S1x896_1 : S896.BroadcastsInDim S1x896 (![1] : Fin 1 → Fin S1x896.rank)
  bcast_S1x896_S8x896_0_1 : S1x896.BroadcastsInDim S8x896 (![0, 1] : Fin 2 → Fin S8x896.rank)
  dot_S8x4096x896_S896x896_S8x4096x896_2_0_01_1_n_n_wf : DotDims.WF S8x4096x896 S896x896 S8x4096x896 [2] [0] [0, 1] [1] [] []
  dot_S8x4096x896_S8x4096x896_S8x4096x4096_2_2_1_1_0_0_wf : DotDims.WF S8x4096x896 S8x4096x896 S8x4096x4096 [2] [2] [1] [1] [0] [0]
  dot_S8x4096x4096_S8x4096x896_S8x4096x896_2_1_1_2_0_0_wf : DotDims.WF S8x4096x4096 S8x4096x896 S8x4096x896 [2] [1] [1] [2] [0] [0]
  dot_S8x896_S896x896_S8x896_1_0_0_1_n_n_wf : DotDims.WF S8x896 S896x896 S8x896 [1] [0] [0] [1] [] []

variable [Facts₀]

def dot_S8x4096x896_S896x896_S8x4096x896_2_0_01_1_n_n : DotDims S8x4096x896 S896x896 S8x4096x896 where
  lhsContracting := [2]
  rhsContracting := [0]
  lhsNonContracting := [0, 1]
  rhsNonContracting := [1]
  lhsBatch := []
  rhsBatch := []
  wf := dot_S8x4096x896_S896x896_S8x4096x896_2_0_01_1_n_n_wf
def dot_S8x4096x896_S8x4096x896_S8x4096x4096_2_2_1_1_0_0 : DotDims S8x4096x896 S8x4096x896 S8x4096x4096 where
  lhsContracting := [2]
  rhsContracting := [2]
  lhsNonContracting := [1]
  rhsNonContracting := [1]
  lhsBatch := [0]
  rhsBatch := [0]
  wf := dot_S8x4096x896_S8x4096x896_S8x4096x4096_2_2_1_1_0_0_wf
def dot_S8x4096x4096_S8x4096x896_S8x4096x896_2_1_1_2_0_0 : DotDims S8x4096x4096 S8x4096x896 S8x4096x896 where
  lhsContracting := [2]
  rhsContracting := [1]
  lhsNonContracting := [1]
  rhsNonContracting := [2]
  lhsBatch := [0]
  rhsBatch := [0]
  wf := dot_S8x4096x4096_S8x4096x896_S8x4096x896_2_1_1_2_0_0_wf
def dot_S8x896_S896x896_S8x896_1_0_0_1_n_n : DotDims S8x896 S896x896 S8x896 where
  lhsContracting := [1]
  rhsContracting := [0]
  lhsNonContracting := [0]
  rhsNonContracting := [1]
  lhsBatch := []
  rhsBatch := []
  wf := dot_S8x896_S896x896_S8x896_1_0_0_1_n_n_wf

class Facts : Prop extends Facts₀ where

variable [Facts]
-- ==== Proof.K.Region0.lean ====
/-
  The first pallas_call: the key/value projection, over the grid 8 × 4 (batch × row tile).
  At a grid point the body reads two blocks whole — the tokens' block (1 × 1024 × 896, f32) and the
  fused key|value weight matrix (896 × 1792, bf16) —, rounds the tokens to bf16 and multiplies them by
  the weights into one 1024 × 1792 product accumulated in f32. The product's left half (columns
  0 … 895), rounded to bf16, is the keys' block; its right half (columns 896 … 1791), rounded to bf16,
  is the values' block. Each of the two output blocks is written whole by a single store, so what the
  body leaves in an output's buffer is a function of the two input blocks alone, whatever the buffer
  held before.
  Stated here, at a parameter `V` (the core's buffer contents when the region is entered): every
  window's block at a grid point, the two output blocks in closed form, the body's triple, the
  pipeline's proof data over them and the body obligation at every point.
-/
import proofs.«423680_j33105607917868_3_alg».proof.Proof.Gen.Kernel.Launch
import proofs.«423680_j33105607917868_3_alg».proof.Proof.Gen.Kernel.Skeleton
import proofs.«423680_j33105607917868_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tokens' window: whatever proof data has `V`'s array under it and a body that leaves the block where it
    found it, the current staging buffer holds the point's block — at a point that fetches, because the
    fetch has landed; at one that does not, because the block index has not moved since the last fetch and
    the body kept the block. The window is an input, never idle and never cut at the array's edge. -/
theorem before0_0_of {c : Dev nD} (dat : Dat τ (Elt F) Unit ℕ (Pipeline.UD sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The fused weights' window, fetched once (its block is the whole matrix at every point): the same
    statement, for the same reason — a point that does not fetch finds the block the last one left. -/
theorem before0_1_of {c : Dev nD} (dat : Dat τ (Elt F) Unit ℕ (Pipeline.UD sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

/-! ## The body's accesses: each buffer is read, and each output written, through its whole extent -/

/-- The whole of a 1 × 1024 × 896 buffer (the tokens', the keys', the values'). -/
abbrev rTok : Rect S1x1024x896 := Rect.unit (s := S1x1024x896) ![0, 0, 0] S1x1024x896.size inb_S1x1024x896_S1x1024x896_0_0_0
/-- The whole of the 896 × 1792 weight buffer. -/
abbrev rWgt : Rect S896x1792 := Rect.unit (s := S896x1792) ![0, 0] S896x1792.size inb_S896x1792_S896x1792_0_0

/-! ## What the body leaves in the two output buffers -/

/-- The keys' buffer after the body: its one store, of the product's left half rounded to bf16, over the two
    input blocks as loaded. -/
def out0_2 (x0 : Vec F S1x1024x896 .f32) (x1 : Vec F S896x1792 .bf16) : Vec F S1x1024x896 .bf16 :=
  View.canon [⟨rTok, k0_pay2 (View.ld x0 rTok) (View.ld x1 rWgt)⟩]

/-- The values' buffer after the body: its one store, of the product's right half rounded to bf16. -/
def out0_3 (x0 : Vec F S1x1024x896 .f32) (x1 : Vec F S896x1792 .bf16) : Vec F S1x1024x896 .bf16 :=
  View.canon [⟨rTok, k0_pay3 (View.ld x0 rTok) (View.ld x1 rWgt)⟩]

/-- One store through the whole extent covers the buffer: a tiling by a single block of the buffer's own size. -/
theorem cover0 (p : Vec F S1x1024x896 .bf16) (y : S1x1024x896.Idx) :
    ∃ pc ∈ ([⟨rTok, p⟩] : List (View.Piece (Elt F) S1x1024x896 .bf16)), y ∈ pc.1.set :=
  View.cover_of_tiled [⟨rTok, p⟩] S1x1024x896.size (by rfl) y

/-! ## The body's triple -/

set_option maxHeartbeats 1000000 in
/-- The body on four whole staging memrefs — the two inputs' holding `x0` and `x1`, the two outputs' holding
    anything — runs to a continuation that gets the inputs' back as they were, the keys' at `out0_2 x0 x1` and
    the values' at `out0_3 x0 x1`. The body also reads each output buffer before it stores into it; nothing
    it computes uses what it read there. -/
theorem sound_kernel0 (c : Dev nD) (E : Set ℕ) (i : grid0.Coords)
    (arg2 : Memref sig .tc .vmem S1x1024x896 .f32) (harg2 : arg2.IsWhole)
    (arg3 : Memref sig .tc .vmem S896x1792 .bf16) (harg3 : arg3.IsWhole)
    (arg4 : Memref sig .tc .vmem S1x1024x896 .bf16) (harg4 : arg4.IsWhole)
    (arg5 : Memref sig .tc .vmem S1x1024x896 .bf16) (harg5 : arg5.IsWhole)
    (x0 : Vec F S1x1024x896 .f32) (x1 : Vec F S896x1792 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0 x1)
            ∗ owns (c : Thread nD τ) arg5 fullShare (out0_3 x0 x1)) -∗ K ⟨⟩))
      ⊢ wp frame (wpE (defs₀ (F := F)) Variants.none c none) E
          (cc0__kv_project_kernel i arg2 harg2 arg3 harg3 arg4 harg4 arg5 harg5) K := by
  simp only [cc0__kv_project_kernel_eq_skeleton]; unfold cc0__kv_project_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  -- the two inputs come back untouched
  isplitl [H0]
  · iexists f0; isplitr
    · ipureintro; rfl
    · iexact H0
  isplitl [H1]
  · iexists f1; isplitr
    · ipureintro; rfl
    · iexact H1
  -- each output holds its one whole-extent store over whatever it held: the store's canonical contents
  isplitl [H2]
  · iexists _; isplitr
    swap
    · iexact H2
    ipureintro
    exact View.read_writes_eq_canon _ _ _ (cover0 _)
  iexists _; isplitr
  swap
  · iexact H3
  ipureintro
  exact View.read_writes_eq_canon _ _ _ (cover0 _)

/-! ## The pipeline's proof data -/

/-- The proof data of this pipeline on core `c`. The arrays are as the region finds them (`V`). After the body
    at point `t` the tokens' and the weights' buffers hold their blocks still, the keys' buffer holds `out0_2`
    and the values' buffer `out0_3` of those two blocks. The invariant is the one of a body that touches
    nothing but its windows; every share is whole; nothing is owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]
theorem after0_3 (c : Dev nD) (t : Fin cfg0.N) :
    (dat0 V c).after 3 t = out0_3 (iblk0 V c 0 t) (iblk0 V c 1 t) := by dsimp only [dat0]

/-- What the body finds in each input's current buffer: the point's block, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is handed at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a point: the two inputs' buffers hold their blocks, so the body's triple applies at those blocks;
    the invariant and what the core owes do not change from a point to the next and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]
  · iexact H0
  isplitl [H1]
  · iexact H1
  isplitl [H2]
  · iexists _; iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The library's body obligation for this pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Pre.lean ====
/-
  The second pallas_call (the attention kernel over the grid 8 × 16) before any run of its body:
  the two branch conditions in closed form over the grid (the first q-tile of a batch, the last one),
  where the pooled output's window is idle, the body's operands as memrefs, and the resources the
  body uses beyond its windows — the three scratch buffers it carries between grid points, its two
  DMA cells, and the two arrays (the projected keys and values) it copies from by itself.
-/
import proofs.«423680_j33105607917868_3_alg».proof.Proof.Gen.Kernel.Launch
import proofs.«423680_j33105607917868_3_alg».proof.Proof.Gen.Kernel.Skeleton
import proofs.«423680_j33105607917868_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions -/

/-- The body's first branch: taken at the first q-tile of a batch. -/
abbrev cond1_0 (i : grid1.Coords) : Prop := k1_cond1 i = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The body's second branch: taken at the last q-tile of a batch. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the pooled output's window is idle -/

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The body's operands -/

/-- One staging buffer of the output window, through which its contents are stated. -/
abbrev VO1_4 : View sig .tc .vmem S1x1x896 .f32 := (Memref.whole cc1_stg4_0 : Memref sig .tc .vmem S1x1x896 .f32).view
/-- Each window's current staging memref at point `t`, as the pipeline passes it, and its wholeness. -/
abbrev ms1_0 (t : Fin cfg1.N) : Memref sig .tc .vmem S1x256x896 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S896x896 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S896x896 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x896 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x896 .f32 := win1_4.stage (cfg1.slots t 4)
abbrev hs1_4 (t : Fin cfg1.N) : (ms1_4 t).IsWhole := hstage1_4 ((cfg1.slots t 4).cast nbuf1_4)
/-- The scratch operands: the keys' buffer, the values' buffer, the running sum. -/
abbrev scM1_0 : Memref sig .tc .vmem S4096x896 .bf16 := Memref.whole cc1_scratch0
abbrev scM1_1 : Memref sig .tc .vmem S4096x896 .bf16 := Memref.whole cc1_scratch1
abbrev scM1_4 : Memref sig .tc .vmem S1x1x896 .f32 := Memref.whole cc1_scratch4
/-- The running sum as a view: what it holds is stated through it. -/
abbrev VS1_4 : View sig .tc .vmem S1x1x896 .f32 := scM1_4.view
/-- The arrays left in HBM that the body copies from: the projected keys and values. -/
abbrev hbM1_0 : Memref sig .tc .hbm S8x4096x896 .bf16 := Memref.whole main_v7_0
abbrev hbM1_1 : Memref sig .tc .hbm S8x4096x896 .bf16 := Memref.whole main_v7_1
/-- A memref's buffer on core `c`: its contents type, and it held whole at `f`. -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The body's own DMA cells. -/
abbrev osem1 : Fin 2 → SemLoc sig := fun j => (![SemLoc.dma 14, SemLoc.dma 15] : Fin 2 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 14) 0 ∗ semVal ((c : Thread nD τ), SemLoc.dma 15) 0) := by
  rw [Pipeline.ownSems0_eq_of_list c osem1 [0, 1] (by decide) (by decide)]; rfl
/-- The arrays the body copies from, as references: unscoped, no window's array. -/
def H1 : Finset (Ref sig .tc) := {main_v7_0, main_v7_1}
theorem H1_sub : H1 ⊆ Pipeline.restRefs sig spec1 := by decide

end Cert.Kernel.Hand

end
-- ==== Proof.K.Run1A.lean ====
/-
  The attention kernel's body at the first q-tile of a batch (first branch taken, second not): it zeroes the running
  sum, copies the batch's keys and values from HBM into its two scratch buffers and waits for both copies, then adds
  the tile's pooled rows into the running sum. The pooled output's buffer is not touched. What the three scratch buffers
  end with is found by the run.
-/
import proofs.«423680_j33105607917868_3_alg».proof.Proof.Gen.Kernel.Launch
import proofs.«423680_j33105607917868_3_alg».proof.Proof.Gen.Kernel.Skeleton
import proofs.«423680_j33105607917868_3_alg».proof.Proof.Gen.Kernel.Points
import proofs.«423680_j33105607917868_3_alg».proof.Proof.K.R1Pre
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg2 : Memref sig .tc .vmem S1x256x896 .f32) (harg2 : arg2.IsWhole) (arg5 : Memref sig .tc .vmem S896x896 .bf16) (harg5 : arg5.IsWhole) (arg6 : Memref sig .tc .vmem S896x896 .bf16) (harg6 : arg6.IsWhole) (arg7 : Memref sig .tc .vmem S1x896 .f32) (harg7 : arg7.IsWhole) (arg8 : Memref sig .tc .vmem S1x1x896 .f32) (harg8 : arg8.IsWhole) (arg9 : Memref sig .tc .vmem S4096x896 .bf16) (harg9 : arg9.IsWhole) (arg10 : Memref sig .tc .vmem S4096x896 .bf16) (harg10 : arg10.IsWhole) (arg13 : Memref sig .tc .vmem S1x1x896 .f32) (harg13 : arg13.IsWhole) (hc0 : cond1_0 i) (hc1 : ¬cond1_1 i)
    (x0 : Vec F S1x256x896 .f32) (x1 : Vec F S896x896 .bf16) (x2 : Vec F S896x896 .bf16) (x3 : Vec F S1x896 .f32)
    (fh0 : HbBuf1 (F := F) c hbM1_0) (fh1 : HbBuf1 (F := F) c hbM1_1) :
    Σ' (LS0 : List (View.Piece (Elt F) S4096x896 .bf16)) (LS1 : List (View.Piece (Elt F) S4096x896 .bf16)), { LS4 : List (View.Piece (Elt F) S1x1x896 .f32) //
      ∀ (xi4 : Vec F S1x1x896 .f32) (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare x3
            ∗ owns (c : Thread nD τ) arg8 fullShare xi4
            ∗ (∃ d, owns (c : Thread nD τ) arg9 fullShare d) ∗ (∃ d, owns (c : Thread nD τ) arg10 fullShare d) ∗ (∃ d, owns (c : Thread nD τ) arg13 fullShare d)
            ∗ semVal ((c : Thread nD τ), SemLoc.dma 14) 0 ∗ semVal ((c : Thread nD τ), SemLoc.dma 15) 0
            ∗ hbPt1 c hbM1_0 fh0 ∗ hbPt1 c hbM1_1 fh1 ∗ owes (c : Thread nD τ) 0 W
            ∗ (iprop(owns (c : Thread nD τ) arg2 fullShare x0 ∗ owns (c : Thread nD τ) arg5 fullShare x1 ∗ owns (c : Thread nD τ) arg6 fullShare x2 ∗ owns (c : Thread nD τ) arg7 fullShare x3
                ∗ owns (c : Thread nD τ) arg8 fullShare xi4
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)
                ∗ (∃ f, arg13.view.loc (c : Thread nD τ) ↦[arg13.view.set]{fullShare} arg13.view.writes (Elt F) f LS4)
                ∗ semVal ((c : Thread nD τ), SemLoc.dma 14) 0 ∗ semVal ((c : Thread nD τ), SemLoc.dma 15) 0
                ∗ hbPt1 c hbM1_0 fh0 ∗ hbPt1 c hbM1_1 fh1 ∗ (∃ W', owes (c : Thread nD τ) 0 W')) -∗ K ⟨⟩))
          ⊢ wp frame (wpE (defs₀ (F := F)) Variants.none c none) Set.univ (cc1__attn_kernel i arg2 harg2 (Memref.whole main_v7_0) (Memref.isWhole_whole _) (Memref.whole main_v7_1) (Memref.isWhole_whole _) arg5 harg5 arg6 harg6 arg7 harg7 arg8 harg8 arg9 harg9 arg10 harg10 cc1_scratch2 cc1_scratch3 arg13 harg13) K } := by
  refine ⟨?_, ?_, ?_, fun xi4 W K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds4, %fs4, -, HS4⟩, Hq0, Hq1, Hh0, Hh1, HW, Hk⟩
    obtain rfl := harg2.eq_unread hf0; obtain rfl := harg5.eq_unread hf1; obtain rfl := harg6.eq_unread hf2; obtain rfl := harg7.eq_unread hf3; obtain rfl := harg8.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    isplitl [HS4]; · iexists _; iexact HS4
    isplitl [Hq0]; · iexact Hq0
    isplitl [Hq1]; · iexact Hq1
    isplitl [Hh0]; · iexact Hh0
    isplitl [Hh1]; · iexact Hh1
    iexists _; iexact HW

end Cert.Kernel.Hand

end
-- ==== Proof.K.Run1B.lean ====
/-
  The attention kernel's body at a q-tile that is neither the first nor the last of its batch (neither branch taken):
  it reads the keys and values the first tile left in the scratch buffers and adds the tile's pooled rows into the
  running sum. The pooled output's buffer is not touched. What the running sum ends with is found by the run.
-/
import proofs.«423680_j33105607917868_3_alg».proof.Proof.Gen.Kernel.Launch
import proofs.«423680_j33105607917868_3_alg».proof.Proof.Gen.Kernel.Skeleton
import proofs.«423680_j33105607917868_3_alg».proof.Proof.Gen.Kernel.Points
import proofs.«423680_j33105607917868_3_alg».proof.Proof.K.R1Pre
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg2 : Memref sig .tc .vmem S1x256x896 .f32) (harg2 : arg2.IsWhole) (arg5 : Memref sig .tc .vmem S896x896 .bf16) (harg5 : arg5.IsWhole) (arg6 : Memref sig .tc .vmem S896x896 .bf16) (harg6 : arg6.IsWhole) (arg7 : Memref sig .tc .vmem S1x896 .f32) (harg7 : arg7.IsWhole) (arg8 : Memref sig .tc .vmem S1x1x896 .f32) (harg8 : arg8.IsWhole) (arg9 : Memref sig .tc .vmem S4096x896 .bf16) (harg9 : arg9.IsWhole) (arg10 : Memref sig .tc .vmem S4096x896 .bf16) (harg10 : arg10.IsWhole) (arg13 : Memref sig .tc .vmem S1x1x896 .f32) (harg13 : arg13.IsWhole) (hc0 : ¬cond1_0 i) (hc1 : ¬cond1_1 i)
    (x0 : Vec F S1x256x896 .f32) (x1 : Vec F S896x896 .bf16) (x2 : Vec F S896x896 .bf16) (x3 : Vec F S1x896 .f32)
    (xs0 : Vec F S4096x896 .bf16) (xs1 : Vec F S4096x896 .bf16) (xs4 : Vec F S1x1x896 .f32) :
    { LS4 : List (View.Piece (Elt F) S1x1x896 .f32) //
      ∀ (xi4 : Vec F S1x1x896 .f32) (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare x3
            ∗ owns (c : Thread nD τ) arg8 fullShare xi4
            ∗ owns (c : Thread nD τ) arg9 fullShare xs0 ∗ owns (c : Thread nD τ) arg10 fullShare xs1 ∗ owns (c : Thread nD τ) arg13 fullShare xs4
            ∗ (iprop(owns (c : Thread nD τ) arg2 fullShare x0 ∗ owns (c : Thread nD τ) arg5 fullShare x1 ∗ owns (c : Thread nD τ) arg6 fullShare x2 ∗ owns (c : Thread nD τ) arg7 fullShare x3
                ∗ owns (c : Thread nD τ) arg8 fullShare xi4
                ∗ owns (c : Thread nD τ) arg9 fullShare xs0 ∗ owns (c : Thread nD τ) arg10 fullShare xs1
                ∗ (∃ f, arg13.view.loc (c : Thread nD τ) ↦[arg13.view.set]{fullShare} arg13.view.writes (Elt F) f LS4)) -∗ K ⟨⟩))
          ⊢ wp frame (wpE (defs₀ (F := F)) Variants.none c none) Set.univ (cc1__attn_kernel i arg2 harg2 (Memref.whole main_v7_0) (Memref.isWhole_whole _) (Memref.whole main_v7_1) (Memref.isWhole_whole _) arg5 harg5 arg6 harg6 arg7 harg7 arg8 harg8 arg9 harg9 arg10 harg10 cc1_scratch2 cc1_scratch3 arg13 harg13) K } := by
  refine ⟨?_, fun xi4 W K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs4, %hfs4, HS4⟩, Hk⟩
    obtain rfl := harg2.eq_unread hf0; obtain rfl := harg5.eq_unread hf1; obtain rfl := harg6.eq_unread hf2; obtain rfl := harg7.eq_unread hf3; obtain rfl := harg8.eq_unread hf4
    obtain rfl := harg9.eq_unread hfs0; obtain rfl := harg10.eq_unread hfs1; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]
    · iexists _; isplitr; · ipureintro; exact harg9.read_unread _
      iexact HS0
    isplitl [HS1]
    · iexists _; isplitr; · ipureintro; exact harg10.read_unread _
      iexact HS1
    iexists _; iexact HS4

end Cert.Kernel.Hand

end
-- ==== Proof.K.Run1C.lean ====
/-
  The attention kernel's body at the last q-tile of a batch (second branch taken, first not): it adds the tile's pooled
  rows into the running sum and stores the running sum times 1/4096 into the pooled output's buffer. What the running
  sum and the output's buffer end with is found by the run.
-/
import proofs.«423680_j33105607917868_3_alg».proof.Proof.Gen.Kernel.Launch
import proofs.«423680_j33105607917868_3_alg».proof.Proof.Gen.Kernel.Skeleton
import proofs.«423680_j33105607917868_3_alg».proof.Proof.Gen.Kernel.Points
import proofs.«423680_j33105607917868_3_alg».proof.Proof.K.R1Pre
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg2 : Memref sig .tc .vmem S1x256x896 .f32) (harg2 : arg2.IsWhole) (arg5 : Memref sig .tc .vmem S896x896 .bf16) (harg5 : arg5.IsWhole) (arg6 : Memref sig .tc .vmem S896x896 .bf16) (harg6 : arg6.IsWhole) (arg7 : Memref sig .tc .vmem S1x896 .f32) (harg7 : arg7.IsWhole) (arg8 : Memref sig .tc .vmem S1x1x896 .f32) (harg8 : arg8.IsWhole) (arg9 : Memref sig .tc .vmem S4096x896 .bf16) (harg9 : arg9.IsWhole) (arg10 : Memref sig .tc .vmem S4096x896 .bf16) (harg10 : arg10.IsWhole) (arg13 : Memref sig .tc .vmem S1x1x896 .f32) (harg13 : arg13.IsWhole) (hc0 : ¬cond1_0 i) (hc1 : cond1_1 i)
    (x0 : Vec F S1x256x896 .f32) (x1 : Vec F S896x896 .bf16) (x2 : Vec F S896x896 .bf16) (x3 : Vec F S1x896 .f32)
    (xs0 : Vec F S4096x896 .bf16) (xs1 : Vec F S4096x896 .bf16) (xs4 : Vec F S1x1x896 .f32) :
    Σ' (L4 : List (View.Piece (Elt F) S1x1x896 .f32)), { LS4 : List (View.Piece (Elt F) S1x1x896 .f32) //
      ∀ (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d)
            ∗ owns (c : Thread nD τ) arg9 fullShare xs0 ∗ owns (c : Thread nD τ) arg10 fullShare xs1 ∗ owns (c : Thread nD τ) arg13 fullShare xs4
            ∗ (iprop(owns (c : Thread nD τ) arg2 fullShare x0 ∗ owns (c : Thread nD τ) arg5 fullShare x1 ∗ owns (c : Thread nD τ) arg6 fullShare x2 ∗ owns (c : Thread nD τ) arg7 fullShare x3
                ∗ (∃ f, arg8.view.loc (c : Thread nD τ) ↦[arg8.view.set]{fullShare} arg8.view.writes (Elt F) f L4)
                ∗ owns (c : Thread nD τ) arg9 fullShare xs0 ∗ owns (c : Thread nD τ) arg10 fullShare xs1
                ∗ (∃ f, arg13.view.loc (c : Thread nD τ) ↦[arg13.view.set]{fullShare} arg13.view.writes (Elt F) f LS4)) -∗ K ⟨⟩))
          ⊢ wp frame (wpE (defs₀ (F := F)) Variants.none c none) Set.univ (cc1__attn_kernel i arg2 harg2 (Memref.whole main_v7_0) (Memref.isWhole_whole _) (Memref.whole main_v7_1) (Memref.isWhole_whole _) arg5 harg5 arg6 harg6 arg7 harg7 arg8 harg8 arg9 harg9 arg10 harg10 cc1_scratch2 cc1_scratch3 arg13 harg13) K } := by
  refine ⟨?_, ?_, fun W K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs4, %hfs4, HS4⟩, Hk⟩
    obtain rfl := harg2.eq_unread hf0; obtain rfl := harg5.eq_unread hf1; obtain rfl := harg6.eq_unread hf2; obtain rfl := harg7.eq_unread hf3
    obtain rfl := harg9.eq_unread hfs0; obtain rfl := harg10.eq_unread hfs1; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists _; isplitr; · ipureintro; exact harg9.read_unread _
      iexact HS0
    isplitl [HS1]
    · iexists _; isplitr; · ipureintro; exact harg10.read_unread _
      iexact HS1
    iexists _; iexact HS4

end Cert.Kernel.Hand

end
-- ==== Proof.K.Region1.lean ====
/-
  The second pallas_call (the attention kernel, grid 8 × 16) as proof data and body obligation, generic in the float
  instance, at a parameter `V`: the core's buffer contents when the region is entered.

  The kernel keeps three scratch buffers between grid points: the batch's keys and values, copied in from HBM at the
  first q-tile of the batch and read at the fifteen later ones, and the running sum of the pooled rows, zeroed at the
  first q-tile, added to at every tile, and written out (times 1/4096) at the last. So what the pooled output's window
  and the scratch hold after a point is defined by recursion on the point (`outsAt1`): at a first tile the first case's
  run on whatever the scratch held; at a later tile the second or third case's run on what the point before left.
  The region invariant (`PhiS1`) is, before the first point, the one for a kernel that stages operands by copies of
  its own within a point (the scratch at anything, the kernel's two DMA cells at zero, the keys' and values' arrays
  whole at their entry contents); after point `n` the same with the three scratch buffers at `outsAt1`'s components.
-/
import proofs.«423680_j33105607917868_3_alg».proof.Proof.Gen.Kernel.Launch
import proofs.«423680_j33105607917868_3_alg».proof.Proof.Gen.Kernel.Skeleton
import proofs.«423680_j33105607917868_3_alg».proof.Proof.Gen.Kernel.Points
import proofs.«423680_j33105607917868_3_alg».proof.Proof.K.R1Pre
import proofs.«423680_j33105607917868_3_alg».proof.Proof.K.Run1A
import proofs.«423680_j33105607917868_3_alg».proof.Proof.K.Run1B
import proofs.«423680_j33105607917868_3_alg».proof.Proof.K.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three cases' runs at a grid point, and what they leave -/

/-- The first case's run at point `t` (a first q-tile), on the point's memrefs and blocks. -/
abbrev runA (c : Dev nD) (t : Fin cfg1.N) (h0 : t.val % 16 = 0) (h1 : ¬t.val % 16 = 15) :=
  kernelRun1_A c (grid1.coords t) (ms1_0 t) (hs1_0 t) (ms1_1 t) (hs1_1 t) (ms1_2 t) (hs1_2 t) (ms1_3 t) (hs1_3 t) (ms1_4 t) (hs1_4 t)
    scM1_0 (Memref.isWhole_whole _) scM1_1 (Memref.isWhole_whole _) scM1_4 (Memref.isWhole_whole _)
    ((hcond1_0 t).mpr h0) (fun h => h1 ((hcond1_1 t).mp h)) (iblk1 V c 0 t) (iblk1 V c 1 t) (iblk1 V c 2 t) (iblk1 V c 3 t) (V c main_v7_0) (V c main_v7_1)
/-- The second case's run at point `t` (a middle q-tile), the scratch at what the point before left. -/
abbrev runB (c : Dev nD) (t : Fin cfg1.N) (h0 : ¬t.val % 16 = 0) (h1 : ¬t.val % 16 = 15) (xs0 xs1 : Vec F S4096x896 .bf16) (xs4 : Vec F S1x1x896 .f32) :=
  kernelRun1_B c (grid1.coords t) (ms1_0 t) (hs1_0 t) (ms1_1 t) (hs1_1 t) (ms1_2 t) (hs1_2 t) (ms1_3 t) (hs1_3 t) (ms1_4 t) (hs1_4 t)
    scM1_0 (Memref.isWhole_whole _) scM1_1 (Memref.isWhole_whole _) scM1_4 (Memref.isWhole_whole _)
    (fun h => h0 ((hcond1_0 t).mp h)) (fun h => h1 ((hcond1_1 t).mp h)) (iblk1 V c 0 t) (iblk1 V c 1 t) (iblk1 V c 2 t) (iblk1 V c 3 t) xs0 xs1 xs4
/-- The third case's run at point `t` (a last q-tile), the scratch at what the point before left. -/
abbrev runC (c : Dev nD) (t : Fin cfg1.N) (h0 : ¬t.val % 16 = 0) (h1 : t.val % 16 = 15) (xs0 xs1 : Vec F S4096x896 .bf16) (xs4 : Vec F S1x1x896 .f32) :=
  kernelRun1_C c (grid1.coords t) (ms1_0 t) (hs1_0 t) (ms1_1 t) (hs1_1 t) (ms1_2 t) (hs1_2 t) (ms1_3 t) (hs1_3 t) (ms1_4 t) (hs1_4 t)
    scM1_0 (Memref.isWhole_whole _) scM1_1 (Memref.isWhole_whole _) scM1_4 (Memref.isWhole_whole _)
    (fun h => h0 ((hcond1_0 t).mp h)) ((hcond1_1 t).mpr h1) (iblk1 V c 0 t) (iblk1 V c 1 t) (iblk1 V c 2 t) (iblk1 V c 3 t) xs0 xs1 xs4

/-- What the first case leaves in the keys' buffer: the copy's delivery read back. -/
def soutA_0 (c : Dev nD) (t : Fin cfg1.N) (h0 : t.val % 16 = 0) (h1 : ¬t.val % 16 = 15) : Vec F S4096x896 .bf16 :=
  scM1_0.view.read (Elt F) (scM1_0.view.writes (Elt F) scM1_0.view.junk (runA V c t h0 h1).1)
theorem scoverA_0 (c : Dev nD) (t : Fin cfg1.N) (h0 : t.val % 16 = 0) (h1 : ¬t.val % 16 = 15) (y : S4096x896.Idx) :
    ∃ pc ∈ (runA V c t h0 h1).1, y ∈ pc.1.set :=
  View.cover_of_tiledL (runA V c t h0 h1).1 S4096x896.size (by sl_kernel_rfl) y
/-- What the first case leaves in the values' buffer. -/
def soutA_1 (c : Dev nD) (t : Fin cfg1.N) (h0 : t.val % 16 = 0) (h1 : ¬t.val % 16 = 15) : Vec F S4096x896 .bf16 :=
  scM1_1.view.read (Elt F) (scM1_1.view.writes (Elt F) scM1_1.view.junk (runA V c t h0 h1).2.1)
theorem scoverA_1 (c : Dev nD) (t : Fin cfg1.N) (h0 : t.val % 16 = 0) (h1 : ¬t.val % 16 = 15) (y : S4096x896.Idx) :
    ∃ pc ∈ (runA V c t h0 h1).2.1, y ∈ pc.1.set :=
  View.cover_of_tiledL (runA V c t h0 h1).2.1 S4096x896.size (by sl_kernel_rfl) y
/-- What the first case leaves in the running sum. -/
def soutA_4 (c : Dev nD) (t : Fin cfg1.N) (h0 : t.val % 16 = 0) (h1 : ¬t.val % 16 = 15) : Vec F S1x1x896 .f32 :=
  VS1_4.read (Elt F) (VS1_4.writes (Elt F) VS1_4.junk (runA V c t h0 h1).2.2.1)
theorem scoverA_4 (c : Dev nD) (t : Fin cfg1.N) (h0 : t.val % 16 = 0) (h1 : ¬t.val % 16 = 15) (y : S1x1x896.Idx) :
    ∃ pc ∈ (runA V c t h0 h1).2.2.1, y ∈ pc.1.set :=
  View.cover_of_tiledL (runA V c t h0 h1).2.2.1 S1x1x896.size (by sl_kernel_rfl) y
/-- What the second case leaves in the running sum. -/
def soutB_4 (c : Dev nD) (t : Fin cfg1.N) (h0 : ¬t.val % 16 = 0) (h1 : ¬t.val % 16 = 15) (xs0 xs1 : Vec F S4096x896 .bf16) (xs4 : Vec F S1x1x896 .f32) : Vec F S1x1x896 .f32 :=
  VS1_4.read (Elt F) (VS1_4.writes (Elt F) VS1_4.junk (runB V c t h0 h1 xs0 xs1 xs4).1)
theorem scoverB_4 (c : Dev nD) (t : Fin cfg1.N) (h0 : ¬t.val % 16 = 0) (h1 : ¬t.val % 16 = 15) (xs0 xs1 : Vec F S4096x896 .bf16) (xs4 : Vec F S1x1x896 .f32) (y : S1x1x896.Idx) :
    ∃ pc ∈ (runB V c t h0 h1 xs0 xs1 xs4).1, y ∈ pc.1.set :=
  View.cover_of_tiledL (runB V c t h0 h1 xs0 xs1 xs4).1 S1x1x896.size (by sl_kernel_rfl) y
/-- What the third case leaves in the pooled output's buffer, -/
def outC_4 (c : Dev nD) (t : Fin cfg1.N) (h0 : ¬t.val % 16 = 0) (h1 : t.val % 16 = 15) (xs0 xs1 : Vec F S4096x896 .bf16) (xs4 : Vec F S1x1x896 .f32) : Vec F S1x1x896 .f32 :=
  VO1_4.read (Elt F) (VO1_4.writes (Elt F) VO1_4.junk (runC V c t h0 h1 xs0 xs1 xs4).1)
theorem coverC_4 (c : Dev nD) (t : Fin cfg1.N) (h0 : ¬t.val % 16 = 0) (h1 : t.val % 16 = 15) (xs0 xs1 : Vec F S4096x896 .bf16) (xs4 : Vec F S1x1x896 .f32) (y : S1x1x896.Idx) :
    ∃ pc ∈ (runC V c t h0 h1 xs0 xs1 xs4).1, y ∈ pc.1.set :=
  View.cover_of_tiledL (runC V c t h0 h1 xs0 xs1 xs4).1 S1x1x896.size (by sl_kernel_rfl) y
/-- and in the running sum. -/
def soutC_4 (c : Dev nD) (t : Fin cfg1.N) (h0 : ¬t.val % 16 = 0) (h1 : t.val % 16 = 15) (xs0 xs1 : Vec F S4096x896 .bf16) (xs4 : Vec F S1x1x896 .f32) : Vec F S1x1x896 .f32 :=
  VS1_4.read (Elt F) (VS1_4.writes (Elt F) VS1_4.junk (runC V c t h0 h1 xs0 xs1 xs4).2.1)
theorem scoverC_4 (c : Dev nD) (t : Fin cfg1.N) (h0 : ¬t.val % 16 = 0) (h1 : t.val % 16 = 15) (xs0 xs1 : Vec F S4096x896 .bf16) (xs4 : Vec F S1x1x896 .f32) (y : S1x1x896.Idx) :
    ∃ pc ∈ (runC V c t h0 h1 xs0 xs1 xs4).2.1, y ∈ pc.1.set :=
  View.cover_of_tiledL (runC V c t h0 h1 xs0 xs1 xs4).2.1 S1x1x896.size (by sl_kernel_rfl) y

/-! ## What the output window and the scratch hold after each point -/

/-- A placeholder for the output window's buffer at a point that does not store into it (nothing consults it: the
    window is idle there and not written back). -/
def idleOut : Vec F S1x1x896 .f32 := VO1_4.read (Elt F) VO1_4.junk

/-- The output window's buffer, the keys' buffer, the values' buffer, the running sum. -/
abbrev St1 : Type := Vec F S1x1x896 .f32 × Vec F S4096x896 .bf16 × Vec F S4096x896 .bf16 × Vec F S1x1x896 .f32

/-- THE ACCUMULATION: what they hold after the body at position `n`. -/
def outsAt1 (c : Dev nD) : (n : ℕ) → n < cfg1.N → St1 (F := F)
  | 0, hn => (idleOut, soutA_0 V c ⟨0, hn⟩ (Nat.zero_mod _) (by show ¬ 0 % 16 = 15; decide), soutA_1 V c ⟨0, hn⟩ (Nat.zero_mod _) (by show ¬ 0 % 16 = 15; decide), soutA_4 V c ⟨0, hn⟩ (Nat.zero_mod _) (by show ¬ 0 % 16 = 15; decide))
  | n + 1, hn =>
    if h0 : (n + 1) % 16 = 0 then
      (idleOut, soutA_0 V c ⟨n + 1, hn⟩ h0 (by show ¬ (n + 1) % 16 = 15; omega), soutA_1 V c ⟨n + 1, hn⟩ h0 (by show ¬ (n + 1) % 16 = 15; omega), soutA_4 V c ⟨n + 1, hn⟩ h0 (by show ¬ (n + 1) % 16 = 15; omega))
    else
      if h1 : (n + 1) % 16 = 15 then
        (outC_4 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
          (outsAt1 c n (Nat.lt_of_succ_lt hn)).2.1, (outsAt1 c n (Nat.lt_of_succ_lt hn)).2.2.1,
          soutC_4 V c ⟨n + 1, hn⟩ h0 h1 (outsAt1 c n (Nat.lt_of_succ_lt hn)).2.1 (outsAt1 c n (Nat.lt_of_succ_lt hn)).2.2.1 (outsAt1 c n (Nat.lt_of_succ_lt hn)).2.2.2)
      else
        (idleOut, (outsAt1 c n (Nat.lt_of_succ_lt hn)).2.1, (outsAt1 c n (Nat.lt_of_succ_lt hn)).2.2.1,
          soutB_4 V c ⟨n + 1, hn⟩ h0 h1 (outsAt1 c n (Nat.lt_of_succ_lt hn)).2.1 (outsAt1 c n (Nat.lt_of_succ_lt hn)).2.2.1 (outsAt1 c n (Nat.lt_of_succ_lt hn)).2.2.2)

/-- What the point before `t` left (for a point that is not the first). -/
abbrev prevAt (c : Dev nD) (t : Fin cfg1.N) : St1 (F := F) := outsAt1 V c (t.val - 1) (Nat.lt_of_le_of_lt (Nat.sub_le _ _) t.isLt)

/-- `outsAt1` at a first q-tile. -/
theorem outsAt1_A (c : Dev nD) (t : Fin cfg1.N) (h0 : t.val % 16 = 0) (h1 : ¬t.val % 16 = 15) :
    outsAt1 V c t.val t.isLt = (idleOut, soutA_0 V c t h0 h1, soutA_1 V c t h0 h1, soutA_4 V c t h0 h1) := by
  obtain ⟨n, hn⟩ := t
  cases n with
  | zero => exact rfl
  | succ n => exact (dif_pos h0).trans rfl

/-- `outsAt1` at a middle q-tile: over what the point before left. -/
theorem outsAt1_B (c : Dev nD) (t : Fin cfg1.N) (h0 : ¬t.val % 16 = 0) (h1 : ¬t.val % 16 = 15) :
    outsAt1 V c t.val t.isLt = (idleOut, (prevAt V c t).2.1, (prevAt V c t).2.2.1,
      soutB_4 V c t h0 h1 (prevAt V c t).2.1 (prevAt V c t).2.2.1 (prevAt V c t).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last q-tile: over what the point before left. -/
theorem outsAt1_C (c : Dev nD) (t : Fin cfg1.N) (h0 : ¬t.val % 16 = 0) (h1 : t.val % 16 = 15) :
    outsAt1 V c t.val t.isLt = (outC_4 V c t h0 h1 (prevAt V c t).2.1 (prevAt V c t).2.2.1 (prevAt V c t).2.2.2, (prevAt V c t).2.1, (prevAt V c t).2.2.1,
      soutC_4 V c t h0 h1 (prevAt V c t).2.1 (prevAt V c t).2.2.1 (prevAt V c t).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The arrays the body copies from, their points-tos listed. -/
theorem hbmPts1_eq (c : Dev nD) :
    (bigSep H1 (fun b => ((c : Thread nD τ).loc b) ↦{fullShare} V c b) : sProp 𝕄) = iprop(hbPt1 c hbM1_0 (V c main_v7_0) ∗ hbPt1 c hbM1_1 (V c main_v7_1)) := by
  rw [BI.bigSep_eq_bigSepL_of_eq [main_v7_0, main_v7_1] (by decide) (by decide)]; rfl

/-- The invariant with the three scratch buffers at named contents. -/
def PhiAt (c : Dev nD) (k v : Vec F S4096x896 .bf16) (a : Vec F S1x1x896 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare k ∗ owns (c : Thread nD τ) scM1_1 fullShare v ∗ owns (c : Thread nD τ) scM1_4 fullShare a)
    ∗ (∃ r, prngReg c r) ∗ iprop(semVal ((c : Thread nD τ), SemLoc.dma 14) 0 ∗ semVal ((c : Thread nD τ), SemLoc.dma 15) 0) ∗ iprop(hbPt1 c hbM1_0 (V c main_v7_0) ∗ hbPt1 c hbM1_1 (V c main_v7_1)))

/-- The invariant before the first point, conjunct by conjunct: the scratch at anything. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_4 fullShare d))
          ∗ (∃ r, prngReg c r) ∗ iprop(semVal ((c : Thread nD τ), SemLoc.dma 14) 0 ∗ semVal ((c : Thread nD τ), SemLoc.dma 15) 0) ∗ iprop(hbPt1 c hbM1_0 (V c main_v7_0) ∗ hbPt1 c hbM1_1 (V c main_v7_1))) := by
  rw [Pipeline.ΦD_eq, scopedRest1_eq, ownSems01_eq, hbmPts1_eq]; simp only [scM1_0, scM1_1, scM1_4, owns_whole]; try rfl

/-- The region invariant before position `n`. -/
def PhiS1 (c : Dev nD) : (n : ℕ) → n ≤ cfg1.N → sProp 𝕄
  | 0, _ => Pipeline.ΦD osem1 spec1 H1 V c
  | n + 1, hn => PhiAt V c (outsAt1 V c n hn).2.1 (outsAt1 V c n hn).2.2.1 (outsAt1 V c n hn).2.2.2

theorem PhiS1_zero (c : Dev nD) (n : ℕ) (h : n ≤ cfg1.N) (hz : n = 0) : PhiS1 V c n h = Pipeline.ΦD osem1 spec1 H1 V c := by
  subst hz; rfl
theorem PhiS1_succ (c : Dev nD) (n : ℕ) (hn : n < cfg1.N) :
    PhiS1 V c (n + 1) hn = PhiAt V c (outsAt1 V c n hn).2.1 (outsAt1 V c n hn).2.2.1 (outsAt1 V c n hn).2.2.2 := rfl
theorem PhiS1_pos (c : Dev nD) (n : ℕ) (h : n ≤ cfg1.N) (hz : n ≠ 0) :
    PhiS1 V c n h = PhiAt V c (outsAt1 V c (n - 1) (by omega)).2.1 (outsAt1 V c (n - 1) (by omega)).2.2.1 (outsAt1 V c (n - 1) (by omega)).2.2.2 := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant with the scratch at named contents gives the one with the scratch at anything. -/
theorem PhiAt_forget (c : Dev nD) (k v : Vec F S4096x896 .bf16) (a : Vec F S1x1x896 .f32) :
    PhiAt V c k v a ⊢ (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_4 fullShare d))
          ∗ (∃ r, prngReg c r) ∗ iprop(semVal ((c : Thread nD τ), SemLoc.dma 14) 0 ∗ semVal ((c : Thread nD τ), SemLoc.dma 15) 0) ∗ iprop(hbPt1 c hbM1_0 (V c main_v7_0) ∗ hbPt1 c hbM1_1 (V c main_v7_1))) : sProp 𝕄) := by
  unfold PhiAt
  iintro ⟨⟨HR0, HR1, HR2, HR3, HR4, HR5, HR6, HS0, HS1, HS4⟩, Hrest⟩
  isplitl [HR0 HR1 HR2 HR3 HR4 HR5 HR6 HS0 HS1 HS4]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HS0]; · iexists _; iexact HS0
    isplitl [HS1]; · iexists _; iexact HS1
    iexists _; iexact HS4
  iexact Hrest

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The first case's body at a first q-tile, from the scratch at anything: it leaves the invariant with the scratch at
    the case's contents and hands the windows' buffers back, the output's untouched. -/
theorem sound_A (c : Dev nD) (t : Fin cfg1.N) (h0 : t.val % 16 = 0) (h1 : ¬t.val % 16 = 15) (W : Waits sig Unit) (xi4 : Vec F S1x1x896 .f32)
    (K : PUnit → sProp 𝕄) :
    iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_4 fullShare d))
          ∗ (∃ r, prngReg c r) ∗ iprop(semVal ((c : Thread nD τ), SemLoc.dma 14) 0 ∗ semVal ((c : Thread nD τ), SemLoc.dma 15) 0) ∗ iprop(hbPt1 c hbM1_0 (V c main_v7_0) ∗ hbPt1 c hbM1_1 (V c main_v7_1)))
        ∗ owes (c : Thread nD τ) 0 W
        ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
        ∗ owns (c : Thread nD τ) (ms1_4 t) fullShare xi4
        ∗ (iprop(PhiAt V c (soutA_0 V c t h0 h1) (soutA_1 V c t h0 h1) (soutA_4 V c t h0 h1)
            ∗ (∃ W', owes (c : Thread nD τ) 0 W')
            ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
            ∗ owns (c : Thread nD τ) (ms1_4 t) fullShare xi4) -∗ K ⟨⟩))
      ⊢ wp frame (wpE (defs₀ (F := F)) Variants.none c none) Set.univ (bodyAt1 t) K := by
  unfold bodyAt1 PhiAt soutA_0 soutA_1 soutA_4
  iintro ⟨⟨⟨HR0, HR1, HR2, HR3, HR4, HR5, HR6, HS0, HS1, HS4⟩, Hg, ⟨Hq0, Hq1⟩, ⟨Hh0, Hh1⟩⟩, HW, H0, H1, H2, H3, H4, Hk⟩
  iapply ((runA V c t h0 h1).2.2.2 xi4 W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS4]; · iexact HS4
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, ⟨%es0, HS0⟩, ⟨%es1, HS1⟩, ⟨%es4, HS4⟩, Hq0, Hq1, Hh0, Hh1, HW'⟩
  iapply Hk
  isplitl [HR0 HR1 HR2 HR3 HR4 HR5 HR6 HS0 HS1 HS4 Hg Hq0 Hq1 Hh0 Hh1]
  · isplitl [HR0 HR1 HR2 HR3 HR4 HR5 HR6 HS0 HS1 HS4]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HS0]
      · unfold owns; iexists _; isplitr
        swap; · iexact HS0
        ipureintro; exact View.read_writes_of_cover _ _ _ _ _ (scoverA_0 V c t h0 h1)
      isplitl [HS1]
      · unfold owns; iexists _; isplitr
        swap; · iexact HS1
        ipureintro; exact View.read_writes_of_cover _ _ _ _ _ (scoverA_1 V c t h0 h1)
      unfold owns; iexists _; isplitr
      swap; · iexact HS4
      ipureintro; exact View.read_writes_of_cover _ _ _ _ _ (scoverA_4 V c t h0 h1)
    isplitl [Hg]; · iexact Hg
    isplitl [Hq0 Hq1]
    · isplitl [Hq0]; · iexact Hq0
      iexact Hq1
    isplitl [Hh0]; · iexact Hh0
    iexact Hh1
  isplitl [HW']; · iexact HW'
  isplitl [H0]; · iexact H0
  isplitl [H1]; · iexact H1
  isplitl [H2]; · iexact H2
  isplitl [H3]; · iexact H3
  iexact H4

/-- The second case's body at a middle q-tile, from the scratch at `xs0`, `xs1`, `xs4`: the keys and values stay, the
    running sum moves on, the output's buffer is untouched. -/
theorem sound_B (c : Dev nD) (t : Fin cfg1.N) (h0 : ¬t.val % 16 = 0) (h1 : ¬t.val % 16 = 15) (xs0 xs1 : Vec F S4096x896 .bf16) (xs4 : Vec F S1x1x896 .f32)
    (W : Waits sig Unit) (xi4 : Vec F S1x1x896 .f32) (K : PUnit → sProp 𝕄) :
    iprop(PhiAt V c xs0 xs1 xs4
        ∗ owes (c : Thread nD τ) 0 W
        ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
        ∗ owns (c : Thread nD τ) (ms1_4 t) fullShare xi4
        ∗ (iprop(PhiAt V c xs0 xs1 (soutB_4 V c t h0 h1 xs0 xs1 xs4)
            ∗ (∃ W', owes (c : Thread nD τ) 0 W')
            ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
            ∗ owns (c : Thread nD τ) (ms1_4 t) fullShare xi4) -∗ K ⟨⟩))
      ⊢ wp frame (wpE (defs₀ (F := F)) Variants.none c none) Set.univ (bodyAt1 t) K := by
  unfold bodyAt1 PhiAt soutB_4
  iintro ⟨⟨⟨HR0, HR1, HR2, HR3, HR4, HR5, HR6, HS0, HS1, HS4⟩, Hg, ⟨Hq0, Hq1⟩, ⟨Hh0, Hh1⟩⟩, HW, H0, H1, H2, H3, H4, Hk⟩
  iapply ((runB V c t h0 h1 xs0 xs1 xs4).2 xi4 W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS4]; · iexact HS4
  iintro ⟨H0, H1, H2, H3, H4, HS0, HS1, ⟨%es4, HS4⟩⟩
  iapply Hk
  isplitl [HR0 HR1 HR2 HR3 HR4 HR5 HR6 HS0 HS1 HS4 Hg Hq0 Hq1 Hh0 Hh1]
  · isplitl [HR0 HR1 HR2 HR3 HR4 HR5 HR6 HS0 HS1 HS4]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HS0]; · iexact HS0
      isplitl [HS1]; · iexact HS1
      unfold owns; iexists _; isplitr
      swap; · iexact HS4
      ipureintro; exact View.read_writes_of_cover _ _ _ _ _ (scoverB_4 V c t h0 h1 xs0 xs1 xs4)
    isplitl [Hg]; · iexact Hg
    isplitl [Hq0 Hq1]
    · isplitl [Hq0]; · iexact Hq0
      iexact Hq1
    isplitl [Hh0]; · iexact Hh0
    iexact Hh1
  isplitl [HW]; · iexists W; iexact HW
  isplitl [H0]; · iexact H0
  isplitl [H1]; · iexact H1
  isplitl [H2]; · iexact H2
  isplitl [H3]; · iexact H3
  iexact H4

/-- The third case's body at a last q-tile: the running sum moves on and the output's buffer takes it times 1/4096. -/
theorem sound_C (c : Dev nD) (t : Fin cfg1.N) (h0 : ¬t.val % 16 = 0) (h1 : t.val % 16 = 15) (xs0 xs1 : Vec F S4096x896 .bf16) (xs4 : Vec F S1x1x896 .f32)
    (W : Waits sig Unit) (K : PUnit → sProp 𝕄) :
    iprop(PhiAt V c xs0 xs1 xs4
        ∗ owes (c : Thread nD τ) 0 W
        ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
        ∗ (∃ d, owns (c : Thread nD τ) (ms1_4 t) fullShare d)
        ∗ (iprop(PhiAt V c xs0 xs1 (soutC_4 V c t h0 h1 xs0 xs1 xs4)
            ∗ (∃ W', owes (c : Thread nD τ) 0 W')
            ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
            ∗ owns (c : Thread nD τ) (ms1_4 t) fullShare (outC_4 V c t h0 h1 xs0 xs1 xs4)) -∗ K ⟨⟩))
      ⊢ wp frame (wpE (defs₀ (F := F)) Variants.none c none) Set.univ (bodyAt1 t) K := by
  unfold bodyAt1 PhiAt soutC_4 outC_4
  iintro ⟨⟨⟨HR0, HR1, HR2, HR3, HR4, HR5, HR6, HS0, HS1, HS4⟩, Hg, ⟨Hq0, Hq1⟩, ⟨Hh0, Hh1⟩⟩, HW, H0, H1, H2, H3, H4, Hk⟩
  iapply ((runC V c t h0 h1 xs0 xs1 xs4).2.2 W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS4]; · iexact HS4
  iintro ⟨H0, H1, H2, H3, ⟨%e4, H4⟩, HS0, HS1, ⟨%es4, HS4⟩⟩
  iapply Hk
  isplitl [HR0 HR1 HR2 HR3 HR4 HR5 HR6 HS0 HS1 HS4 Hg Hq0 Hq1 Hh0 Hh1]
  · isplitl [HR0 HR1 HR2 HR3 HR4 HR5 HR6 HS0 HS1 HS4]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HS0]; · iexact HS0
      isplitl [HS1]; · iexact HS1
      unfold owns; iexists _; isplitr
      swap; · iexact HS4
      ipureintro; exact View.read_writes_of_cover _ _ _ _ _ (scoverC_4 V c t h0 h1 xs0 xs1 xs4)
    isplitl [Hg]; · iexact Hg
    isplitl [Hq0 Hq1]
    · isplitl [Hq0]; · iexact Hq0
      iexact Hq1
    isplitl [Hh0]; · iexact Hh0
    iexact Hh1
  isplitl [HW]; · iexists W; iexact HW
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverC_4 V c t h0 h1 xs0 xs1 xs4)

set_option maxHeartbeats 4800000 in
/-- The body at any point: the inputs' memrefs hold their blocks; the closed forms say which case the point is in; the
    invariant hands the body the scratch at what the point before left (at anything before the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2, before1_3]
  rw [show (dat1 V c).Φ t.succ = PhiS1 V c (t.val + 1) t.isLt from rfl, PhiS1_succ]
  unfold Dat.owesAt Pipeline.owesWithin
  rw [show (dat1 V c).owed t.castSucc = 0 from rfl, show (dat1 V c).owed t.succ = 0 from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 128 := lt_of_lt_of_eq t.isLt (show cfg1.N = 128 from N_1)
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [outsAt1_A V c t h0 h1]; dsimp only
    by_cases hz : t.val = 0
    · rw [PhiS1_castSucc V c t, PhiS1_zero V c _ _ hz, PhiD1_eq]
      iintro ⟨HΦ, ⟨%W, -, HW⟩, ⟨%d0, H0⟩, ⟨%d1, H1⟩, ⟨%d2, H2⟩, ⟨%d3, H3⟩, ⟨%d4, H4⟩⟩
      iapply (sound_A V c t h0 h1 W _ _)
      isplitl [HΦ]; · iexact HΦ
      isplitl [HW]; · iexact HW
      isplitl [H0]; · iexact H0
      isplitl [H1]; · iexact H1
      isplitl [H2]; · iexact H2
      isplitl [H3]; · iexact H3
      isplitl [H4]; · iexact H4
      iintro ⟨HΦ, ⟨%W', HW'⟩, H0, H1, H2, H3, H4⟩
      isplitl [HΦ]; · iexact HΦ
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨HΦ0, ⟨%W, -, HW⟩, ⟨%d0, H0⟩, ⟨%d1, H1⟩, ⟨%d2, H2⟩, ⟨%d3, H3⟩, ⟨%d4, H4⟩⟩
      ihave HΦ := (PhiAt_forget V c _ _ _) $$ HΦ0
      iapply (sound_A V c t h0 h1 W _ _)
      isplitl [HΦ]; · iexact HΦ
      isplitl [HW]; · iexact HW
      isplitl [H0]; · iexact H0
      isplitl [H1]; · iexact H1
      isplitl [H2]; · iexact H2
      isplitl [H3]; · iexact H3
      isplitl [H4]; · iexact H4
      iintro ⟨HΦ, ⟨%W', HW'⟩, H0, H1, H2, H3, H4⟩
      isplitl [HΦ]; · iexact HΦ
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]; dsimp only
      rw [PhiS1_castSucc V c t, PhiS1_pos V c _ _ hz]
      iintro ⟨HΦ, ⟨%W, -, HW⟩, ⟨%d0, H0⟩, ⟨%d1, H1⟩, ⟨%d2, H2⟩, ⟨%d3, H3⟩, ⟨%d4, H4⟩⟩
      iapply (sound_C V c t h0 h1 _ _ _ W _)
      isplitl [HΦ]; · iexact HΦ
      isplitl [HW]; · iexact HW
      isplitl [H0]; · iexact H0
      isplitl [H1]; · iexact H1
      isplitl [H2]; · iexact H2
      isplitl [H3]; · iexact H3
      isplitl [H4]; · iexists _; iexact H4
      iintro ⟨HΦ, ⟨%W', HW'⟩, H0, H1, H2, H3, H4⟩
      isplitl [HΦ]; · iexact HΦ
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      rw [outsAt1_B V c t h0 h1]; dsimp only
      rw [PhiS1_castSucc V c t, PhiS1_pos V c _ _ hz]
      iintro ⟨HΦ, ⟨%W, -, HW⟩, ⟨%d0, H0⟩, ⟨%d1, H1⟩, ⟨%d2, H2⟩, ⟨%d3, H3⟩, ⟨%d4, H4⟩⟩
      iapply (sound_B V c t h0 h1 _ _ _ W _ _)
      isplitl [HΦ]; · iexact HΦ
      isplitl [HW]; · iexact HW
      isplitl [H0]; · iexact H0
      isplitl [H1]; · iexact H1
      isplitl [H2]; · iexact H2
      isplitl [H3]; · iexact H3
      isplitl [H4]; · iexact H4
      iintro ⟨HΦ, ⟨%W', HW'⟩, H0, H1, H2, H3, H4⟩
      isplitl [HΦ]; · iexact HΦ
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives back the one the region was entered with: the scratch's named contents are forgotten. -/
theorem Phi_out1 (c : Dev nD) (t : Fin (cfg1.N + 1)) (ht : t.val ≠ 0) : (dat1 V c).Φ t ⊢ Pipeline.ΦD osem1 spec1 H1 V c := by
  rw [show (dat1 V c).Φ t = PhiS1 V c t.val (Nat.le_of_lt_succ t.isLt) from rfl, PhiS1_pos V c _ _ ht, PhiD1_eq]
  exact PhiAt_forget V c _ _ _

/-- The same after the last point. -/
theorem hout1 (c : Dev nD) : (dat1 V c).Φ (Fin.last cfg1.N) ⊢ Pipeline.ΦD osem1 spec1 H1 V c :=
  Phi_out1 V c _ (by rw [Fin.val_last]; have : cfg1.N = 128 := N_1; omega)

/-- What the region is entered with is the invariant before the first point. -/
theorem hin1 (c : Dev nD) : Pipeline.ΦD osem1 spec1 H1 V c ⊢ (dat1 V c).Φ 0 := by
  rw [show (dat1 V c).Φ 0 = PhiS1 V c 0 (Nat.zero_le _) from rfl, PhiS1_zero V c 0 _ rfl]
  try exact Idealize.SL.BI.Entails.refl _

end Cert.Kernel.Hand

end
-- ==== Proof.K.Run.lean ====
/-
  THE RUN of the word-level kernel program, generic in the float instance: @main is a stretch of host operations (the
  scaled query weights, the fused key|value weights, the casts), the projection launch, the attention launch, and
  three more host stretches (the final two-layer perceptron). The buffers' contents at each boundary are a fold from the
  launch memory: a host stretch applies its operations, a launch leaves its windows' arrays at what its write-backs
  leave and every other buffer as it found it. Every weakly fair execution terminates, the result buffer ends at the
  last boundary's contents, and every argument array ends as launched (no host operation and no launch writes one).
-/
import proofs.«423680_j33105607917868_3_alg».proof.Proof.Gen.Kernel.Launch
import proofs.«423680_j33105607917868_3_alg».proof.Proof.Gen.Kernel.Skeleton
import proofs.«423680_j33105607917868_3_alg».proof.Proof.Gen.Kernel.Points
import proofs.«423680_j33105607917868_3_alg».proof.Proof.Gen.Kernel.Regions
import proofs.«423680_j33105607917868_3_alg».proof.Proof.K.Region0
import proofs.«423680_j33105607917868_3_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- After the host operations before the first launch. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the projection launch: its arrays at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention launch. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After each of the three host stretches of the perceptron. -/
abbrev W4 (c : Dev nD) : Valuation τ sig (Elt F) := StableHlo.after hostOps2 (W3 m c)
abbrev W5 (c : Dev nD) : Valuation τ sig (Elt F) := StableHlo.after hostOps2_1 (W4 m c)
abbrev W6 (c : Dev nD) : Valuation τ sig (Elt F) := StableHlo.after hostOps2_2 (W5 m c)

/-! ### The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2_2 _ hostOps2_2_writes (r := main_arg0) (by decide)
    _ = W4 m c (Proc.devRef .tc main_arg0) := StableHlo.after_of_writes_sub hostOps2_1 _ hostOps2_1_writes (r := main_arg0) (by decide)
    _ = W3 m c (Proc.devRef .tc main_arg0) := StableHlo.after_of_writes_sub hostOps2 _ hostOps2_writes (r := main_arg0) (by decide)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2_2 _ hostOps2_2_writes (r := main_arg1) (by decide)
    _ = W4 m c (Proc.devRef .tc main_arg1) := StableHlo.after_of_writes_sub hostOps2_1 _ hostOps2_1_writes (r := main_arg1) (by decide)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2_2 _ hostOps2_2_writes (r := main_arg2) (by decide)
    _ = W4 m c (Proc.devRef .tc main_arg2) := StableHlo.after_of_writes_sub hostOps2_1 _ hostOps2_1_writes (r := main_arg2) (by decide)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2_2 _ hostOps2_2_writes (r := main_arg3) (by decide)
    _ = W4 m c (Proc.devRef .tc main_arg3) := StableHlo.after_of_writes_sub hostOps2_1 _ hostOps2_1_writes (r := main_arg3) (by decide)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps2_2 _ hostOps2_2_writes (r := main_arg4) (by decide)
    _ = W4 m c (Proc.devRef .tc main_arg4) := StableHlo.after_of_writes_sub hostOps2_1 _ hostOps2_1_writes (r := main_arg4) (by decide)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps2_2 _ hostOps2_2_writes (r := main_arg5) (by decide)
    _ = W4 m c (Proc.devRef .tc main_arg5) := StableHlo.after_of_writes_sub hostOps2_1 _ hostOps2_1_writes (r := main_arg5) (by decide)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps2_2 _ hostOps2_2_writes (r := main_arg6) (by decide)
    _ = W4 m c (Proc.devRef .tc main_arg6) := StableHlo.after_of_writes_sub hostOps2_1 _ hostOps2_1_writes (r := main_arg6) (by decide)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps2_2 _ hostOps2_2_writes (r := main_arg7) (by decide)
    _ = W4 m c (Proc.devRef .tc main_arg7) := StableHlo.after_of_writes_sub hostOps2_1 _ hostOps2_1_writes (r := main_arg7) (by decide)
    _ = W3 m c (Proc.devRef .tc main_arg7) := StableHlo.after_of_writes_sub hostOps2 _ hostOps2_writes (r := main_arg7) (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps2_2 _ hostOps2_2_writes (r := main_arg8) (by decide)
    _ = W4 m c (Proc.devRef .tc main_arg8) := StableHlo.after_of_writes_sub hostOps2_1 _ hostOps2_1_writes (r := main_arg8) (by decide)
    _ = W3 m c (Proc.devRef .tc main_arg8) := StableHlo.after_of_writes_sub hostOps2 _ hostOps2_writes (r := main_arg8) (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := StableHlo.after_of_writes_sub hostOps2_2 _ hostOps2_2_writes (r := main_arg9) (by decide)
    _ = W4 m c (Proc.devRef .tc main_arg9) := StableHlo.after_of_writes_sub hostOps2_1 _ hostOps2_1_writes (r := main_arg9) (by decide)
    _ = W3 m c (Proc.devRef .tc main_arg9) := StableHlo.after_of_writes_sub hostOps2 _ hostOps2_writes (r := main_arg9) (by decide)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl

/-! ## The proof data family and the thread state -/

def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The launches as segments -/

set_option backward.isDefEq.respectTransparency.types false in
/-- The projection launch over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state: entered from every unscoped buffer at `W2`, left at `W3`. The generator
    register, the kernel's two DMA cells and the keys' and values' arrays go into the region invariant and come back. -/
def reg1 : Pipeline.RegionSeg (pcfgs (F := F)) adm (pdats m) () defs₀ 𝒱₀ L lv 1 where
  win := launch1.win.to₀
  block_pos := launch1.block_pos
  stage_whole := launch1.stage_whole
  K := Fin 2
  osem := osem1
  ho := ownSemFacts1
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V2 m c b))
  Y c := iprop((∃ r, prngReg c r) ∗ (bigSep H1 fun b => (((c : Thread nD τ)).loc b) ↦{fullShare} V2 m c b))
  Z c := bigSep (Pipeline.restRefs sig spec1 \ H1) fun b => (((c : Thread nD τ)).loc b) ↦{fullShare} V2 m c b
  hentry c := by
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    have hH : (Pipeline.unscopedRest (Ix := Unit) (Name := ℕ) (U := Pipeline.UD sig nD τ) (Lvl := ℕ) spec1 c (V2 m c) : sProp 𝕄)
        = iprop((bigSep H1 fun b => (((c : Thread nD τ)).loc b) ↦{fullShare} V2 m c b) ∗ (bigSep (Pipeline.restRefs sig spec1 \ H1) fun b => (((c : Thread nD τ)).loc b) ↦{fullShare} V2 m c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = (dat1 (V2 m) c).Φ 0 from rfl]
    refine .trans ?_ (hin1 (V2 m) c)
    rw [Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m 1 c).Φ (Fin.last _) = (dat1 (V2 m) c).Φ (Fin.last cfg1.N) from rfl]
    refine (hout1 (V2 m) c).trans ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    have hH : (Pipeline.unscopedRest (Ix := Unit) (Name := ℕ) (U := Pipeline.UD sig nD τ) (Lvl := ℕ) spec1 c (V2 m c) : sProp 𝕄)
        = iprop((bigSep H1 fun b => (((c : Thread nD τ)).loc b) ↦{fullShare} V2 m c b) ∗ (bigSep (Pipeline.restRefs sig spec1 \ H1) fun b => (((c : Thread nD τ)).loc b) ↦{fullShare} V2 m c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]

set_option backward.isDefEq.respectTransparency.types false in
/-- At the compiled mesh, from any memory with zero counters: every weakly fair execution of @main terminates, nothing
    faulting; the result buffer ends at the last boundary's contents and every argument array as launched. -/
theorem run_main : θ_run defs (onTc (τ := τ) (main (F := F))) ⟨m, fun _ => 0, ρ⟩ (fun r => ∀ c : Dev nD,
      r.2.mem ((c.tc : Thread nD τ).loc main_v18) = W6 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v18 (by decide)),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c),
       (h c _ (mem_uc main_arg7 (by decide))).trans (W6_main_arg7 m c),
       (h c _ (mem_uc main_arg8 (by decide))).trans (W6_main_arg8 m c),
       (h c _ (mem_uc main_arg9 (by decide))).trans (W6_main_arg9 m c)⟩)

end Cert.Kernel.Hand

end
-- ==== Proof.KI.Region0.lean ====
/-
  The first pallas_call: the key/value projection, over the grid 8 × 4 (batch × row tile).
  At a grid point the body reads two blocks whole — the tokens' block (1 × 1024 × 896, f32) and the
  fused key|value weight matrix (896 × 1792, bf16) —, rounds the tokens to bf16 and multiplies them by
  the weights into one 1024 × 1792 product accumulated in f32. The product's left half (columns
  0 … 895), rounded to bf16, is the keys' block; its right half (columns 896 … 1791), rounded to bf16,
  is the values' block. Each of the two output blocks is written whole by a single store, so what the
  body leaves in an output's buffer is a function of the two input blocks alone, whatever the buffer
  held before.
  Stated here, at a parameter `V` (the core's buffer contents when the region is entered): every
  window's block at a grid point, the two output blocks in closed form, the body's triple, the
  pipeline's proof data over them and the body obligation at every point.
-/
import proofs.«423680_j33105607917868_3_alg».proof.Proof.Gen.KernelIdeal.Launch
import proofs.«423680_j33105607917868_3_alg».proof.Proof.Gen.KernelIdeal.Skeleton
import proofs.«423680_j33105607917868_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tokens' window: whatever proof data has `V`'s array under it and a body that leaves the block where it
    found it, the current staging buffer holds the point's block — at a point that fetches, because the
    fetch has landed; at one that does not, because the block index has not moved since the last fetch and
    the body kept the block. The window is an input, never idle and never cut at the array's edge. -/
theorem before0_0_of {c : Dev nD} (dat : Dat τ (Elt F) Unit ℕ (Pipeline.UD sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The fused weights' window, fetched once (its block is the whole matrix at every point): the same
    statement, for the same reason — a point that does not fetch finds the block the last one left. -/
theorem before0_1_of {c : Dev nD} (dat : Dat τ (Elt F) Unit ℕ (Pipeline.UD sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

/-! ## The body's accesses: each buffer is read, and each output written, through its whole extent -/

/-- The whole of a 1 × 1024 × 896 buffer (the tokens', the keys', the values'). -/
abbrev rTok : Rect S1x1024x896 := Rect.unit (s := S1x1024x896) ![0, 0, 0] S1x1024x896.size inb_S1x1024x896_S1x1024x896_0_0_0
/-- The whole of the 896 × 1792 weight buffer. -/
abbrev rWgt : Rect S896x1792 := Rect.unit (s := S896x1792) ![0, 0] S896x1792.size inb_S896x1792_S896x1792_0_0

/-! ## What the body leaves in the two output buffers -/

/-- The keys' buffer after the body: its one store, of the product's left half rounded to bf16, over the two
    input blocks as loaded. -/
def out0_2 (x0 : Vec F S1x1024x896 .f32) (x1 : Vec F S896x1792 .bf16) : Vec F S1x1024x896 .bf16 :=
  View.canon [⟨rTok, k0_pay2 (View.ld x0 rTok) (View.ld x1 rWgt)⟩]

/-- The values' buffer after the body: its one store, of the product's right half rounded to bf16. -/
def out0_3 (x0 : Vec F S1x1024x896 .f32) (x1 : Vec F S896x1792 .bf16) : Vec F S1x1024x896 .bf16 :=
  View.canon [⟨rTok, k0_pay3 (View.ld x0 rTok) (View.ld x1 rWgt)⟩]

/-- One store through the whole extent covers the buffer: a tiling by a single block of the buffer's own size. -/
theorem cover0 (p : Vec F S1x1024x896 .bf16) (y : S1x1024x896.Idx) :
    ∃ pc ∈ ([⟨rTok, p⟩] : List (View.Piece (Elt F) S1x1024x896 .bf16)), y ∈ pc.1.set :=
  View.cover_of_tiled [⟨rTok, p⟩] S1x1024x896.size (by rfl) y

/-! ## The body's triple -/

set_option maxHeartbeats 1000000 in
/-- The body on four whole staging memrefs — the two inputs' holding `x0` and `x1`, the two outputs' holding
    anything — runs to a continuation that gets the inputs' back as they were, the keys' at `out0_2 x0 x1` and
    the values' at `out0_3 x0 x1`. The body also reads each output buffer before it stores into it; nothing
    it computes uses what it read there. -/
theorem sound_kernel0 (c : Dev nD) (E : Set ℕ) (i : grid0.Coords)
    (arg2 : Memref sig .tc .vmem S1x1024x896 .f32) (harg2 : arg2.IsWhole)
    (arg3 : Memref sig .tc .vmem S896x1792 .bf16) (harg3 : arg3.IsWhole)
    (arg4 : Memref sig .tc .vmem S1x1024x896 .bf16) (harg4 : arg4.IsWhole)
    (arg5 : Memref sig .tc .vmem S1x1024x896 .bf16) (harg5 : arg5.IsWhole)
    (x0 : Vec F S1x1024x896 .f32) (x1 : Vec F S896x1792 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0 x1)
            ∗ owns (c : Thread nD τ) arg5 fullShare (out0_3 x0 x1)) -∗ K ⟨⟩))
      ⊢ wp frame (wpE (defs₀ (F := F)) Variants.none c none) E
          (cc0__kv_project_kernel i arg2 harg2 arg3 harg3 arg4 harg4 arg5 harg5) K := by
  simp only [cc0__kv_project_kernel_eq_skeleton]; unfold cc0__kv_project_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  -- the two inputs come back untouched
  isplitl [H0]
  · iexists f0; isplitr
    · ipureintro; rfl
    · iexact H0
  isplitl [H1]
  · iexists f1; isplitr
    · ipureintro; rfl
    · iexact H1
  -- each output holds its one whole-extent store over whatever it held: the store's canonical contents
  isplitl [H2]
  · iexists _; isplitr
    swap
    · iexact H2
    ipureintro
    exact View.read_writes_eq_canon _ _ _ (cover0 _)
  iexists _; isplitr
  swap
  · iexact H3
  ipureintro
  exact View.read_writes_eq_canon _ _ _ (cover0 _)

/-! ## The pipeline's proof data -/

/-- The proof data of this pipeline on core `c`. The arrays are as the region finds them (`V`). After the body
    at point `t` the tokens' and the weights' buffers hold their blocks still, the keys' buffer holds `out0_2`
    and the values' buffer `out0_3` of those two blocks. The invariant is the one of a body that touches
    nothing but its windows; every share is whole; nothing is owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]
theorem after0_3 (c : Dev nD) (t : Fin cfg0.N) :
    (dat0 V c).after 3 t = out0_3 (iblk0 V c 0 t) (iblk0 V c 1 t) := by dsimp only [dat0]

/-- What the body finds in each input's current buffer: the point's block, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is handed at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a point: the two inputs' buffers hold their blocks, so the body's triple applies at those blocks;
    the invariant and what the core owes do not change from a point to the next and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]
  · iexact H0
  isplitl [H1]
  · iexact H1
  isplitl [H2]
  · iexists _; iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The library's body obligation for this pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Pre.lean ====
/-
  The second pallas_call (the attention kernel over the grid 8 × 16) before any run of its body:
  the two branch conditions in closed form over the grid (the first q-tile of a batch, the last one),
  where the pooled output's window is idle, the body's operands as memrefs, and the resources the
  body uses beyond its windows — the three scratch buffers it carries between grid points, its two
  DMA cells, and the two arrays (the projected keys and values) it copies from by itself.
-/
import proofs.«423680_j33105607917868_3_alg».proof.Proof.Gen.KernelIdeal.Launch
import proofs.«423680_j33105607917868_3_alg».proof.Proof.Gen.KernelIdeal.Skeleton
import proofs.«423680_j33105607917868_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions -/

/-- The body's first branch: taken at the first q-tile of a batch. -/
abbrev cond1_0 (i : grid1.Coords) : Prop := k1_cond1 i = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The body's second branch: taken at the last q-tile of a batch. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the pooled output's window is idle -/

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The body's operands -/

/-- One staging buffer of the output window, through which its contents are stated. -/
abbrev VO1_4 : View sig .tc .vmem S1x1x896 .f32 := (Memref.whole cc1_stg4_0 : Memref sig .tc .vmem S1x1x896 .f32).view
/-- Each window's current staging memref at point `t`, as the pipeline passes it, and its wholeness. -/
abbrev ms1_0 (t : Fin cfg1.N) : Memref sig .tc .vmem S1x256x896 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S896x896 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S896x896 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x896 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x896 .f32 := win1_4.stage (cfg1.slots t 4)
abbrev hs1_4 (t : Fin cfg1.N) : (ms1_4 t).IsWhole := hstage1_4 ((cfg1.slots t 4).cast nbuf1_4)
/-- The scratch operands: the keys' buffer, the values' buffer, the running sum. -/
abbrev scM1_0 : Memref sig .tc .vmem S4096x896 .bf16 := Memref.whole cc1_scratch0
abbrev scM1_1 : Memref sig .tc .vmem S4096x896 .bf16 := Memref.whole cc1_scratch1
abbrev scM1_4 : Memref sig .tc .vmem S1x1x896 .f32 := Memref.whole cc1_scratch4
/-- The running sum as a view: what it holds is stated through it. -/
abbrev VS1_4 : View sig .tc .vmem S1x1x896 .f32 := scM1_4.view
/-- The arrays left in HBM that the body copies from: the projected keys and values. -/
abbrev hbM1_0 : Memref sig .tc .hbm S8x4096x896 .bf16 := Memref.whole main_v7_0
abbrev hbM1_1 : Memref sig .tc .hbm S8x4096x896 .bf16 := Memref.whole main_v7_1
/-- A memref's buffer on core `c`: its contents type, and it held whole at `f`. -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The body's own DMA cells. -/
abbrev osem1 : Fin 2 → SemLoc sig := fun j => (![SemLoc.dma 14, SemLoc.dma 15] : Fin 2 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 14) 0 ∗ semVal ((c : Thread nD τ), SemLoc.dma 15) 0) := by
  rw [Pipeline.ownSems0_eq_of_list c osem1 [0, 1] (by decide) (by decide)]; rfl
/-- The arrays the body copies from, as references: unscoped, no window's array. -/
def H1 : Finset (Ref sig .tc) := {main_v7_0, main_v7_1}
theorem H1_sub : H1 ⊆ Pipeline.restRefs sig spec1 := by decide

end Cert.KernelIdeal.Hand

end
-- ==== Proof.KI.Run1A.lean ====
/-
  The attention kernel's body at the first q-tile of a batch (first branch taken, second not): it zeroes the running
  sum, copies the batch's keys and values from HBM into its two scratch buffers and waits for both copies, then adds
  the tile's pooled rows into the running sum. The pooled output's buffer is not touched. What the three scratch buffers
  end with is found by the run.
-/
import proofs.«423680_j33105607917868_3_alg».proof.Proof.Gen.KernelIdeal.Launch
import proofs.«423680_j33105607917868_3_alg».proof.Proof.Gen.KernelIdeal.Skeleton
import proofs.«423680_j33105607917868_3_alg».proof.Proof.Gen.KernelIdeal.Points
import proofs.«423680_j33105607917868_3_alg».proof.Proof.KI.R1Pre
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg2 : Memref sig .tc .vmem S1x256x896 .f32) (harg2 : arg2.IsWhole) (arg5 : Memref sig .tc .vmem S896x896 .bf16) (harg5 : arg5.IsWhole) (arg6 : Memref sig .tc .vmem S896x896 .bf16) (harg6 : arg6.IsWhole) (arg7 : Memref sig .tc .vmem S1x896 .f32) (harg7 : arg7.IsWhole) (arg8 : Memref sig .tc .vmem S1x1x896 .f32) (harg8 : arg8.IsWhole) (arg9 : Memref sig .tc .vmem S4096x896 .bf16) (harg9 : arg9.IsWhole) (arg10 : Memref sig .tc .vmem S4096x896 .bf16) (harg10 : arg10.IsWhole) (arg13 : Memref sig .tc .vmem S1x1x896 .f32) (harg13 : arg13.IsWhole) (hc0 : cond1_0 i) (hc1 : ¬cond1_1 i)
    (x0 : Vec F S1x256x896 .f32) (x1 : Vec F S896x896 .bf16) (x2 : Vec F S896x896 .bf16) (x3 : Vec F S1x896 .f32)
    (fh0 : HbBuf1 (F := F) c hbM1_0) (fh1 : HbBuf1 (F := F) c hbM1_1) :
    Σ' (LS0 : List (View.Piece (Elt F) S4096x896 .bf16)) (LS1 : List (View.Piece (Elt F) S4096x896 .bf16)), { LS4 : List (View.Piece (Elt F) S1x1x896 .f32) //
      ∀ (xi4 : Vec F S1x1x896 .f32) (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare x3
            ∗ owns (c : Thread nD τ) arg8 fullShare xi4
            ∗ (∃ d, owns (c : Thread nD τ) arg9 fullShare d) ∗ (∃ d, owns (c : Thread nD τ) arg10 fullShare d) ∗ (∃ d, owns (c : Thread nD τ) arg13 fullShare d)
            ∗ semVal ((c : Thread nD τ), SemLoc.dma 14) 0 ∗ semVal ((c : Thread nD τ), SemLoc.dma 15) 0
            ∗ hbPt1 c hbM1_0 fh0 ∗ hbPt1 c hbM1_1 fh1 ∗ owes (c : Thread nD τ) 0 W
            ∗ (iprop(owns (c : Thread nD τ) arg2 fullShare x0 ∗ owns (c : Thread nD τ) arg5 fullShare x1 ∗ owns (c : Thread nD τ) arg6 fullShare x2 ∗ owns (c : Thread nD τ) arg7 fullShare x3
                ∗ owns (c : Thread nD τ) arg8 fullShare xi4
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)
                ∗ (∃ f, arg13.view.loc (c : Thread nD τ) ↦[arg13.view.set]{fullShare} arg13.view.writes (Elt F) f LS4)
                ∗ semVal ((c : Thread nD τ), SemLoc.dma 14) 0 ∗ semVal ((c : Thread nD τ), SemLoc.dma 15) 0
                ∗ hbPt1 c hbM1_0 fh0 ∗ hbPt1 c hbM1_1 fh1 ∗ (∃ W', owes (c : Thread nD τ) 0 W')) -∗ K ⟨⟩))
          ⊢ wp frame (wpE (defs₀ (F := F)) Variants.none c none) Set.univ (cc1__attn_kernel i arg2 harg2 (Memref.whole main_v7_0) (Memref.isWhole_whole _) (Memref.whole main_v7_1) (Memref.isWhole_whole _) arg5 harg5 arg6 harg6 arg7 harg7 arg8 harg8 arg9 harg9 arg10 harg10 cc1_scratch2 cc1_scratch3 arg13 harg13) K } := by
  refine ⟨?_, ?_, ?_, fun xi4 W K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds4, %fs4, -, HS4⟩, Hq0, Hq1, Hh0, Hh1, HW, Hk⟩
    obtain rfl := harg2.eq_unread hf0; obtain rfl := harg5.eq_unread hf1; obtain rfl := harg6.eq_unread hf2; obtain rfl := harg7.eq_unread hf3; obtain rfl := harg8.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    isplitl [HS4]; · iexists _; iexact HS4
    isplitl [Hq0]; · iexact Hq0
    isplitl [Hq1]; · iexact Hq1
    isplitl [Hh0]; · iexact Hh0
    isplitl [Hh1]; · iexact Hh1
    iexists _; iexact HW

end Cert.KernelIdeal.Hand

end
-- ==== Proof.KI.Run1B.lean ====
/-
  The attention kernel's body at a q-tile that is neither the first nor the last of its batch (neither branch taken):
  it reads the keys and values the first tile left in the scratch buffers and adds the tile's pooled rows into the
  running sum. The pooled output's buffer is not touched. What the running sum ends with is found by the run.
-/
import proofs.«423680_j33105607917868_3_alg».proof.Proof.Gen.KernelIdeal.Launch
import proofs.«423680_j33105607917868_3_alg».proof.Proof.Gen.KernelIdeal.Skeleton
import proofs.«423680_j33105607917868_3_alg».proof.Proof.Gen.KernelIdeal.Points
import proofs.«423680_j33105607917868_3_alg».proof.Proof.KI.R1Pre
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg2 : Memref sig .tc .vmem S1x256x896 .f32) (harg2 : arg2.IsWhole) (arg5 : Memref sig .tc .vmem S896x896 .bf16) (harg5 : arg5.IsWhole) (arg6 : Memref sig .tc .vmem S896x896 .bf16) (harg6 : arg6.IsWhole) (arg7 : Memref sig .tc .vmem S1x896 .f32) (harg7 : arg7.IsWhole) (arg8 : Memref sig .tc .vmem S1x1x896 .f32) (harg8 : arg8.IsWhole) (arg9 : Memref sig .tc .vmem S4096x896 .bf16) (harg9 : arg9.IsWhole) (arg10 : Memref sig .tc .vmem S4096x896 .bf16) (harg10 : arg10.IsWhole) (arg13 : Memref sig .tc .vmem S1x1x896 .f32) (harg13 : arg13.IsWhole) (hc0 : ¬cond1_0 i) (hc1 : ¬cond1_1 i)
    (x0 : Vec F S1x256x896 .f32) (x1 : Vec F S896x896 .bf16) (x2 : Vec F S896x896 .bf16) (x3 : Vec F S1x896 .f32)
    (xs0 : Vec F S4096x896 .bf16) (xs1 : Vec F S4096x896 .bf16) (xs4 : Vec F S1x1x896 .f32) :
    { LS4 : List (View.Piece (Elt F) S1x1x896 .f32) //
      ∀ (xi4 : Vec F S1x1x896 .f32) (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare x3
            ∗ owns (c : Thread nD τ) arg8 fullShare xi4
            ∗ owns (c : Thread nD τ) arg9 fullShare xs0 ∗ owns (c : Thread nD τ) arg10 fullShare xs1 ∗ owns (c : Thread nD τ) arg13 fullShare xs4
            ∗ (iprop(owns (c : Thread nD τ) arg2 fullShare x0 ∗ owns (c : Thread nD τ) arg5 fullShare x1 ∗ owns (c : Thread nD τ) arg6 fullShare x2 ∗ owns (c : Thread nD τ) arg7 fullShare x3
                ∗ owns (c : Thread nD τ) arg8 fullShare xi4
                ∗ owns (c : Thread nD τ) arg9 fullShare xs0 ∗ owns (c : Thread nD τ) arg10 fullShare xs1
                ∗ (∃ f, arg13.view.loc (c : Thread nD τ) ↦[arg13.view.set]{fullShare} arg13.view.writes (Elt F) f LS4)) -∗ K ⟨⟩))
          ⊢ wp frame (wpE (defs₀ (F := F)) Variants.none c none) Set.univ (cc1__attn_kernel i arg2 harg2 (Memref.whole main_v7_0) (Memref.isWhole_whole _) (Memref.whole main_v7_1) (Memref.isWhole_whole _) arg5 harg5 arg6 harg6 arg7 harg7 arg8 harg8 arg9 harg9 arg10 harg10 cc1_scratch2 cc1_scratch3 arg13 harg13) K } := by
  refine ⟨?_, fun xi4 W K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs4, %hfs4, HS4⟩, Hk⟩
    obtain rfl := harg2.eq_unread hf0; obtain rfl := harg5.eq_unread hf1; obtain rfl := harg6.eq_unread hf2; obtain rfl := harg7.eq_unread hf3; obtain rfl := harg8.eq_unread hf4
    obtain rfl := harg9.eq_unread hfs0; obtain rfl := harg10.eq_unread hfs1; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]
    · iexists _; isplitr; · ipureintro; exact harg9.read_unread _
      iexact HS0
    isplitl [HS1]
    · iexists _; isplitr; · ipureintro; exact harg10.read_unread _
      iexact HS1
    iexists _; iexact HS4

end Cert.KernelIdeal.Hand

end
-- ==== Proof.KI.Run1C.lean ====
/-
  The attention kernel's body at the last q-tile of a batch (second branch taken, first not): it adds the tile's pooled
  rows into the running sum and stores the running sum times 1/4096 into the pooled output's buffer. What the running
  sum and the output's buffer end with is found by the run.
-/
import proofs.«423680_j33105607917868_3_alg».proof.Proof.Gen.KernelIdeal.Launch
import proofs.«423680_j33105607917868_3_alg».proof.Proof.Gen.KernelIdeal.Skeleton
import proofs.«423680_j33105607917868_3_alg».proof.Proof.Gen.KernelIdeal.Points
import proofs.«423680_j33105607917868_3_alg».proof.Proof.KI.R1Pre
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg2 : Memref sig .tc .vmem S1x256x896 .f32) (harg2 : arg2.IsWhole) (arg5 : Memref sig .tc .vmem S896x896 .bf16) (harg5 : arg5.IsWhole) (arg6 : Memref sig .tc .vmem S896x896 .bf16) (harg6 : arg6.IsWhole) (arg7 : Memref sig .tc .vmem S1x896 .f32) (harg7 : arg7.IsWhole) (arg8 : Memref sig .tc .vmem S1x1x896 .f32) (harg8 : arg8.IsWhole) (arg9 : Memref sig .tc .vmem S4096x896 .bf16) (harg9 : arg9.IsWhole) (arg10 : Memref sig .tc .vmem S4096x896 .bf16) (harg10 : arg10.IsWhole) (arg13 : Memref sig .tc .vmem S1x1x896 .f32) (harg13 : arg13.IsWhole) (hc0 : ¬cond1_0 i) (hc1 : cond1_1 i)
    (x0 : Vec F S1x256x896 .f32) (x1 : Vec F S896x896 .bf16) (x2 : Vec F S896x896 .bf16) (x3 : Vec F S1x896 .f32)
    (xs0 : Vec F S4096x896 .bf16) (xs1 : Vec F S4096x896 .bf16) (xs4 : Vec F S1x1x896 .f32) :
    Σ' (L4 : List (View.Piece (Elt F) S1x1x896 .f32)), { LS4 : List (View.Piece (Elt F) S1x1x896 .f32) //
      ∀ (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d)
            ∗ owns (c : Thread nD τ) arg9 fullShare xs0 ∗ owns (c : Thread nD τ) arg10 fullShare xs1 ∗ owns (c : Thread nD τ) arg13 fullShare xs4
            ∗ (iprop(owns (c : Thread nD τ) arg2 fullShare x0 ∗ owns (c : Thread nD τ) arg5 fullShare x1 ∗ owns (c : Thread nD τ) arg6 fullShare x2 ∗ owns (c : Thread nD τ) arg7 fullShare x3
                ∗ (∃ f, arg8.view.loc (c : Thread nD τ) ↦[arg8.view.set]{fullShare} arg8.view.writes (Elt F) f L4)
                ∗ owns (c : Thread nD τ) arg9 fullShare xs0 ∗ owns (c : Thread nD τ) arg10 fullShare xs1
                ∗ (∃ f, arg13.view.loc (c : Thread nD τ) ↦[arg13.view.set]{fullShare} arg13.view.writes (Elt F) f LS4)) -∗ K ⟨⟩))
          ⊢ wp frame (wpE (defs₀ (F := F)) Variants.none c none) Set.univ (cc1__attn_kernel i arg2 harg2 (Memref.whole main_v7_0) (Memref.isWhole_whole _) (Memref.whole main_v7_1) (Memref.isWhole_whole _) arg5 harg5 arg6 harg6 arg7 harg7 arg8 harg8 arg9 harg9 arg10 harg10 cc1_scratch2 cc1_scratch3 arg13 harg13) K } := by
  refine ⟨?_, ?_, fun W K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs4, %hfs4, HS4⟩, Hk⟩
    obtain rfl := harg2.eq_unread hf0; obtain rfl := harg5.eq_unread hf1; obtain rfl := harg6.eq_unread hf2; obtain rfl := harg7.eq_unread hf3
    obtain rfl := harg9.eq_unread hfs0; obtain rfl := harg10.eq_unread hfs1; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists _; isplitr; · ipureintro; exact harg9.read_unread _
      iexact HS0
    isplitl [HS1]
    · iexists _; isplitr; · ipureintro; exact harg10.read_unread _
      iexact HS1
    iexists _; iexact HS4

end Cert.KernelIdeal.Hand

end
-- ==== Proof.KI.Region1.lean ====
/-
  The second pallas_call (the attention kernel, grid 8 × 16) as proof data and body obligation, generic in the float
  instance, at a parameter `V`: the core's buffer contents when the region is entered.

  The kernel keeps three scratch buffers between grid points: the batch's keys and values, copied in from HBM at the
  first q-tile of the batch and read at the fifteen later ones, and the running sum of the pooled rows, zeroed at the
  first q-tile, added to at every tile, and written out (times 1/4096) at the last. So what the pooled output's window
  and the scratch hold after a point is defined by recursion on the point (`outsAt1`): at a first tile the first case's
  run on whatever the scratch held; at a later tile the second or third case's run on what the point before left.
  The region invariant (`PhiS1`) is, before the first point, the one for a kernel that stages operands by copies of
  its own within a point (the scratch at anything, the kernel's two DMA cells at zero, the keys' and values' arrays
  whole at their entry contents); after point `n` the same with the three scratch buffers at `outsAt1`'s components.
-/
import proofs.«423680_j33105607917868_3_alg».proof.Proof.Gen.KernelIdeal.Launch
import proofs.«423680_j33105607917868_3_alg».proof.Proof.Gen.KernelIdeal.Skeleton
import proofs.«423680_j33105607917868_3_alg».proof.Proof.Gen.KernelIdeal.Points
import proofs.«423680_j33105607917868_3_alg».proof.Proof.KI.R1Pre
import proofs.«423680_j33105607917868_3_alg».proof.Proof.KI.Run1A
import proofs.«423680_j33105607917868_3_alg».proof.Proof.KI.Run1B
import proofs.«423680_j33105607917868_3_alg».proof.Proof.KI.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three cases' runs at a grid point, and what they leave -/

/-- The first case's run at point `t` (a first q-tile), on the point's memrefs and blocks. -/
abbrev runA (c : Dev nD) (t : Fin cfg1.N) (h0 : t.val % 16 = 0) (h1 : ¬t.val % 16 = 15) :=
  kernelRun1_A c (grid1.coords t) (ms1_0 t) (hs1_0 t) (ms1_1 t) (hs1_1 t) (ms1_2 t) (hs1_2 t) (ms1_3 t) (hs1_3 t) (ms1_4 t) (hs1_4 t)
    scM1_0 (Memref.isWhole_whole _) scM1_1 (Memref.isWhole_whole _) scM1_4 (Memref.isWhole_whole _)
    ((hcond1_0 t).mpr h0) (fun h => h1 ((hcond1_1 t).mp h)) (iblk1 V c 0 t) (iblk1 V c 1 t) (iblk1 V c 2 t) (iblk1 V c 3 t) (V c main_v7_0) (V c main_v7_1)
/-- The second case's run at point `t` (a middle q-tile), the scratch at what the point before left. -/
abbrev runB (c : Dev nD) (t : Fin cfg1.N) (h0 : ¬t.val % 16 = 0) (h1 : ¬t.val % 16 = 15) (xs0 xs1 : Vec F S4096x896 .bf16) (xs4 : Vec F S1x1x896 .f32) :=
  kernelRun1_B c (grid1.coords t) (ms1_0 t) (hs1_0 t) (ms1_1 t) (hs1_1 t) (ms1_2 t) (hs1_2 t) (ms1_3 t) (hs1_3 t) (ms1_4 t) (hs1_4 t)
    scM1_0 (Memref.isWhole_whole _) scM1_1 (Memref.isWhole_whole _) scM1_4 (Memref.isWhole_whole _)
    (fun h => h0 ((hcond1_0 t).mp h)) (fun h => h1 ((hcond1_1 t).mp h)) (iblk1 V c 0 t) (iblk1 V c 1 t) (iblk1 V c 2 t) (iblk1 V c 3 t) xs0 xs1 xs4
/-- The third case's run at point `t` (a last q-tile), the scratch at what the point before left. -/
abbrev runC (c : Dev nD) (t : Fin cfg1.N) (h0 : ¬t.val % 16 = 0) (h1 : t.val % 16 = 15) (xs0 xs1 : Vec F S4096x896 .bf16) (xs4 : Vec F S1x1x896 .f32) :=
  kernelRun1_C c (grid1.coords t) (ms1_0 t) (hs1_0 t) (ms1_1 t) (hs1_1 t) (ms1_2 t) (hs1_2 t) (ms1_3 t) (hs1_3 t) (ms1_4 t) (hs1_4 t)
    scM1_0 (Memref.isWhole_whole _) scM1_1 (Memref.isWhole_whole _) scM1_4 (Memref.isWhole_whole _)
    (fun h => h0 ((hcond1_0 t).mp h)) ((hcond1_1 t).mpr h1) (iblk1 V c 0 t) (iblk1 V c 1 t) (iblk1 V c 2 t) (iblk1 V c 3 t) xs0 xs1 xs4

/-- What the first case leaves in the keys' buffer: the copy's delivery read back. -/
def soutA_0 (c : Dev nD) (t : Fin cfg1.N) (h0 : t.val % 16 = 0) (h1 : ¬t.val % 16 = 15) : Vec F S4096x896 .bf16 :=
  scM1_0.view.read (Elt F) (scM1_0.view.writes (Elt F) scM1_0.view.junk (runA V c t h0 h1).1)
theorem scoverA_0 (c : Dev nD) (t : Fin cfg1.N) (h0 : t.val % 16 = 0) (h1 : ¬t.val % 16 = 15) (y : S4096x896.Idx) :
    ∃ pc ∈ (runA V c t h0 h1).1, y ∈ pc.1.set :=
  View.cover_of_tiledL (runA V c t h0 h1).1 S4096x896.size (by sl_kernel_rfl) y
/-- What the first case leaves in the values' buffer. -/
def soutA_1 (c : Dev nD) (t : Fin cfg1.N) (h0 : t.val % 16 = 0) (h1 : ¬t.val % 16 = 15) : Vec F S4096x896 .bf16 :=
  scM1_1.view.read (Elt F) (scM1_1.view.writes (Elt F) scM1_1.view.junk (runA V c t h0 h1).2.1)
theorem scoverA_1 (c : Dev nD) (t : Fin cfg1.N) (h0 : t.val % 16 = 0) (h1 : ¬t.val % 16 = 15) (y : S4096x896.Idx) :
    ∃ pc ∈ (runA V c t h0 h1).2.1, y ∈ pc.1.set :=
  View.cover_of_tiledL (runA V c t h0 h1).2.1 S4096x896.size (by sl_kernel_rfl) y
/-- What the first case leaves in the running sum. -/
def soutA_4 (c : Dev nD) (t : Fin cfg1.N) (h0 : t.val % 16 = 0) (h1 : ¬t.val % 16 = 15) : Vec F S1x1x896 .f32 :=
  VS1_4.read (Elt F) (VS1_4.writes (Elt F) VS1_4.junk (runA V c t h0 h1).2.2.1)
theorem scoverA_4 (c : Dev nD) (t : Fin cfg1.N) (h0 : t.val % 16 = 0) (h1 : ¬t.val % 16 = 15) (y : S1x1x896.Idx) :
    ∃ pc ∈ (runA V c t h0 h1).2.2.1, y ∈ pc.1.set :=
  View.cover_of_tiledL (runA V c t h0 h1).2.2.1 S1x1x896.size (by sl_kernel_rfl) y
/-- What the second case leaves in the running sum. -/
def soutB_4 (c : Dev nD) (t : Fin cfg1.N) (h0 : ¬t.val % 16 = 0) (h1 : ¬t.val % 16 = 15) (xs0 xs1 : Vec F S4096x896 .bf16) (xs4 : Vec F S1x1x896 .f32) : Vec F S1x1x896 .f32 :=
  VS1_4.read (Elt F) (VS1_4.writes (Elt F) VS1_4.junk (runB V c t h0 h1 xs0 xs1 xs4).1)
theorem scoverB_4 (c : Dev nD) (t : Fin cfg1.N) (h0 : ¬t.val % 16 = 0) (h1 : ¬t.val % 16 = 15) (xs0 xs1 : Vec F S4096x896 .bf16) (xs4 : Vec F S1x1x896 .f32) (y : S1x1x896.Idx) :
    ∃ pc ∈ (runB V c t h0 h1 xs0 xs1 xs4).1, y ∈ pc.1.set :=
  View.cover_of_tiledL (runB V c t h0 h1 xs0 xs1 xs4).1 S1x1x896.size (by sl_kernel_rfl) y
/-- What the third case leaves in the pooled output's buffer, -/
def outC_4 (c : Dev nD) (t : Fin cfg1.N) (h0 : ¬t.val % 16 = 0) (h1 : t.val % 16 = 15) (xs0 xs1 : Vec F S4096x896 .bf16) (xs4 : Vec F S1x1x896 .f32) : Vec F S1x1x896 .f32 :=
  VO1_4.read (Elt F) (VO1_4.writes (Elt F) VO1_4.junk (runC V c t h0 h1 xs0 xs1 xs4).1)
theorem coverC_4 (c : Dev nD) (t : Fin cfg1.N) (h0 : ¬t.val % 16 = 0) (h1 : t.val % 16 = 15) (xs0 xs1 : Vec F S4096x896 .bf16) (xs4 : Vec F S1x1x896 .f32) (y : S1x1x896.Idx) :
    ∃ pc ∈ (runC V c t h0 h1 xs0 xs1 xs4).1, y ∈ pc.1.set :=
  View.cover_of_tiledL (runC V c t h0 h1 xs0 xs1 xs4).1 S1x1x896.size (by sl_kernel_rfl) y
/-- and in the running sum. -/
def soutC_4 (c : Dev nD) (t : Fin cfg1.N) (h0 : ¬t.val % 16 = 0) (h1 : t.val % 16 = 15) (xs0 xs1 : Vec F S4096x896 .bf16) (xs4 : Vec F S1x1x896 .f32) : Vec F S1x1x896 .f32 :=
  VS1_4.read (Elt F) (VS1_4.writes (Elt F) VS1_4.junk (runC V c t h0 h1 xs0 xs1 xs4).2.1)
theorem scoverC_4 (c : Dev nD) (t : Fin cfg1.N) (h0 : ¬t.val % 16 = 0) (h1 : t.val % 16 = 15) (xs0 xs1 : Vec F S4096x896 .bf16) (xs4 : Vec F S1x1x896 .f32) (y : S1x1x896.Idx) :
    ∃ pc ∈ (runC V c t h0 h1 xs0 xs1 xs4).2.1, y ∈ pc.1.set :=
  View.cover_of_tiledL (runC V c t h0 h1 xs0 xs1 xs4).2.1 S1x1x896.size (by sl_kernel_rfl) y

/-! ## What the output window and the scratch hold after each point -/

/-- A placeholder for the output window's buffer at a point that does not store into it (nothing consults it: the
    window is idle there and not written back). -/
def idleOut : Vec F S1x1x896 .f32 := VO1_4.read (Elt F) VO1_4.junk

/-- The output window's buffer, the keys' buffer, the values' buffer, the running sum. -/
abbrev St1 : Type := Vec F S1x1x896 .f32 × Vec F S4096x896 .bf16 × Vec F S4096x896 .bf16 × Vec F S1x1x896 .f32

/-- THE ACCUMULATION: what they hold after the body at position `n`. -/
def outsAt1 (c : Dev nD) : (n : ℕ) → n < cfg1.N → St1 (F := F)
  | 0, hn => (idleOut, soutA_0 V c ⟨0, hn⟩ (Nat.zero_mod _) (by show ¬ 0 % 16 = 15; decide), soutA_1 V c ⟨0, hn⟩ (Nat.zero_mod _) (by show ¬ 0 % 16 = 15; decide), soutA_4 V c ⟨0, hn⟩ (Nat.zero_mod _) (by show ¬ 0 % 16 = 15; decide))
  | n + 1, hn =>
    if h0 : (n + 1) % 16 = 0 then
      (idleOut, soutA_0 V c ⟨n + 1, hn⟩ h0 (by show ¬ (n + 1) % 16 = 15; omega), soutA_1 V c ⟨n + 1, hn⟩ h0 (by show ¬ (n + 1) % 16 = 15; omega), soutA_4 V c ⟨n + 1, hn⟩ h0 (by show ¬ (n + 1) % 16 = 15; omega))
    else
      if h1 : (n + 1) % 16 = 15 then
        (outC_4 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
          (outsAt1 c n (Nat.lt_of_succ_lt hn)).2.1, (outsAt1 c n (Nat.lt_of_succ_lt hn)).2.2.1,
          soutC_4 V c ⟨n + 1, hn⟩ h0 h1 (outsAt1 c n (Nat.lt_of_succ_lt hn)).2.1 (outsAt1 c n (Nat.lt_of_succ_lt hn)).2.2.1 (outsAt1 c n (Nat.lt_of_succ_lt hn)).2.2.2)
      else
        (idleOut, (outsAt1 c n (Nat.lt_of_succ_lt hn)).2.1, (outsAt1 c n (Nat.lt_of_succ_lt hn)).2.2.1,
          soutB_4 V c ⟨n + 1, hn⟩ h0 h1 (outsAt1 c n (Nat.lt_of_succ_lt hn)).2.1 (outsAt1 c n (Nat.lt_of_succ_lt hn)).2.2.1 (outsAt1 c n (Nat.lt_of_succ_lt hn)).2.2.2)

/-- What the point before `t` left (for a point that is not the first). -/
abbrev prevAt (c : Dev nD) (t : Fin cfg1.N) : St1 (F := F) := outsAt1 V c (t.val - 1) (Nat.lt_of_le_of_lt (Nat.sub_le _ _) t.isLt)

/-- `outsAt1` at a first q-tile. -/
theorem outsAt1_A (c : Dev nD) (t : Fin cfg1.N) (h0 : t.val % 16 = 0) (h1 : ¬t.val % 16 = 15) :
    outsAt1 V c t.val t.isLt = (idleOut, soutA_0 V c t h0 h1, soutA_1 V c t h0 h1, soutA_4 V c t h0 h1) := by
  obtain ⟨n, hn⟩ := t
  cases n with
  | zero => exact rfl
  | succ n => exact (dif_pos h0).trans rfl

/-- `outsAt1` at a middle q-tile: over what the point before left. -/
theorem outsAt1_B (c : Dev nD) (t : Fin cfg1.N) (h0 : ¬t.val % 16 = 0) (h1 : ¬t.val % 16 = 15) :
    outsAt1 V c t.val t.isLt = (idleOut, (prevAt V c t).2.1, (prevAt V c t).2.2.1,
      soutB_4 V c t h0 h1 (prevAt V c t).2.1 (prevAt V c t).2.2.1 (prevAt V c t).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last q-tile: over what the point before left. -/
theorem outsAt1_C (c : Dev nD) (t : Fin cfg1.N) (h0 : ¬t.val % 16 = 0) (h1 : t.val % 16 = 15) :
    outsAt1 V c t.val t.isLt = (outC_4 V c t h0 h1 (prevAt V c t).2.1 (prevAt V c t).2.2.1 (prevAt V c t).2.2.2, (prevAt V c t).2.1, (prevAt V c t).2.2.1,
      soutC_4 V c t h0 h1 (prevAt V c t).2.1 (prevAt V c t).2.2.1 (prevAt V c t).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The arrays the body copies from, their points-tos listed. -/
theorem hbmPts1_eq (c : Dev nD) :
    (bigSep H1 (fun b => ((c : Thread nD τ).loc b) ↦{fullShare} V c b) : sProp 𝕄) = iprop(hbPt1 c hbM1_0 (V c main_v7_0) ∗ hbPt1 c hbM1_1 (V c main_v7_1)) := by
  rw [BI.bigSep_eq_bigSepL_of_eq [main_v7_0, main_v7_1] (by decide) (by decide)]; rfl

/-- The invariant with the three scratch buffers at named contents. -/
def PhiAt (c : Dev nD) (k v : Vec F S4096x896 .bf16) (a : Vec F S1x1x896 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare k ∗ owns (c : Thread nD τ) scM1_1 fullShare v ∗ owns (c : Thread nD τ) scM1_4 fullShare a)
    ∗ (∃ r, prngReg c r) ∗ iprop(semVal ((c : Thread nD τ), SemLoc.dma 14) 0 ∗ semVal ((c : Thread nD τ), SemLoc.dma 15) 0) ∗ iprop(hbPt1 c hbM1_0 (V c main_v7_0) ∗ hbPt1 c hbM1_1 (V c main_v7_1)))

/-- The invariant before the first point, conjunct by conjunct: the scratch at anything. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_4 fullShare d))
          ∗ (∃ r, prngReg c r) ∗ iprop(semVal ((c : Thread nD τ), SemLoc.dma 14) 0 ∗ semVal ((c : Thread nD τ), SemLoc.dma 15) 0) ∗ iprop(hbPt1 c hbM1_0 (V c main_v7_0) ∗ hbPt1 c hbM1_1 (V c main_v7_1))) := by
  rw [Pipeline.ΦD_eq, scopedRest1_eq, ownSems01_eq, hbmPts1_eq]; simp only [scM1_0, scM1_1, scM1_4, owns_whole]; try rfl

/-- The region invariant before position `n`. -/
def PhiS1 (c : Dev nD) : (n : ℕ) → n ≤ cfg1.N → sProp 𝕄
  | 0, _ => Pipeline.ΦD osem1 spec1 H1 V c
  | n + 1, hn => PhiAt V c (outsAt1 V c n hn).2.1 (outsAt1 V c n hn).2.2.1 (outsAt1 V c n hn).2.2.2

theorem PhiS1_zero (c : Dev nD) (n : ℕ) (h : n ≤ cfg1.N) (hz : n = 0) : PhiS1 V c n h = Pipeline.ΦD osem1 spec1 H1 V c := by
  subst hz; rfl
theorem PhiS1_succ (c : Dev nD) (n : ℕ) (hn : n < cfg1.N) :
    PhiS1 V c (n + 1) hn = PhiAt V c (outsAt1 V c n hn).2.1 (outsAt1 V c n hn).2.2.1 (outsAt1 V c n hn).2.2.2 := rfl
theorem PhiS1_pos (c : Dev nD) (n : ℕ) (h : n ≤ cfg1.N) (hz : n ≠ 0) :
    PhiS1 V c n h = PhiAt V c (outsAt1 V c (n - 1) (by omega)).2.1 (outsAt1 V c (n - 1) (by omega)).2.2.1 (outsAt1 V c (n - 1) (by omega)).2.2.2 := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant with the scratch at named contents gives the one with the scratch at anything. -/
theorem PhiAt_forget (c : Dev nD) (k v : Vec F S4096x896 .bf16) (a : Vec F S1x1x896 .f32) :
    PhiAt V c k v a ⊢ (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_4 fullShare d))
          ∗ (∃ r, prngReg c r) ∗ iprop(semVal ((c : Thread nD τ), SemLoc.dma 14) 0 ∗ semVal ((c : Thread nD τ), SemLoc.dma 15) 0) ∗ iprop(hbPt1 c hbM1_0 (V c main_v7_0) ∗ hbPt1 c hbM1_1 (V c main_v7_1))) : sProp 𝕄) := by
  unfold PhiAt
  iintro ⟨⟨HR0, HR1, HR2, HR3, HR4, HR5, HR6, HS0, HS1, HS4⟩, Hrest⟩
  isplitl [HR0 HR1 HR2 HR3 HR4 HR5 HR6 HS0 HS1 HS4]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HS0]; · iexists _; iexact HS0
    isplitl [HS1]; · iexists _; iexact HS1
    iexists _; iexact HS4
  iexact Hrest

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The first case's body at a first q-tile, from the scratch at anything: it leaves the invariant with the scratch at
    the case's contents and hands the windows' buffers back, the output's untouched. -/
theorem sound_A (c : Dev nD) (t : Fin cfg1.N) (h0 : t.val % 16 = 0) (h1 : ¬t.val % 16 = 15) (W : Waits sig Unit) (xi4 : Vec F S1x1x896 .f32)
    (K : PUnit → sProp 𝕄) :
    iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_4 fullShare d))
          ∗ (∃ r, prngReg c r) ∗ iprop(semVal ((c : Thread nD τ), SemLoc.dma 14) 0 ∗ semVal ((c : Thread nD τ), SemLoc.dma 15) 0) ∗ iprop(hbPt1 c hbM1_0 (V c main_v7_0) ∗ hbPt1 c hbM1_1 (V c main_v7_1)))
        ∗ owes (c : Thread nD τ) 0 W
        ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
        ∗ owns (c : Thread nD τ) (ms1_4 t) fullShare xi4
        ∗ (iprop(PhiAt V c (soutA_0 V c t h0 h1) (soutA_1 V c t h0 h1) (soutA_4 V c t h0 h1)
            ∗ (∃ W', owes (c : Thread nD τ) 0 W')
            ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
            ∗ owns (c : Thread nD τ) (ms1_4 t) fullShare xi4) -∗ K ⟨⟩))
      ⊢ wp frame (wpE (defs₀ (F := F)) Variants.none c none) Set.univ (bodyAt1 t) K := by
  unfold bodyAt1 PhiAt soutA_0 soutA_1 soutA_4
  iintro ⟨⟨⟨HR0, HR1, HR2, HR3, HR4, HR5, HR6, HS0, HS1, HS4⟩, Hg, ⟨Hq0, Hq1⟩, ⟨Hh0, Hh1⟩⟩, HW, H0, H1, H2, H3, H4, Hk⟩
  iapply ((runA V c t h0 h1).2.2.2 xi4 W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS4]; · iexact HS4
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, ⟨%es0, HS0⟩, ⟨%es1, HS1⟩, ⟨%es4, HS4⟩, Hq0, Hq1, Hh0, Hh1, HW'⟩
  iapply Hk
  isplitl [HR0 HR1 HR2 HR3 HR4 HR5 HR6 HS0 HS1 HS4 Hg Hq0 Hq1 Hh0 Hh1]
  · isplitl [HR0 HR1 HR2 HR3 HR4 HR5 HR6 HS0 HS1 HS4]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HS0]
      · unfold owns; iexists _; isplitr
        swap; · iexact HS0
        ipureintro; exact View.read_writes_of_cover _ _ _ _ _ (scoverA_0 V c t h0 h1)
      isplitl [HS1]
      · unfold owns; iexists _; isplitr
        swap; · iexact HS1
        ipureintro; exact View.read_writes_of_cover _ _ _ _ _ (scoverA_1 V c t h0 h1)
      unfold owns; iexists _; isplitr
      swap; · iexact HS4
      ipureintro; exact View.read_writes_of_cover _ _ _ _ _ (scoverA_4 V c t h0 h1)
    isplitl [Hg]; · iexact Hg
    isplitl [Hq0 Hq1]
    · isplitl [Hq0]; · iexact Hq0
      iexact Hq1
    isplitl [Hh0]; · iexact Hh0
    iexact Hh1
  isplitl [HW']; · iexact HW'
  isplitl [H0]; · iexact H0
  isplitl [H1]; · iexact H1
  isplitl [H2]; · iexact H2
  isplitl [H3]; · iexact H3
  iexact H4

/-- The second case's body at a middle q-tile, from the scratch at `xs0`, `xs1`, `xs4`: the keys and values stay, the
    running sum moves on, the output's buffer is untouched. -/
theorem sound_B (c : Dev nD) (t : Fin cfg1.N) (h0 : ¬t.val % 16 = 0) (h1 : ¬t.val % 16 = 15) (xs0 xs1 : Vec F S4096x896 .bf16) (xs4 : Vec F S1x1x896 .f32)
    (W : Waits sig Unit) (xi4 : Vec F S1x1x896 .f32) (K : PUnit → sProp 𝕄) :
    iprop(PhiAt V c xs0 xs1 xs4
        ∗ owes (c : Thread nD τ) 0 W
        ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
        ∗ owns (c : Thread nD τ) (ms1_4 t) fullShare xi4
        ∗ (iprop(PhiAt V c xs0 xs1 (soutB_4 V c t h0 h1 xs0 xs1 xs4)
            ∗ (∃ W', owes (c : Thread nD τ) 0 W')
            ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
            ∗ owns (c : Thread nD τ) (ms1_4 t) fullShare xi4) -∗ K ⟨⟩))
      ⊢ wp frame (wpE (defs₀ (F := F)) Variants.none c none) Set.univ (bodyAt1 t) K := by
  unfold bodyAt1 PhiAt soutB_4
  iintro ⟨⟨⟨HR0, HR1, HR2, HR3, HR4, HR5, HR6, HS0, HS1, HS4⟩, Hg, ⟨Hq0, Hq1⟩, ⟨Hh0, Hh1⟩⟩, HW, H0, H1, H2, H3, H4, Hk⟩
  iapply ((runB V c t h0 h1 xs0 xs1 xs4).2 xi4 W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS4]; · iexact HS4
  iintro ⟨H0, H1, H2, H3, H4, HS0, HS1, ⟨%es4, HS4⟩⟩
  iapply Hk
  isplitl [HR0 HR1 HR2 HR3 HR4 HR5 HR6 HS0 HS1 HS4 Hg Hq0 Hq1 Hh0 Hh1]
  · isplitl [HR0 HR1 HR2 HR3 HR4 HR5 HR6 HS0 HS1 HS4]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HS0]; · iexact HS0
      isplitl [HS1]; · iexact HS1
      unfold owns; iexists _; isplitr
      swap; · iexact HS4
      ipureintro; exact View.read_writes_of_cover _ _ _ _ _ (scoverB_4 V c t h0 h1 xs0 xs1 xs4)
    isplitl [Hg]; · iexact Hg
    isplitl [Hq0 Hq1]
    · isplitl [Hq0]; · iexact Hq0
      iexact Hq1
    isplitl [Hh0]; · iexact Hh0
    iexact Hh1
  isplitl [HW]; · iexists W; iexact HW
  isplitl [H0]; · iexact H0
  isplitl [H1]; · iexact H1
  isplitl [H2]; · iexact H2
  isplitl [H3]; · iexact H3
  iexact H4

/-- The third case's body at a last q-tile: the running sum moves on and the output's buffer takes it times 1/4096. -/
theorem sound_C (c : Dev nD) (t : Fin cfg1.N) (h0 : ¬t.val % 16 = 0) (h1 : t.val % 16 = 15) (xs0 xs1 : Vec F S4096x896 .bf16) (xs4 : Vec F S1x1x896 .f32)
    (W : Waits sig Unit) (K : PUnit → sProp 𝕄) :
    iprop(PhiAt V c xs0 xs1 xs4
        ∗ owes (c : Thread nD τ) 0 W
        ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
        ∗ (∃ d, owns (c : Thread nD τ) (ms1_4 t) fullShare d)
        ∗ (iprop(PhiAt V c xs0 xs1 (soutC_4 V c t h0 h1 xs0 xs1 xs4)
            ∗ (∃ W', owes (c : Thread nD τ) 0 W')
            ∗ owns (c : Thread nD τ) (ms1_0 t) fullShare (iblk1 V c 0 t) ∗ owns (c : Thread nD τ) (ms1_1 t) fullShare (iblk1 V c 1 t)
        ∗ owns (c : Thread nD τ) (ms1_2 t) fullShare (iblk1 V c 2 t) ∗ owns (c : Thread nD τ) (ms1_3 t) fullShare (iblk1 V c 3 t)
            ∗ owns (c : Thread nD τ) (ms1_4 t) fullShare (outC_4 V c t h0 h1 xs0 xs1 xs4)) -∗ K ⟨⟩))
      ⊢ wp frame (wpE (defs₀ (F := F)) Variants.none c none) Set.univ (bodyAt1 t) K := by
  unfold bodyAt1 PhiAt soutC_4 outC_4
  iintro ⟨⟨⟨HR0, HR1, HR2, HR3, HR4, HR5, HR6, HS0, HS1, HS4⟩, Hg, ⟨Hq0, Hq1⟩, ⟨Hh0, Hh1⟩⟩, HW, H0, H1, H2, H3, H4, Hk⟩
  iapply ((runC V c t h0 h1 xs0 xs1 xs4).2.2 W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS4]; · iexact HS4
  iintro ⟨H0, H1, H2, H3, ⟨%e4, H4⟩, HS0, HS1, ⟨%es4, HS4⟩⟩
  iapply Hk
  isplitl [HR0 HR1 HR2 HR3 HR4 HR5 HR6 HS0 HS1 HS4 Hg Hq0 Hq1 Hh0 Hh1]
  · isplitl [HR0 HR1 HR2 HR3 HR4 HR5 HR6 HS0 HS1 HS4]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HS0]; · iexact HS0
      isplitl [HS1]; · iexact HS1
      unfold owns; iexists _; isplitr
      swap; · iexact HS4
      ipureintro; exact View.read_writes_of_cover _ _ _ _ _ (scoverC_4 V c t h0 h1 xs0 xs1 xs4)
    isplitl [Hg]; · iexact Hg
    isplitl [Hq0 Hq1]
    · isplitl [Hq0]; · iexact Hq0
      iexact Hq1
    isplitl [Hh0]; · iexact Hh0
    iexact Hh1
  isplitl [HW]; · iexists W; iexact HW
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverC_4 V c t h0 h1 xs0 xs1 xs4)

set_option maxHeartbeats 4800000 in
/-- The body at any point: the inputs' memrefs hold their blocks; the closed forms say which case the point is in; the
    invariant hands the body the scratch at what the point before left (at anything before the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2, before1_3]
  rw [show (dat1 V c).Φ t.succ = PhiS1 V c (t.val + 1) t.isLt from rfl, PhiS1_succ]
  unfold Dat.owesAt Pipeline.owesWithin
  rw [show (dat1 V c).owed t.castSucc = 0 from rfl, show (dat1 V c).owed t.succ = 0 from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 128 := lt_of_lt_of_eq t.isLt (show cfg1.N = 128 from N_1)
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [outsAt1_A V c t h0 h1]; dsimp only
    by_cases hz : t.val = 0
    · rw [PhiS1_castSucc V c t, PhiS1_zero V c _ _ hz, PhiD1_eq]
      iintro ⟨HΦ, ⟨%W, -, HW⟩, ⟨%d0, H0⟩, ⟨%d1, H1⟩, ⟨%d2, H2⟩, ⟨%d3, H3⟩, ⟨%d4, H4⟩⟩
      iapply (sound_A V c t h0 h1 W _ _)
      isplitl [HΦ]; · iexact HΦ
      isplitl [HW]; · iexact HW
      isplitl [H0]; · iexact H0
      isplitl [H1]; · iexact H1
      isplitl [H2]; · iexact H2
      isplitl [H3]; · iexact H3
      isplitl [H4]; · iexact H4
      iintro ⟨HΦ, ⟨%W', HW'⟩, H0, H1, H2, H3, H4⟩
      isplitl [HΦ]; · iexact HΦ
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨HΦ0, ⟨%W, -, HW⟩, ⟨%d0, H0⟩, ⟨%d1, H1⟩, ⟨%d2, H2⟩, ⟨%d3, H3⟩, ⟨%d4, H4⟩⟩
      ihave HΦ := (PhiAt_forget V c _ _ _) $$ HΦ0
      iapply (sound_A V c t h0 h1 W _ _)
      isplitl [HΦ]; · iexact HΦ
      isplitl [HW]; · iexact HW
      isplitl [H0]; · iexact H0
      isplitl [H1]; · iexact H1
      isplitl [H2]; · iexact H2
      isplitl [H3]; · iexact H3
      isplitl [H4]; · iexact H4
      iintro ⟨HΦ, ⟨%W', HW'⟩, H0, H1, H2, H3, H4⟩
      isplitl [HΦ]; · iexact HΦ
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]; dsimp only
      rw [PhiS1_castSucc V c t, PhiS1_pos V c _ _ hz]
      iintro ⟨HΦ, ⟨%W, -, HW⟩, ⟨%d0, H0⟩, ⟨%d1, H1⟩, ⟨%d2, H2⟩, ⟨%d3, H3⟩, ⟨%d4, H4⟩⟩
      iapply (sound_C V c t h0 h1 _ _ _ W _)
      isplitl [HΦ]; · iexact HΦ
      isplitl [HW]; · iexact HW
      isplitl [H0]; · iexact H0
      isplitl [H1]; · iexact H1
      isplitl [H2]; · iexact H2
      isplitl [H3]; · iexact H3
      isplitl [H4]; · iexists _; iexact H4
      iintro ⟨HΦ, ⟨%W', HW'⟩, H0, H1, H2, H3, H4⟩
      isplitl [HΦ]; · iexact HΦ
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      rw [outsAt1_B V c t h0 h1]; dsimp only
      rw [PhiS1_castSucc V c t, PhiS1_pos V c _ _ hz]
      iintro ⟨HΦ, ⟨%W, -, HW⟩, ⟨%d0, H0⟩, ⟨%d1, H1⟩, ⟨%d2, H2⟩, ⟨%d3, H3⟩, ⟨%d4, H4⟩⟩
      iapply (sound_B V c t h0 h1 _ _ _ W _ _)
      isplitl [HΦ]; · iexact HΦ
      isplitl [HW]; · iexact HW
      isplitl [H0]; · iexact H0
      isplitl [H1]; · iexact H1
      isplitl [H2]; · iexact H2
      isplitl [H3]; · iexact H3
      isplitl [H4]; · iexact H4
      iintro ⟨HΦ, ⟨%W', HW'⟩, H0, H1, H2, H3, H4⟩
      isplitl [HΦ]; · iexact HΦ
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives back the one the region was entered with: the scratch's named contents are forgotten. -/
theorem Phi_out1 (c : Dev nD) (t : Fin (cfg1.N + 1)) (ht : t.val ≠ 0) : (dat1 V c).Φ t ⊢ Pipeline.ΦD osem1 spec1 H1 V c := by
  rw [show (dat1 V c).Φ t = PhiS1 V c t.val (Nat.le_of_lt_succ t.isLt) from rfl, PhiS1_pos V c _ _ ht, PhiD1_eq]
  exact PhiAt_forget V c _ _ _

/-- The same after the last point. -/
theorem hout1 (c : Dev nD) : (dat1 V c).Φ (Fin.last cfg1.N) ⊢ Pipeline.ΦD osem1 spec1 H1 V c :=
  Phi_out1 V c _ (by rw [Fin.val_last]; have : cfg1.N = 128 := N_1; omega)

/-- What the region is entered with is the invariant before the first point. -/
theorem hin1 (c : Dev nD) : Pipeline.ΦD osem1 spec1 H1 V c ⊢ (dat1 V c).Φ 0 := by
  rw [show (dat1 V c).Φ 0 = PhiS1 V c 0 (Nat.zero_le _) from rfl, PhiS1_zero V c 0 _ rfl]
  try exact Idealize.SL.BI.Entails.refl _

end Cert.KernelIdeal.Hand

end
-- ==== Proof.KI.Run.lean ====
/-
  THE RUN of the idealized kernel program, generic in the float instance: @main is a stretch of host operations (the
  scaled query weights, the fused key|value weights, the casts), the projection launch, the attention launch, and
  three more host stretches (the final two-layer perceptron). The buffers' contents at each boundary are a fold from the
  launch memory: a host stretch applies its operations, a launch leaves its windows' arrays at what its write-backs
  leave and every other buffer as it found it. Every weakly fair execution terminates, the result buffer ends at the
  last boundary's contents, and every argument array ends as launched (no host operation and no launch writes one).
-/
import proofs.«423680_j33105607917868_3_alg».proof.Proof.Gen.KernelIdeal.Launch
import proofs.«423680_j33105607917868_3_alg».proof.Proof.Gen.KernelIdeal.Skeleton
import proofs.«423680_j33105607917868_3_alg».proof.Proof.Gen.KernelIdeal.Points
import proofs.«423680_j33105607917868_3_alg».proof.Proof.Gen.KernelIdeal.Regions
import proofs.«423680_j33105607917868_3_alg».proof.Proof.KI.Region0
import proofs.«423680_j33105607917868_3_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- After the host operations before the first launch. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the projection launch: its arrays at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention launch. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After each of the three host stretches of the perceptron. -/
abbrev W4 (c : Dev nD) : Valuation τ sig (Elt F) := StableHlo.after hostOps2 (W3 m c)
abbrev W5 (c : Dev nD) : Valuation τ sig (Elt F) := StableHlo.after hostOps2_1 (W4 m c)
abbrev W6 (c : Dev nD) : Valuation τ sig (Elt F) := StableHlo.after hostOps2_2 (W5 m c)

/-! ### The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2_2 _ hostOps2_2_writes (r := main_arg0) (by decide)
    _ = W4 m c (Proc.devRef .tc main_arg0) := StableHlo.after_of_writes_sub hostOps2_1 _ hostOps2_1_writes (r := main_arg0) (by decide)
    _ = W3 m c (Proc.devRef .tc main_arg0) := StableHlo.after_of_writes_sub hostOps2 _ hostOps2_writes (r := main_arg0) (by decide)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2_2 _ hostOps2_2_writes (r := main_arg1) (by decide)
    _ = W4 m c (Proc.devRef .tc main_arg1) := StableHlo.after_of_writes_sub hostOps2_1 _ hostOps2_1_writes (r := main_arg1) (by decide)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2_2 _ hostOps2_2_writes (r := main_arg2) (by decide)
    _ = W4 m c (Proc.devRef .tc main_arg2) := StableHlo.after_of_writes_sub hostOps2_1 _ hostOps2_1_writes (r := main_arg2) (by decide)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2_2 _ hostOps2_2_writes (r := main_arg3) (by decide)
    _ = W4 m c (Proc.devRef .tc main_arg3) := StableHlo.after_of_writes_sub hostOps2_1 _ hostOps2_1_writes (r := main_arg3) (by decide)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps2_2 _ hostOps2_2_writes (r := main_arg4) (by decide)
    _ = W4 m c (Proc.devRef .tc main_arg4) := StableHlo.after_of_writes_sub hostOps2_1 _ hostOps2_1_writes (r := main_arg4) (by decide)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps2_2 _ hostOps2_2_writes (r := main_arg5) (by decide)
    _ = W4 m c (Proc.devRef .tc main_arg5) := StableHlo.after_of_writes_sub hostOps2_1 _ hostOps2_1_writes (r := main_arg5) (by decide)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps2_2 _ hostOps2_2_writes (r := main_arg6) (by decide)
    _ = W4 m c (Proc.devRef .tc main_arg6) := StableHlo.after_of_writes_sub hostOps2_1 _ hostOps2_1_writes (r := main_arg6) (by decide)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps2_2 _ hostOps2_2_writes (r := main_arg7) (by decide)
    _ = W4 m c (Proc.devRef .tc main_arg7) := StableHlo.after_of_writes_sub hostOps2_1 _ hostOps2_1_writes (r := main_arg7) (by decide)
    _ = W3 m c (Proc.devRef .tc main_arg7) := StableHlo.after_of_writes_sub hostOps2 _ hostOps2_writes (r := main_arg7) (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps2_2 _ hostOps2_2_writes (r := main_arg8) (by decide)
    _ = W4 m c (Proc.devRef .tc main_arg8) := StableHlo.after_of_writes_sub hostOps2_1 _ hostOps2_1_writes (r := main_arg8) (by decide)
    _ = W3 m c (Proc.devRef .tc main_arg8) := StableHlo.after_of_writes_sub hostOps2 _ hostOps2_writes (r := main_arg8) (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := StableHlo.after_of_writes_sub hostOps2_2 _ hostOps2_2_writes (r := main_arg9) (by decide)
    _ = W4 m c (Proc.devRef .tc main_arg9) := StableHlo.after_of_writes_sub hostOps2_1 _ hostOps2_1_writes (r := main_arg9) (by decide)
    _ = W3 m c (Proc.devRef .tc main_arg9) := StableHlo.after_of_writes_sub hostOps2 _ hostOps2_writes (r := main_arg9) (by decide)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl

/-! ## The proof data family and the thread state -/

def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The launches as segments -/

set_option backward.isDefEq.respectTransparency.types false in
/-- The projection launch over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state: entered from every unscoped buffer at `W2`, left at `W3`. The generator
    register, the kernel's two DMA cells and the keys' and values' arrays go into the region invariant and come back. -/
def reg1 : Pipeline.RegionSeg (pcfgs (F := F)) adm (pdats m) () defs₀ 𝒱₀ L lv 1 where
  win := launch1.win.to₀
  block_pos := launch1.block_pos
  stage_whole := launch1.stage_whole
  K := Fin 2
  osem := osem1
  ho := ownSemFacts1
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V2 m c b))
  Y c := iprop((∃ r, prngReg c r) ∗ (bigSep H1 fun b => (((c : Thread nD τ)).loc b) ↦{fullShare} V2 m c b))
  Z c := bigSep (Pipeline.restRefs sig spec1 \ H1) fun b => (((c : Thread nD τ)).loc b) ↦{fullShare} V2 m c b
  hentry c := by
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    have hH : (Pipeline.unscopedRest (Ix := Unit) (Name := ℕ) (U := Pipeline.UD sig nD τ) (Lvl := ℕ) spec1 c (V2 m c) : sProp 𝕄)
        = iprop((bigSep H1 fun b => (((c : Thread nD τ)).loc b) ↦{fullShare} V2 m c b) ∗ (bigSep (Pipeline.restRefs sig spec1 \ H1) fun b => (((c : Thread nD τ)).loc b) ↦{fullShare} V2 m c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = (dat1 (V2 m) c).Φ 0 from rfl]
    refine .trans ?_ (hin1 (V2 m) c)
    rw [Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m 1 c).Φ (Fin.last _) = (dat1 (V2 m) c).Φ (Fin.last cfg1.N) from rfl]
    refine (hout1 (V2 m) c).trans ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    have hH : (Pipeline.unscopedRest (Ix := Unit) (Name := ℕ) (U := Pipeline.UD sig nD τ) (Lvl := ℕ) spec1 c (V2 m c) : sProp 𝕄)
        = iprop((bigSep H1 fun b => (((c : Thread nD τ)).loc b) ↦{fullShare} V2 m c b) ∗ (bigSep (Pipeline.restRefs sig spec1 \ H1) fun b => (((c : Thread nD τ)).loc b) ↦{fullShare} V2 m c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]

set_option backward.isDefEq.respectTransparency.types false in
/-- At the compiled mesh, from any memory with zero counters: every weakly fair execution of @main terminates, nothing
    faulting; the result buffer ends at the last boundary's contents and every argument array as launched. -/
theorem run_main : θ_run defs (onTc (τ := τ) (main (F := F))) ⟨m, fun _ => 0, ρ⟩ (fun r => ∀ c : Dev nD,
      r.2.mem ((c.tc : Thread nD τ).loc main_v18) = W6 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v18 (by decide)),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c),
       (h c _ (mem_uc main_arg7 (by decide))).trans (W6_main_arg7 m c),
       (h c _ (mem_uc main_arg8 (by decide))).trans (W6_main_arg8 m c),
       (h c _ (mem_uc main_arg9 (by decide))).trans (W6_main_arg9 m c)⟩)

end Cert.KernelIdeal.Hand

end
-- ==== Proof.KI.HostVals.lean ====
/-
  What the host operations of the idealized kernel program compute at the extended reals, as functions of an
  arbitrary valuation they start from. Before the first launch: the query weights times the scale constant,
  the key and value weights set side by side, the projection weights and bias recast (a narrowing cast is the
  identity on the extended reals, a reshape moves no entry). After the second launch: the pooled tokens with
  their unit axis dropped go through two dense layers with a maximum with zero between them.
-/
import proofs.«423680_j33105607917868_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostVals

open Cert.KernelIdeal Cert.KernelIdeal.Gen
open Idealize.ShloMosaic Idealize.ShloMosaic.TcCoe Idealize.ShloMosaic.ValueIdx

variable (W : Valuation τ sig (Elt Ideal))

/-! ## Before the first launch -/

/-- The scaled query weights: the first weight matrix times the scale constant, then a narrowing cast,
    which is the identity on the extended reals. -/
theorem v2_apply (a b : Fin 896) :
    (StableHlo.after (hostOps0 (F := Ideal)) W (Proc.devRef .tc main_v2) : S896x896.Idx → EReal) (ix2 a b)
      = HMul.hMul (α := EReal) (β := EReal) (γ := EReal)
          ((W (Proc.devRef .tc main_arg1) : S896x896.Idx → EReal) (ix2 a b)) (Ideal.ofBits .f32 0x3D08D677#32) := by
  have e : (StableHlo.after (hostOps0 (F := Ideal)) W (Proc.devRef .tc main_v2) : S896x896.Idx → EReal)
      = truncf (F := Ideal) (s := S896x896) (φ := .f32) .bf16 (mulf (W (Proc.devRef .tc main_arg1) : FVec Ideal S896x896 .f32)
          (broadcastInDim S896x896 ![] bcast_S_S896x896 (constant (F := Ideal) S_ .f32 0x3D08D677#32))) bitsLt_bf16_f32 := by
    after_results <;> rfl
  rw [e]
  rfl

/-- The key and value weights side by side, as one matrix of 1792 columns (then the identity cast). -/
theorem v4_term :
    (StableHlo.after (hostOps0 (F := Ideal)) W (Proc.devRef .tc main_v4) : S896x1792.Idx → EReal)
      = truncf (F := Ideal) (s := S896x1792) (φ := .f32) .bf16 (concatenate S896x1792 1
          [⟨S896x896, (W (Proc.devRef .tc main_arg2) : FVec Ideal S896x896 .f32)⟩,
           ⟨S896x896, (W (Proc.devRef .tc main_arg3) : FVec Ideal S896x896 .f32)⟩]
          concatenates_S896x896_S896x896_S896x1792_d1 : FVec Ideal S896x1792 .f32) bitsLt_bf16_f32 := by
  after_results <;> rfl

/-- Its first 896 columns are the key weights. -/
theorem v4_left (a b : Fin 896) :
    (StableHlo.after (hostOps0 (F := Ideal)) W (Proc.devRef .tc main_v4) : S896x1792.Idx → EReal) (ix2 a ⟨b.val, by omega⟩)
      = (W (Proc.devRef .tc main_arg2) : S896x896.Idx → EReal) (ix2 a b) := by
  rw [v4_term]
  show concatenate S896x1792 1
      [⟨S896x896, (W (Proc.devRef .tc main_arg2) : FVec Ideal S896x896 .f32)⟩,
       ⟨S896x896, (W (Proc.devRef .tc main_arg3) : FVec Ideal S896x896 .f32)⟩]
      concatenates_S896x896_S896x896_S896x1792_d1 (ix2 a ⟨b.val, by omega⟩) = _
  exact concatenate_pair_apply_left (t := S896x1792) (s₁ := S896x896) (s₂ := S896x896) (1 : Fin 2) _ _
    concatenates_S896x896_S896x896_S896x1792_d1 (ix2 a ⟨b.val, by omega⟩) rfl (ix2 a b)
    (fun c => by match c with | ⟨0, _⟩ => rfl | ⟨1, _⟩ => rfl)

/-- Its last 896 columns are the value weights. -/
theorem v4_right (a b : Fin 896) :
    (StableHlo.after (hostOps0 (F := Ideal)) W (Proc.devRef .tc main_v4) : S896x1792.Idx → EReal) (ix2 a ⟨896 + b.val, by omega⟩)
      = (W (Proc.devRef .tc main_arg3) : S896x896.Idx → EReal) (ix2 a b) := by
  rw [v4_term]
  show concatenate S896x1792 1
      [⟨S896x896, (W (Proc.devRef .tc main_arg2) : FVec Ideal S896x896 .f32)⟩,
       ⟨S896x896, (W (Proc.devRef .tc main_arg3) : FVec Ideal S896x896 .f32)⟩]
      concatenates_S896x896_S896x896_S896x1792_d1 (ix2 a ⟨896 + b.val, by omega⟩) = _
  exact concatenate_pair_apply_right (t := S896x1792) (s₁ := S896x896) (s₂ := S896x896) (1 : Fin 2) _ _
    concatenates_S896x896_S896x896_S896x1792_d1 (ix2 a ⟨896 + b.val, by omega⟩) rfl rfl (ix2 a b)
    (fun c hc => by match c, hc with | ⟨0, _⟩, _ => rfl | ⟨1, _⟩, hc => exact absurd rfl hc)
    (by show b.val + 896 = 896 + b.val; omega)

/-- The projection weights, cast: unchanged. -/
theorem v5_eq :
    (StableHlo.after (hostOps0 (F := Ideal)) W (Proc.devRef .tc main_v5) : S896x896.Idx → EReal)
      = W (Proc.devRef .tc main_arg4) := by
  after_results <;> rfl

/-- The projection bias as a one-row matrix. -/
theorem v6_apply (e : Fin 896) :
    (StableHlo.after (hostOps0 (F := Ideal)) W (Proc.devRef .tc main_v6) : S1x896.Idx → EReal) (ix2 0 e)
      = (W (Proc.devRef .tc main_arg5) : S896.Idx → EReal) (ix1 e) := by
  have h : (StableHlo.after (hostOps0 (F := Ideal)) W (Proc.devRef .tc main_v6) : S1x896.Idx → EReal)
      = shapeCast S1x896 (W (Proc.devRef .tc main_arg5) : S896.Idx → EReal) shapeCasts_S896_S1x896 := by
    after_results <;> rfl
  rw [h]
  exact shapeCast_a_1a_apply _ _ 0 e

/-! ## The arguments ride through the first stretch -/

/-- No operation before the first launch writes an argument array. -/
theorem args_kept0 (r : Ref sig .tc)
    (hr : r ∈ [main_arg0, main_arg1, main_arg2, main_arg3, main_arg4, main_arg5, main_arg6, main_arg7, main_arg8, main_arg9]) :
    StableHlo.after (hostOps0 (F := Ideal)) W (Proc.devRef .tc r) = W (Proc.devRef .tc r) := by
  simp only [List.mem_cons, List.not_mem_nil, or_false] at hr
  rcases hr with rfl | rfl | rfl | rfl | rfl | rfl | rfl | rfl | rfl | rfl <;> after_results

/-! ## After the second launch -/

/-- The host tail as one function of what it reads: the pooled tokens `P` with their unit axis dropped, a dense
    layer (weights `x6`, bias `x7`), the maximum with zero, a second dense layer (weights `x8`, bias `x9`). -/
def tailK (P : FVec Ideal S8x1x896 .f32) (x6 : FVec Ideal S896x896 .f32) (x7 : FVec Ideal S896 .f32)
    (x8 : FVec Ideal S896x896 .f32) (x9 : FVec Ideal S896 .f32) : FVec Ideal S8x896 .f32 :=
  addf
    (Host.dotGeneral (F := Ideal) dot_S8x896_S896x896_S8x896_1_0_0_1_n_n none
      (maximumf
        (addf
          (Host.dotGeneral (F := Ideal) dot_S8x896_S896x896_S8x896_1_0_0_1_n_n none
            (shapeCast S8x896 P shapeCasts_S8x1x896_S8x896) x6)
          (broadcastInDim S8x896 ![0, 1] bcast_S1x896_S8x896_0_1 (broadcastInDim S1x896 ![1] bcast_S896_S1x896_1 x7)))
        (broadcastInDim S8x896 ![] bcast_S_S8x896 (constant (F := Ideal) S_ .f32 0x00000000#32)))
      x8)
    (broadcastInDim S8x896 ![0, 1] bcast_S1x896_S8x896_0_1 (broadcastInDim S1x896 ![1] bcast_S896_S1x896_1 x9))

/-- The program's result buffer after the three tail stretches is `tailK` of the second launch's output and the
    last four arguments, whatever valuation the stretches start from. -/
theorem v18_eq :
    (StableHlo.after (hostOps2_2 (F := Ideal)) (StableHlo.after (hostOps2_1 (F := Ideal)) (StableHlo.after (hostOps2 (F := Ideal)) W))
        (Proc.devRef .tc main_v18) : S8x896.Idx → EReal)
      = tailK (W (Proc.devRef .tc main_v8)) (W (Proc.devRef .tc main_arg6)) (W (Proc.devRef .tc main_arg7))
          (W (Proc.devRef .tc main_arg8)) (W (Proc.devRef .tc main_arg9)) := by
  after_results
  simp only [StableHlo.TRef.ofBuf, StableHlo.TRef.toBuf, cast_eq]
  rfl

end Cert.KernelIdeal.HostVals

end
-- ==== Proof.Spec.lean ====
/-
  What both programs compute, as plain mathematics over the extended reals.

  One batch of tokens is a matrix `x` (tokens × channels). Queries, keys and values are its products with the
  weights; the scores are the query–key inner products times a scale `σ`; each row of scores goes through a
  softmax (subtract the row's maximum, exponentiate, divide by the row's sum); the attention output is the
  softmax-weighted sum of the values, projected by `wp`, plus a bias, plus the token itself (the residual);
  the tokens' mean is the pooled result.

  The two programs differ in three places, and this module proves that none of them changes the value when the
  token matrix and the query, key and value weights hold real numbers:
  * the kernel multiplies the QUERY WEIGHTS by `σ` where the reference multiplies the SCORES by `σ`
    (`scoreK` / `scoreR`): a factor moved across two finite sums, which needs finiteness on the extended reals;
  * the kernel divides the weighted sum of the values by the softmax denominator where the reference divides
    each weight first (`attK` / `attR`): the denominator is a positive real, and again a factor moves across a sum;
  * the kernel adds the rows up tile by tile (16 tiles of 256 rows) and multiplies by 2⁻¹² where the reference
    sums all 4096 rows and divides by 4096 (`pooledK` / `pooledR`): a regrouping of one finite sum, and the
    division by a power of two is the multiplication by its inverse on every extended real.
-/
import Idealize.ShloMosaic.PureOps.Ideal
import Mathlib.Data.EReal.Basic
import Mathlib.Data.Finset.Fold
import Mathlib.Data.Fintype.BigOperators
import Mathlib.Algebra.BigOperators.Fin
import Mathlib.Algebra.BigOperators.Group.Finset.Defs
import Mathlib.Algebra.Order.BigOperators.Group.Finset
import Mathlib.Logic.Equiv.Fin.Basic
import Mathlib.Algebra.BigOperators.Ring.Finset
import Mathlib.Analysis.Complex.Exponential
import Mathlib.Order.MinMax
import Mathlib.Data.Finset.Insert

noncomputable section

open scoped BigOperators

namespace Cert.Spec

open Idealize.ShloMosaic

/-- A matrix of extended reals. -/
abbrev Mat (a b : ℕ) : Type := Fin a → Fin b → EReal

/-- Every entry is a real number. -/
def IsReal {a b : ℕ} (f : Mat a b) : Prop := ∀ i j, ∃ r : ℝ, f i j = (r : EReal)

variable {n c : ℕ}

/-- Tokens times a weight matrix. -/
def proj (x : Mat n c) (w : Mat c c) : Mat n c := fun i d => ∑ k, x i k * w k d

/-- The scores as the reference takes them: the query–key products, then the scale. -/
def scoreR (σ : EReal) (x : Mat n c) (wq wk : Mat c c) : Mat n n :=
  fun i j => (∑ d, proj x wq i d * proj x wk j d) * σ

/-- The scores as the kernel takes them: the scale folded into the query weights. -/
def scoreK (σ : EReal) (x : Mat n c) (wq wk : Mat c c) : Mat n n :=
  fun i j => ∑ d, (∑ k, x i k * (wq k d * σ)) * proj x wk j d

/-- A row's maximum: the fold of `max` from −∞. -/
def rowMax (s : Fin n → EReal) : EReal := (Finset.univ : Finset (Fin n)).fold max ⊥ s

/-- The softmax numerators. -/
def expo (s : Mat n n) : Mat n n := fun i j => Ideal.exp (s i j - rowMax (s i))

/-- The softmax denominators. -/
def denom (s : Mat n n) (i : Fin n) : EReal := ∑ j, expo s i j

/-- Attention as the kernel takes it: the weighted sum of the values, divided by the denominator. -/
def attK (s : Mat n n) (v : Mat n c) : Mat n c :=
  fun i d => Ideal.div (∑ j, expo s i j * v j d) (denom s i)

/-- Attention as the reference takes it: each weight divided by the denominator first. -/
def attR (s : Mat n n) (v : Mat n c) : Mat n c :=
  fun i d => ∑ j, Ideal.div (expo s i j) (denom s i) * v j d

/-- The output projection, the bias and the residual. -/
def resid (a : Mat n c) (wp : Mat c c) (bp : Fin c → EReal) (x : Mat n c) : Mat n c :=
  fun i e => (∑ d, a i d * wp d e) + bp e + x i e

/-- A token's row before pooling, as the reference computes it. -/
def tokR (σ : EReal) (x : Mat n c) (wq wk wv wp : Mat c c) (bp : Fin c → EReal) : Mat n c :=
  resid (attR (scoreR σ x wq wk) (proj x wv)) wp bp x

/-- A token's row before pooling, as the kernel computes it. -/
def tokK (σ : EReal) (x : Mat n c) (wq wk wv wp : Mat c c) (bp : Fin c → EReal) : Mat n c :=
  resid (attK (scoreK σ x wq wk) (proj x wv)) wp bp x

/-- The mean over the 4096 tokens as the reference takes it: the sum divided by the word of `4096.0`. -/
def pooledR (Y : Fin 4096 → EReal) : EReal := Ideal.div (∑ i, Y i) (Ideal.ofBits .f32 0x45800000#32)

/-- One tile's rows summed: rows `256 q … 256 q + 255`. -/
def tileSum (Y : Fin 4096 → EReal) (q : Fin 16) : EReal :=
  ∑ r : Fin 256, Y ⟨q.val * 256 + r.val, by have := q.isLt; have := r.isLt; omega⟩

/-- The running sum after the first `k` tiles, from zero. -/
def accTiles (Y : Fin 4096 → EReal) : ℕ → EReal
  | 0 => 0
  | k + 1 => accTiles Y k + (if h : k < 16 then tileSum Y ⟨k, h⟩ else 0)

/-- The mean as the kernel takes it: the sixteen tiles accumulated, times the word of `2⁻¹²`. -/
def pooledK (Y : Fin 4096 → EReal) : EReal := accTiles Y 16 * Ideal.ofBits .f32 0x39800000#32

/-! ### The three constant words -/

/-- The word of `4096.0` denotes the real `4096`. -/
theorem word_4096 : Ideal.ofBits .f32 0x45800000#32 = ((4096 : ℝ) : EReal) := by
  simp [Ideal.ofBits, Ideal.ieee, -EReal.coe_mul]; norm_num

/-- The word of `2⁻¹²` denotes the real `1 / 4096`. -/
theorem word_inv4096 : Ideal.ofBits .f32 0x39800000#32 = ((1 / 4096 : ℝ) : EReal) := by
  simp [Ideal.ofBits, Ideal.ieee, -EReal.coe_mul]; norm_num

/-- The scale both programs use, `f32(896^(-1/2))`, is a real number. -/
theorem scale_real : ∃ r : ℝ, Ideal.ofBits .f32 0x3D08D677#32 = (r : EReal) := by
  simp [Ideal.ofBits, Ideal.ieee, -EReal.coe_mul]

/-! ### Coercions and finite sums -/

/-- The coercion of the reals into the extended reals commutes with a finite sum. -/
theorem coe_sum {ι : Type*} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, EReal.coe_add, ih]

/-- A product of matrices of coerced reals is the coercion of the real product. -/
theorem proj_coe (x : Mat n c) (w : Mat c c) (xr : Fin n → Fin c → ℝ) (wr : Fin c → Fin c → ℝ)
    (hx : ∀ i k, x i k = (xr i k : EReal)) (hw : ∀ k d, w k d = (wr k d : EReal)) (i : Fin n) (d : Fin c) :
    proj x w i d = ((∑ k, xr i k * wr k d : ℝ) : EReal) := by
  simp only [proj, hx, hw, ← EReal.coe_mul, coe_sum]

/-! ### The tiles -/

/-- The running sum after `k ≤ 16` tiles is the sum of the first `k` tile sums. -/
theorem accTiles_eq (Y : Fin 4096 → EReal) :
    ∀ (k : ℕ) (hk : k ≤ 16), accTiles Y k = ∑ q : Fin k, tileSum Y ⟨q.val, lt_of_lt_of_le q.isLt hk⟩
  | 0, _ => by simp [accTiles]
  | k + 1, hk => by
    have hk' : k < 16 := hk
    rw [accTiles, dif_pos hk', accTiles_eq Y k (le_of_lt hk'), Fin.sum_univ_castSucc]
    rfl

/-- The map `(q, r) ↦ 256 q + r` is a bijection of the sixteen tiles of 256 rows onto the 4096 rows, so the tile sums
    add up to the sum of all rows; addition on the extended reals is a commutative monoid, which is all this needs. -/
theorem sum_tileSum (Y : Fin 4096 → EReal) : ∑ q : Fin 16, tileSum Y q = ∑ i, Y i := by
  let e : Fin 16 × Fin 256 ≃ Fin 4096 := finProdFinEquiv
  rw [← e.sum_comp Y, Fintype.sum_prod_type]
  refine Finset.sum_congr rfl fun q _ => Finset.sum_congr rfl fun r _ => ?_
  congr 1
  apply Fin.ext
  show q.val * 256 + r.val = r.val + 256 * q.val
  omega

/-- Sixteen tiles of 256 rows are the 4096 rows. -/
theorem accTiles_sixteen (Y : Fin 4096 → EReal) : accTiles Y 16 = ∑ i, Y i := by
  rw [accTiles_eq Y 16 le_rfl]
  exact sum_tileSum Y

/-- The two means agree on every extended real: the sum regrouped, and dividing by 4096 is multiplying by 2⁻¹². -/
theorem pooled_eq (Y : Fin 4096 → EReal) : pooledK Y = pooledR Y := by
  rw [pooledK, pooledR, accTiles_sixteen, word_4096, word_inv4096,
    Ideal.div_coe (by norm_num : (4096 : ℝ) ≠ 0)]

/-! ### The scale moved across the two sums -/

/-- In the reals: the scale folded into the query weights is the scale on the score. -/
theorem score_real_eq (σ : ℝ) (xr : Fin n → Fin c → ℝ) (qr kr : Fin c → Fin c → ℝ) (i j : Fin n) :
    ∑ d, (∑ k, xr i k * (qr k d * σ)) * (∑ k, xr j k * kr k d)
      = (∑ d, (∑ k, xr i k * qr k d) * (∑ k, xr j k * kr k d)) * σ := by
  rw [Finset.sum_mul]
  refine Finset.sum_congr rfl fun d _ => ?_
  have h : ∑ k, xr i k * (qr k d * σ) = (∑ k, xr i k * qr k d) * σ := by
    rw [Finset.sum_mul]
    exact Finset.sum_congr rfl fun k _ => by ring
  rw [h]; ring

/-- The reference's score on coerced reals is the coercion of the real score. -/
theorem scoreR_coe (σ : ℝ) (x : Mat n c) (wq wk : Mat c c) (xr : Fin n → Fin c → ℝ) (qr kr : Fin c → Fin c → ℝ)
    (hx : ∀ i k, x i k = (xr i k : EReal)) (hq : ∀ k d, wq k d = (qr k d : EReal))
    (hk : ∀ k d, wk k d = (kr k d : EReal)) (i j : Fin n) :
    scoreR (σ : EReal) x wq wk i j
      = (((∑ d, (∑ k, xr i k * qr k d) * (∑ k, xr j k * kr k d)) * σ : ℝ) : EReal) := by
  simp only [scoreR, proj_coe x wq xr qr hx hq, proj_coe x wk xr kr hx hk, ← EReal.coe_mul, coe_sum]

/-- The kernel's score on coerced reals is the coercion of the real score with the scale inside. -/
theorem scoreK_coe (σ : ℝ) (x : Mat n c) (wq wk : Mat c c) (xr : Fin n → Fin c → ℝ) (qr kr : Fin c → Fin c → ℝ)
    (hx : ∀ i k, x i k = (xr i k : EReal)) (hq : ∀ k d, wq k d = (qr k d : EReal))
    (hk : ∀ k d, wk k d = (kr k d : EReal)) (i j : Fin n) :
    scoreK (σ : EReal) x wq wk i j
      = ((∑ d, (∑ k, xr i k * (qr k d * σ)) * (∑ k, xr j k * kr k d) : ℝ) : EReal) := by
  simp only [scoreK, proj_coe x wk xr kr hx hk, hx, hq, ← EReal.coe_mul, coe_sum]

/-- Moving the scale from the scores into the query weights changes nothing on real inputs. -/
theorem score_eq (σ : ℝ) (x : Mat n c) (wq wk : Mat c c) (hx : IsReal x) (hq : IsReal wq) (hk : IsReal wk) :
    scoreK (σ : EReal) x wq wk = scoreR (σ : EReal) x wq wk := by
  choose xr hxr using hx
  choose qr hqr using hq
  choose kr hkr using hk
  funext i j
  rw [scoreK_coe σ x wq wk xr qr kr hxr hqr hkr, scoreR_coe σ x wq wk xr qr kr hxr hqr hkr, score_real_eq]

/-- The scores of real inputs are real. -/
theorem scoreR_real (σ : ℝ) (x : Mat n c) (wq wk : Mat c c) (hx : IsReal x) (hq : IsReal wq) (hk : IsReal wk) :
    IsReal (scoreR (σ : EReal) x wq wk) := by
  choose xr hxr using hx
  choose qr hqr using hq
  choose kr hkr using hk
  intro i j
  exact ⟨_, scoreR_coe σ x wq wk xr qr kr hxr hqr hkr i j⟩

/-- A product of real matrices is real. -/
theorem proj_real (x : Mat n c) (w : Mat c c) (hx : IsReal x) (hw : IsReal w) : IsReal (proj x w) := by
  choose xr hxr using hx
  choose wr hwr using hw
  intro i d
  exact ⟨_, proj_coe x w xr wr hxr hwr i d⟩

/-! ### The softmax on real scores -/

/-- The coercion commutes with the maximum of two reals (it is monotone). -/
theorem coe_max' (a b : ℝ) : ((max a b : ℝ) : EReal) = max (a : EReal) (b : EReal) :=
  EReal.coe_strictMono.monotone.map_max

/-- The fold of `max` from −∞ over a nonempty set of reals is a real: each step is the maximum of two reals. -/
theorem fold_max_real {ι : Type*} (t : Finset ι) (ht : t.Nonempty) (r : ι → ℝ) :
    ∃ m : ℝ, t.fold max (⊥ : EReal) (fun j => (r j : EReal)) = (m : EReal) := by
  induction ht using Finset.Nonempty.cons_induction with
  | singleton a => exact ⟨r a, by simp⟩
  | cons a t ha ht ih =>
    obtain ⟨m, hm⟩ := ih
    exact ⟨max (r a) m, by rw [Finset.fold_cons, hm, coe_max']⟩

/-- The maximum of a nonempty row of reals is a real. -/
theorem rowMax_real (hn : 0 < n) (s : Fin n → EReal) (hs : ∀ j, ∃ r : ℝ, s j = (r : EReal)) :
    ∃ m : ℝ, rowMax s = (m : EReal) := by
  choose r hr using hs
  have hne : (Finset.univ : Finset (Fin n)).Nonempty := ⟨⟨0, hn⟩, Finset.mem_univ _⟩
  obtain ⟨m, hm⟩ := fold_max_real Finset.univ hne r
  refine ⟨m, ?_⟩
  rw [rowMax, (funext hr : s = fun j => (r j : EReal))]
  exact hm

/-- The softmax numerator on a real score and a real row maximum is the coercion of a real exponential. -/
theorem expo_coe (s : Mat n n) (sr : Fin n → Fin n → ℝ) (m : Fin n → ℝ)
    (hs : ∀ i j, s i j = (sr i j : EReal)) (hm : ∀ i, rowMax (s i) = (m i : EReal)) (i j : Fin n) :
    expo s i j = ((Real.exp (sr i j - m i) : ℝ) : EReal) := by
  show Ideal.exp (s i j - rowMax (s i)) = _
  rw [hm, hs, ← EReal.coe_sub, Ideal.exp_coe]

/-- The softmax denominator is then the coercion of a real sum of exponentials. -/
theorem denom_coe (s : Mat n n) (sr : Fin n → Fin n → ℝ) (m : Fin n → ℝ)
    (hs : ∀ i j, s i j = (sr i j : EReal)) (hm : ∀ i, rowMax (s i) = (m i : EReal)) (i : Fin n) :
    denom s i = ((∑ j, Real.exp (sr i j - m i) : ℝ) : EReal) := by
  simp only [denom, expo_coe s sr m hs hm, coe_sum]

/-- On real scores over at least one token and real values, dividing the weighted sum or dividing each weight is the same. -/
theorem att_eq (hn : 0 < n) (s : Mat n n) (v : Mat n c) (hs : IsReal s) (hv : IsReal v) : attK s v = attR s v := by
  have hm : ∀ i, ∃ m : ℝ, rowMax (s i) = (m : EReal) := fun i => rowMax_real hn (s i) (hs i)
  choose sr hsr using hs
  choose vr hvr using hv
  choose m hm using hm
  funext i d
  -- the denominator is a nonempty sum of positive reals
  have hD : (0 : ℝ) < ∑ j, Real.exp (sr i j - m i) :=
    Finset.sum_pos (fun j _ => Real.exp_pos _) ⟨⟨0, hn⟩, Finset.mem_univ _⟩
  have hK : attK s v i d
      = (((∑ j, Real.exp (sr i j - m i) * vr j d) * (1 / ∑ j, Real.exp (sr i j - m i)) : ℝ) : EReal) := by
    simp only [attK, denom_coe s sr m hsr hm, expo_coe s sr m hsr hm, hvr, Ideal.div_coe hD.ne',
      ← EReal.coe_mul, coe_sum]
  have hR : attR s v i d
      = ((∑ j, Real.exp (sr i j - m i) * (1 / ∑ j, Real.exp (sr i j - m i)) * vr j d : ℝ) : EReal) := by
    simp only [attR, denom_coe s sr m hsr hm, expo_coe s sr m hsr hm, hvr, Ideal.div_coe hD.ne',
      ← EReal.coe_mul, coe_sum]
  -- in the reals the factor `1 / D` moves across the sum
  rw [hK, hR, Finset.sum_mul]
  congr 1
  exact Finset.sum_congr rfl fun j _ => by ring

/-- A token's row is the same in both forms on real tokens and real query, key and value weights. -/
theorem tok_eq (hn : 0 < n) (σ : ℝ) (x : Mat n c) (wq wk wv wp : Mat c c) (bp : Fin c → EReal)
    (hx : IsReal x) (hq : IsReal wq) (hk : IsReal wk) (hv : IsReal wv) :
    tokK (σ : EReal) x wq wk wv wp bp = tokR (σ : EReal) x wq wk wv wp bp := by
  rw [tokK, tokR, score_eq σ x wq wk hx hq hk,
    att_eq hn _ _ (scoreR_real σ x wq wk hx hq hk) (proj_real x wv hx hv)]

/-- THE BRIDGE: the kernel's pooled value is the reference's, entry by entry. -/
theorem pooled_tok_eq (x : Mat 4096 896) (wq wk wv wp : Mat 896 896) (bp : Fin 896 → EReal)
    (hx : IsReal x) (hq : IsReal wq) (hk : IsReal wk) (hv : IsReal wv) (e : Fin 896) :
    pooledK (fun i => tokK (Ideal.ofBits .f32 0x3D08D677#32) x wq wk wv wp bp i e)
      = pooledR (fun i => tokR (Ideal.ofBits .f32 0x3D08D677#32) x wq wk wv wp bp i e) := by
  obtain ⟨r, hr⟩ := scale_real
  rw [hr, tok_eq (by norm_num) r x wq wk wv wp bp hx hq hk hv]
  exact pooled_eq _

end Cert.Spec

end
-- ==== Proof.SpecTile.lean ====
/-
  The attention kernel works on one tile of 256 query rows at a time, against ALL 4096 keys and values of the batch,
  which an earlier launch has already projected. This module writes that per-tile computation down as mathematics
  (`tokTile`: rows of queries from the tile's tokens and the scaled query weights, scores against the given keys,
  the softmax with the division after the weighted sum, the output projection, the bias and the residual), and shows
  that when the keys and values ARE the batch's projections and the tile is rows `256 q … 256 q + 255` of the batch,
  a tile row is the corresponding token's row of the whole-batch form `Spec.tokK` — by unfolding both sides.
-/
import proofs.«423680_j33105607917868_3_alg».proof.Proof.Spec

noncomputable section

open scoped BigOperators

namespace Cert.Spec

open Idealize.ShloMosaic

variable {r n c : ℕ}

/-- One tile's scores: the tile's queries (tokens times the scaled query weights) against the given keys. -/
def scoreTile (xq : Mat r c) (wqs : Mat c c) (K : Mat n c) : Fin r → Fin n → EReal :=
  fun i j => ∑ d, (∑ k, xq i k * wqs k d) * K j d

/-- One tile's rows before pooling: softmax over the scores, the weighted sum of the given values divided by the
    denominator, the output projection, the bias, the residual. -/
def tokTile (xq : Mat r c) (wqs : Mat c c) (K V : Mat n c) (wp : Mat c c) (bp : Fin c → EReal) : Mat r c :=
  fun i e => (∑ d, Ideal.div (∑ j, Ideal.exp (scoreTile xq wqs K i j - rowMax (scoreTile xq wqs K i)) * V j d)
      (∑ j, Ideal.exp (scoreTile xq wqs K i j - rowMax (scoreTile xq wqs K i))) * wp d e) + bp e + xq i e

/-- Rows `256 q … 256 q + 255` of a batch of 4096 tokens. -/
def tileRows {c : ℕ} (x : Mat 4096 c) (q : Fin 16) : Mat 256 c :=
  fun i k => x ⟨q.val * 256 + i.val, by have := q.isLt; have := i.isLt; omega⟩ k

/-- A tile row, computed against the batch's own projected keys and values with the scale folded into the query
    weights, is the token's row of the whole-batch kernel form. -/
theorem tokTile_eq (σ : EReal) (x : Mat 4096 c) (wq wk wv wp : Mat c c) (bp : Fin c → EReal) (q : Fin 16) (i : Fin 256) (e : Fin c) :
    tokTile (tileRows x q) (fun a b => wq a b * σ) (proj x wk) (proj x wv) wp bp i e
      = tokK σ x wq wk wv wp bp ⟨q.val * 256 + i.val, by have := q.isLt; have := i.isLt; omega⟩ e := by
  rfl

end Cert.Spec

end
-- ==== Proof.KI.TileRow.lean ====
/-
  The row a token contributes to the attention launch's pooled output, written over the contents the launch is entered
  with: token `n` of batch `b` sits in tile `n / 256` at row `n % 256`; its row at channel `e` is the per-tile form of
  the specification, on the tile's tokens, the scaled query weights as the launch finds them, the batch's keys and
  values as the earlier launch left them, the output projection and the bias.
-/
import proofs.«423680_j33105607917868_3_alg».proof.Proof.KI.Region1
import proofs.«423680_j33105607917868_3_alg».proof.Proof.SpecTile
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The arrays the attention launch reads, as the launch finds them, over the extended reals. -/
abbrev tokA (c : Dev nD) : S8x4096x896.Idx → EReal := V c main_arg0
abbrev wqA (c : Dev nD) : S896x896.Idx → EReal := V c main_v2
abbrev keyA (c : Dev nD) : S8x4096x896.Idx → EReal := V c main_v7_0
abbrev valA (c : Dev nD) : S8x4096x896.Idx → EReal := V c main_v7_1
abbrev wpA (c : Dev nD) : S896x896.Idx → EReal := V c main_v5
abbrev bpA (c : Dev nD) : S1x896.Idx → EReal := V c main_v6

/-- Token `n` of batch `b`: its row at channel `e`, computed in its tile. -/
def tileRow (c : Dev nD) (b : Fin 8) (e : Fin 896) (n : Fin 4096) : EReal :=
  Cert.Spec.tokTile (Cert.Spec.tileRows (fun i k => tokA V c (ix3 b i k)) ⟨n.val / 256, by have := n.isLt; omega⟩)
    (fun a a' => wqA V c (ix2 a a')) (fun j d => keyA V c (ix3 b j d)) (fun j d => valA V c (ix3 b j d))
    (fun a a' => wpA V c (ix2 a a')) (fun a => bpA V c (ix2 0 a)) ⟨n.val % 256, Nat.mod_lt _ (by decide)⟩ e

end Cert.KernelIdeal.Hand

end
-- ==== Proof.KI.PayIdx.lean ====
/-
  The idealized kernel's payloads read at an index, over the extended reals: each pure value the two kernel
  functions store, as a formula in the entries of the values they loaded.

  The first launch multiplies a block of 1024 tokens by the fused key|value weights (896 × 1792) into a zero
  accumulator. The left half of the product is the block's keys and the right half its values, so an entry of either
  is the sum over the 896 channels of a token entry times a weight entry, the values' column shifted by 896
  (`pay2_apply`, `pay3_apply`).

  The second launch works on one tile of 256 query rows against all 4096 keys and values of the batch. Its main payload
  is read stage by stage: the queries (tokens times the query weights), the scores (queries against keys, contracting
  the channel axis of both), each row's maximum (a fold of `max` from the word of −∞), the exponentials of the scores
  less that maximum, their row sums, the weighted sums of the values, the division, the output projection, the bias
  and the residual; the payload is the column sum of those 256 rows, and a row is `Spec.tokTile` (`pay4_apply`).
  A format change is the identity on extended reals, a matrix product into the zero accumulator is the sum over the
  contraction axis of the products, and a lane reduction over one axis is the sum (or the fold of `max`) over that
  axis's coordinates. The three small payloads of the second launch add the tile's column sums to the running sum
  (`pay1_apply`), reset it to zero (`pay3'_apply`), and scale it by the word of 2⁻¹² (`pay2'_apply`).
-/
import proofs.«423680_j33105607917868_3_alg».proof.Proof.Gen.KernelIdeal.Skeleton
import proofs.«423680_j33105607917868_3_alg».proof.Proof.SpecTile
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-! ### Two column forms of a row statistic kept as a column -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The word of −∞ -/

/-- The word the row maximum starts from, `0xFF800000`, denotes `−∞`. -/
theorem word_neg_inf : Ideal.ofBits .f32 0xFF800000#32 = ⊥ := by
  simp [Ideal.ofBits, Ideal.ieee]

/-! ### The lane reductions of the attention tile -/

/-- A row's maximum over the 4096 keys: the fold of `max` from −∞, which is `Spec.rowMax` of the row. -/
theorem rowmax_apply (s : FVec Ideal S256x4096 .f32) (i : Fin 256) :
    multiReduction (F := Ideal) .maximumf [1] S256 s 0xFF800000#32 Facts₀.reduces_S256x4096_S256 (.inl rfl) rfl (ix1 i)
      = Cert.Spec.rowMax (fun j : Fin 4096 => s (ix2 i j)) := by
  refine (Ideal.multiReduction_maximumf_single s 0xFF800000#32 Facts₀.reduces_S256x4096_S256 (.inl rfl) rfl (ix1 i)).trans ?_
  have hl : (s ∘ Facts₀.reduces_S256x4096_S256.lift (ix1 i)) = fun j : Fin 4096 => s (ix2 i j) :=
    funext fun j => congrArg s (funext fun a => Fin.ext (by
      match a with
      | ⟨0, _⟩ => rfl
      | ⟨1, _⟩ => rfl))
  rw [hl]
  show (Finset.univ : Finset (Fin 4096)).fold max (Ideal.ofBits .f32 0xFF800000#32) _ = _
  rw [word_neg_inf]
  rfl

/-- A row's sum over the 4096 keys. -/
theorem rowsum_apply (s : FVec Ideal S256x4096 .f32) (i : Fin 256) :
    multiReduction (F := Ideal) .add [1] S256 s 0x00000000#32 Facts₀.reduces_S256x4096_S256 (.inl rfl) rfl (ix1 i)
      = ∑ j : Fin 4096, s (ix2 i j) := by
  refine (Ideal.multiReduction_add_single s 0x00000000#32 Facts₀.reduces_S256x4096_S256 (.inl rfl) rfl (ix1 i)).trans ?_
  exact Finset.sum_congr rfl fun j _ => congrArg s (funext fun a => Fin.ext (by
    match a with
    | ⟨0, _⟩ => rfl
    | ⟨1, _⟩ => rfl))

/-- A column's sum over the tile's 256 rows. -/
theorem colsum_apply (s : FVec Ideal S256x896 .f32) (e : Fin 896) :
    multiReduction (F := Ideal) .add [0] S896 s 0x00000000#32 Facts₀.reduces_S256x896_S896 (.inl rfl) rfl (ix1 e)
      = ∑ i : Fin 256, s (ix2 i e) := by
  refine (Ideal.multiReduction_add_single s 0x00000000#32 Facts₀.reduces_S256x896_S896 (.inl rfl) rfl (ix1 e)).trans ?_
  exact Finset.sum_congr rfl fun i _ => congrArg s (funext fun a => Fin.ext (by
    match a with
    | ⟨0, _⟩ => rfl
    | ⟨1, _⟩ => rfl))

/-! ### The second launch's three matrix products, each into the zero accumulator -/

theorem lhs_qw_0 (i : S256x896.Idx) (q : dot_S256x896_S896x896_S256x896_1_0_0_1_n_n.contr.Idx) :
    (dot_S256x896_S896x896_S256x896_1_0_0_1_n_n.lhsIdx i q 0).val = (i 0).val := by
  unfold DotDims.lhsIdx
  rw [dif_neg (show ¬(0 : Fin S256x896.rank) ∈ dot_S256x896_S896x896_S256x896_1_0_0_1_n_n.lhsBatch by decide), dif_pos (show (0 : Fin S256x896.rank) ∈ dot_S256x896_S896x896_S256x896_1_0_0_1_n_n.lhsNonContracting by decide)]
  rfl
theorem lhs_qw_1 (i : S256x896.Idx) (q : dot_S256x896_S896x896_S256x896_1_0_0_1_n_n.contr.Idx) :
    (dot_S256x896_S896x896_S256x896_1_0_0_1_n_n.lhsIdx i q 1).val = (q ⟨0, by decide⟩).val :=
  dot_S256x896_S896x896_S256x896_1_0_0_1_n_n.lhsIdx_val_of_single rfl i q
theorem rhs_qw_0 (i : S256x896.Idx) (q : dot_S256x896_S896x896_S256x896_1_0_0_1_n_n.contr.Idx) :
    (dot_S256x896_S896x896_S256x896_1_0_0_1_n_n.rhsIdx i q 0).val = (q ⟨0, by decide⟩).val :=
  dot_S256x896_S896x896_S256x896_1_0_0_1_n_n.rhsIdx_val_of_single rfl i q
theorem rhs_qw_1 (i : S256x896.Idx) (q : dot_S256x896_S896x896_S256x896_1_0_0_1_n_n.contr.Idx) :
    (dot_S256x896_S896x896_S256x896_1_0_0_1_n_n.rhsIdx i q 1).val = (i 1).val := by
  unfold DotDims.rhsIdx
  rw [dif_neg (show ¬(1 : Fin S896x896.rank) ∈ dot_S256x896_S896x896_S256x896_1_0_0_1_n_n.rhsBatch by decide), dif_pos (show (1 : Fin S896x896.rank) ∈ dot_S256x896_S896x896_S256x896_1_0_0_1_n_n.rhsNonContracting by decide)]
  rfl

/-- Rows times a square weight matrix (the query projection and the output projection): at `(i, d)` the sum over
    the 896 channels. -/
theorem matmul_qw_apply (l : FVec Ideal S256x896 .bf16) (r : FVec Ideal S896x896 .bf16) (i : Fin 256) (d : Fin 896) :
    matmul dot_S256x896_S896x896_S256x896_1_0_0_1_n_n none l r (constant (F := Ideal) S256x896 .f32 0x00000000#32) (ix2 i d)
      = ∑ k : Fin 896, l (ix2 i k) * r (ix2 k d) := by
  simp only [matmul]
  rw [Ideal.matmul_constant_zero_apply, ← Equiv.sum_comp (contrEquiv1 dot_S256x896_S896x896_S256x896_1_0_0_1_n_n 896 rfl rfl).symm]
  refine Finset.sum_congr rfl fun k _ => ?_
  have hk := contrEquiv1_symm_val dot_S256x896_S896x896_S256x896_1_0_0_1_n_n 896 rfl rfl k
  have el : dot_S256x896_S896x896_S256x896_1_0_0_1_n_n.lhsIdx (ix2 i d) ((contrEquiv1 dot_S256x896_S896x896_S256x896_1_0_0_1_n_n 896 rfl rfl).symm k) = ix2 i k := funext fun a => Fin.ext (by
    match a with
    | ⟨0, _⟩ => exact lhs_qw_0 _ _
    | ⟨1, _⟩ => exact (lhs_qw_1 _ _).trans hk)
  have er : dot_S256x896_S896x896_S256x896_1_0_0_1_n_n.rhsIdx (ix2 i d) ((contrEquiv1 dot_S256x896_S896x896_S256x896_1_0_0_1_n_n 896 rfl rfl).symm k) = ix2 k d := funext fun a => Fin.ext (by
    match a with
    | ⟨0, _⟩ => exact (rhs_qw_0 _ _).trans hk
    | ⟨1, _⟩ => exact rhs_qw_1 _ _)
  rw [el, er]

theorem lhs_qk_0 (i : S256x4096.Idx) (q : dot_S256x896_S4096x896_S256x4096_1_1_0_0_n_n.contr.Idx) :
    (dot_S256x896_S4096x896_S256x4096_1_1_0_0_n_n.lhsIdx i q 0).val = (i 0).val := by
  unfold DotDims.lhsIdx
  rw [dif_neg (show ¬(0 : Fin S256x896.rank) ∈ dot_S256x896_S4096x896_S256x4096_1_1_0_0_n_n.lhsBatch by decide), dif_pos (show (0 : Fin S256x896.rank) ∈ dot_S256x896_S4096x896_S256x4096_1_1_0_0_n_n.lhsNonContracting by decide)]
  rfl
theorem lhs_qk_1 (i : S256x4096.Idx) (q : dot_S256x896_S4096x896_S256x4096_1_1_0_0_n_n.contr.Idx) :
    (dot_S256x896_S4096x896_S256x4096_1_1_0_0_n_n.lhsIdx i q 1).val = (q ⟨0, by decide⟩).val :=
  dot_S256x896_S4096x896_S256x4096_1_1_0_0_n_n.lhsIdx_val_of_single rfl i q
theorem rhs_qk_0 (i : S256x4096.Idx) (q : dot_S256x896_S4096x896_S256x4096_1_1_0_0_n_n.contr.Idx) :
    (dot_S256x896_S4096x896_S256x4096_1_1_0_0_n_n.rhsIdx i q 0).val = (i 1).val := by
  unfold DotDims.rhsIdx
  rw [dif_neg (show ¬(0 : Fin S4096x896.rank) ∈ dot_S256x896_S4096x896_S256x4096_1_1_0_0_n_n.rhsBatch by decide), dif_pos (show (0 : Fin S4096x896.rank) ∈ dot_S256x896_S4096x896_S256x4096_1_1_0_0_n_n.rhsNonContracting by decide)]
  rfl
theorem rhs_qk_1 (i : S256x4096.Idx) (q : dot_S256x896_S4096x896_S256x4096_1_1_0_0_n_n.contr.Idx) :
    (dot_S256x896_S4096x896_S256x4096_1_1_0_0_n_n.rhsIdx i q 1).val = (q ⟨0, by decide⟩).val :=
  dot_S256x896_S4096x896_S256x4096_1_1_0_0_n_n.rhsIdx_val_of_single rfl i q

/-- Queries against keys, contracting the channel axis of BOTH operands: at `(i, j)` the inner product of query row
    `i` and key row `j`. -/
theorem matmul_qk_apply (l : FVec Ideal S256x896 .bf16) (r : FVec Ideal S4096x896 .bf16) (i : Fin 256) (j : Fin 4096) :
    matmul dot_S256x896_S4096x896_S256x4096_1_1_0_0_n_n none l r (constant (F := Ideal) S256x4096 .f32 0x00000000#32) (ix2 i j)
      = ∑ d : Fin 896, l (ix2 i d) * r (ix2 j d) := by
  simp only [matmul]
  rw [Ideal.matmul_constant_zero_apply, ← Equiv.sum_comp (contrEquiv1 dot_S256x896_S4096x896_S256x4096_1_1_0_0_n_n 896 rfl rfl).symm]
  refine Finset.sum_congr rfl fun k _ => ?_
  have hk := contrEquiv1_symm_val dot_S256x896_S4096x896_S256x4096_1_1_0_0_n_n 896 rfl rfl k
  have el : dot_S256x896_S4096x896_S256x4096_1_1_0_0_n_n.lhsIdx (ix2 i j) ((contrEquiv1 dot_S256x896_S4096x896_S256x4096_1_1_0_0_n_n 896 rfl rfl).symm k) = ix2 i k := funext fun a => Fin.ext (by
    match a with
    | ⟨0, _⟩ => exact lhs_qk_0 _ _
    | ⟨1, _⟩ => exact (lhs_qk_1 _ _).trans hk)
  have er : dot_S256x896_S4096x896_S256x4096_1_1_0_0_n_n.rhsIdx (ix2 i j) ((contrEquiv1 dot_S256x896_S4096x896_S256x4096_1_1_0_0_n_n 896 rfl rfl).symm k) = ix2 j k := funext fun a => Fin.ext (by
    match a with
    | ⟨0, _⟩ => exact rhs_qk_0 _ _
    | ⟨1, _⟩ => exact (rhs_qk_1 _ _).trans hk)
  rw [el, er]

theorem lhs_pv_0 (i : S256x896.Idx) (q : dot_S256x4096_S4096x896_S256x896_1_0_0_1_n_n.contr.Idx) :
    (dot_S256x4096_S4096x896_S256x896_1_0_0_1_n_n.lhsIdx i q 0).val = (i 0).val := by
  unfold DotDims.lhsIdx
  rw [dif_neg (show ¬(0 : Fin S256x4096.rank) ∈ dot_S256x4096_S4096x896_S256x896_1_0_0_1_n_n.lhsBatch by decide), dif_pos (show (0 : Fin S256x4096.rank) ∈ dot_S256x4096_S4096x896_S256x896_1_0_0_1_n_n.lhsNonContracting by decide)]
  rfl
theorem lhs_pv_1 (i : S256x896.Idx) (q : dot_S256x4096_S4096x896_S256x896_1_0_0_1_n_n.contr.Idx) :
    (dot_S256x4096_S4096x896_S256x896_1_0_0_1_n_n.lhsIdx i q 1).val = (q ⟨0, by decide⟩).val :=
  dot_S256x4096_S4096x896_S256x896_1_0_0_1_n_n.lhsIdx_val_of_single rfl i q
theorem rhs_pv_0 (i : S256x896.Idx) (q : dot_S256x4096_S4096x896_S256x896_1_0_0_1_n_n.contr.Idx) :
    (dot_S256x4096_S4096x896_S256x896_1_0_0_1_n_n.rhsIdx i q 0).val = (q ⟨0, by decide⟩).val :=
  dot_S256x4096_S4096x896_S256x896_1_0_0_1_n_n.rhsIdx_val_of_single rfl i q
theorem rhs_pv_1 (i : S256x896.Idx) (q : dot_S256x4096_S4096x896_S256x896_1_0_0_1_n_n.contr.Idx) :
    (dot_S256x4096_S4096x896_S256x896_1_0_0_1_n_n.rhsIdx i q 1).val = (i 1).val := by
  unfold DotDims.rhsIdx
  rw [dif_neg (show ¬(1 : Fin S4096x896.rank) ∈ dot_S256x4096_S4096x896_S256x896_1_0_0_1_n_n.rhsBatch by decide), dif_pos (show (1 : Fin S4096x896.rank) ∈ dot_S256x4096_S4096x896_S256x896_1_0_0_1_n_n.rhsNonContracting by decide)]
  rfl

/-- The softmax numerators against the values: at `(i, d)` the sum over the 4096 keys. -/
theorem matmul_pv_apply (l : FVec Ideal S256x4096 .bf16) (r : FVec Ideal S4096x896 .bf16) (i : Fin 256) (d : Fin 896) :
    matmul dot_S256x4096_S4096x896_S256x896_1_0_0_1_n_n none l r (constant (F := Ideal) S256x896 .f32 0x00000000#32) (ix2 i d)
      = ∑ j : Fin 4096, l (ix2 i j) * r (ix2 j d) := by
  simp only [matmul]
  rw [Ideal.matmul_constant_zero_apply, ← Equiv.sum_comp (contrEquiv1 dot_S256x4096_S4096x896_S256x896_1_0_0_1_n_n 4096 rfl rfl).symm]
  refine Finset.sum_congr rfl fun k _ => ?_
  have hk := contrEquiv1_symm_val dot_S256x4096_S4096x896_S256x896_1_0_0_1_n_n 4096 rfl rfl k
  have el : dot_S256x4096_S4096x896_S256x896_1_0_0_1_n_n.lhsIdx (ix2 i d) ((contrEquiv1 dot_S256x4096_S4096x896_S256x896_1_0_0_1_n_n 4096 rfl rfl).symm k) = ix2 i k := funext fun a => Fin.ext (by
    match a with
    | ⟨0, _⟩ => exact lhs_pv_0 _ _
    | ⟨1, _⟩ => exact (lhs_pv_1 _ _).trans hk)
  have er : dot_S256x4096_S4096x896_S256x896_1_0_0_1_n_n.rhsIdx (ix2 i d) ((contrEquiv1 dot_S256x4096_S4096x896_S256x896_1_0_0_1_n_n 4096 rfl rfl).symm k) = ix2 k d := funext fun a => Fin.ext (by
    match a with
    | ⟨0, _⟩ => exact (rhs_pv_0 _ _).trans hk
    | ⟨1, _⟩ => exact rhs_pv_1 _ _)
  rw [el, er]

/-! ### The second launch's three small payloads -/

/-- The running sum's new value at a channel: the old value plus the tile's column sum. -/
theorem pay1_apply (v34 : FVec Ideal S1x896 .f32) (v36 : Vec Ideal S1x1x896 .f32) (e : Fin 896) :
    k1_pay1 (F := Ideal) v34 v36 (ix3 (0 : Fin 1) (0 : Fin 1) e) = v36 (ix3 (0 : Fin 1) (0 : Fin 1) e) + v34 (ix2 (0 : Fin 1) e) := by
  unfold k1_pay1
  simp only [shapeCast_self]
  refine (addf_apply _ _ _).trans ?_
  exact congrArg (v36 (ix3 (0 : Fin 1) (0 : Fin 1) e) + ·) (shapeCast_ab_1ab_apply v34 _ (0 : Fin 1) (0 : Fin 1) e)

/-- The pooled output at a channel: the accumulated sum times the word of `2⁻¹²`. -/
theorem pay2'_apply (v44 : Vec Ideal S1x1x896 .f32) (e : Fin 896) :
    k1_pay2 (F := Ideal) v44 (ix3 (0 : Fin 1) (0 : Fin 1) e) = v44 (ix3 (0 : Fin 1) (0 : Fin 1) e) * Ideal.ofBits .f32 0x39800000#32 := rfl

/-- The running sum is reset to zero. -/
theorem pay3'_apply (e : Fin 896) : k1_pay3 (F := Ideal) (ix3 (0 : Fin 1) (0 : Fin 1) e) = 0 := by
  unfold k1_pay3
  simp only [shapeCast_self]
  exact Ideal.ofBits_zero_f32

/-! ### The first launch: tokens times the fused key|value weights -/

theorem lhs_kv_0 (i : S1024x1792.Idx) (q : dot_S1024x896_S896x1792_S1024x1792_1_0_0_1_n_n.contr.Idx) :
    (dot_S1024x896_S896x1792_S1024x1792_1_0_0_1_n_n.lhsIdx i q 0).val = (i 0).val := by
  unfold DotDims.lhsIdx
  rw [dif_neg (show ¬(0 : Fin S1024x896.rank) ∈ dot_S1024x896_S896x1792_S1024x1792_1_0_0_1_n_n.lhsBatch by decide), dif_pos (show (0 : Fin S1024x896.rank) ∈ dot_S1024x896_S896x1792_S1024x1792_1_0_0_1_n_n.lhsNonContracting by decide)]
  rfl
theorem lhs_kv_1 (i : S1024x1792.Idx) (q : dot_S1024x896_S896x1792_S1024x1792_1_0_0_1_n_n.contr.Idx) :
    (dot_S1024x896_S896x1792_S1024x1792_1_0_0_1_n_n.lhsIdx i q 1).val = (q ⟨0, by decide⟩).val :=
  dot_S1024x896_S896x1792_S1024x1792_1_0_0_1_n_n.lhsIdx_val_of_single rfl i q
theorem rhs_kv_0 (i : S1024x1792.Idx) (q : dot_S1024x896_S896x1792_S1024x1792_1_0_0_1_n_n.contr.Idx) :
    (dot_S1024x896_S896x1792_S1024x1792_1_0_0_1_n_n.rhsIdx i q 0).val = (q ⟨0, by decide⟩).val :=
  dot_S1024x896_S896x1792_S1024x1792_1_0_0_1_n_n.rhsIdx_val_of_single rfl i q
theorem rhs_kv_1 (i : S1024x1792.Idx) (q : dot_S1024x896_S896x1792_S1024x1792_1_0_0_1_n_n.contr.Idx) :
    (dot_S1024x896_S896x1792_S1024x1792_1_0_0_1_n_n.rhsIdx i q 1).val = (i 1).val := by
  unfold DotDims.rhsIdx
  rw [dif_neg (show ¬(1 : Fin S896x1792.rank) ∈ dot_S1024x896_S896x1792_S1024x1792_1_0_0_1_n_n.rhsBatch by decide), dif_pos (show (1 : Fin S896x1792.rank) ∈ dot_S1024x896_S896x1792_S1024x1792_1_0_0_1_n_n.rhsNonContracting by decide)]
  rfl

/-- The product into the zero accumulator at `(p, c)`: the sum over the 896 channels. -/
theorem matmul_kv_apply (l : FVec Ideal S1024x896 .bf16) (r : FVec Ideal S896x1792 .bf16) (p : Fin 1024) (c : Fin 1792) :
    matmul dot_S1024x896_S896x1792_S1024x1792_1_0_0_1_n_n none l r (constant (F := Ideal) S1024x1792 .f32 0x00000000#32) (ix2 p c)
      = ∑ k : Fin 896, l (ix2 p k) * r (ix2 k c) := by
  simp only [matmul]
  rw [Ideal.matmul_constant_zero_apply, ← Equiv.sum_comp (contrEquiv1 dot_S1024x896_S896x1792_S1024x1792_1_0_0_1_n_n 896 rfl rfl).symm]
  refine Finset.sum_congr rfl fun k _ => ?_
  have hk := contrEquiv1_symm_val dot_S1024x896_S896x1792_S1024x1792_1_0_0_1_n_n 896 rfl rfl k
  have el : dot_S1024x896_S896x1792_S1024x1792_1_0_0_1_n_n.lhsIdx (ix2 p c) ((contrEquiv1 dot_S1024x896_S896x1792_S1024x1792_1_0_0_1_n_n 896 rfl rfl).symm k) = ix2 p k := funext fun a => Fin.ext (by
    match a with
    | ⟨0, _⟩ => exact lhs_kv_0 _ _
    | ⟨1, _⟩ => exact (lhs_kv_1 _ _).trans hk)
  have er : dot_S1024x896_S896x1792_S1024x1792_1_0_0_1_n_n.rhsIdx (ix2 p c) ((contrEquiv1 dot_S1024x896_S896x1792_S1024x1792_1_0_0_1_n_n 896 rfl rfl).symm k) = ix2 k c := funext fun a => Fin.ext (by
    match a with
    | ⟨0, _⟩ => exact (rhs_kv_0 _ _).trans hk
    | ⟨1, _⟩ => exact rhs_kv_1 _ _)
  rw [el, er]

/-- The fused product at `(r, c)`: the token's row against column `c` of the fused weights. -/
theorem pay1_kv_apply (x0 : Vec Ideal S1x1024x896 .f32) (x1 : Vec Ideal S896x1792 .bf16) (r : Fin 1024) (c : Fin 1792) :
    k0_pay1 (F := Ideal) x0 x1 (ix2 r c) = ∑ k : Fin 896, x0 (ix3 (0 : Fin 1) r k) * x1 (ix2 k c) := by
  unfold k0_pay1
  simp only [shapeCast_self]
  refine (matmul_kv_apply _ _ r c).trans ?_
  refine Finset.sum_congr rfl fun k _ => ?_
  exact congrArg (· * x1 (ix2 k c)) (shapeCast_1ab_ab_apply x0 _ r k)

/-- The keys' block at `(r, d)`: the left half of the fused product. -/
theorem pay2_apply (x0 : Vec Ideal S1x1024x896 .f32) (x1 : Vec Ideal S896x1792 .bf16) (r : Fin 1024) (d : Fin 896) :
    k0_pay2 (F := Ideal) x0 x1 (ix3 (0 : Fin 1) r d) = ∑ k : Fin 896, x0 (ix3 (0 : Fin 1) r k) * x1 (ix2 k ⟨d.val, by omega⟩) := by
  unfold k0_pay2
  refine (shapeCast_ab_1ab_apply _ _ (0 : Fin 1) r d).trans ?_
  show extractStridedSlice S1024x896 ![0, 0] (k0_pay1 (F := Ideal) x0 x1) Facts₀.slices_S1024x1792_o0_0_S1024x896 (ix2 r d) = _
  refine (slice2_axis1_apply 0 (k0_pay1 (F := Ideal) x0 x1) Facts₀.slices_S1024x1792_o0_0_S1024x896 r d ⟨d.val, by omega⟩ (Nat.zero_add _).symm).trans ?_
  exact pay1_kv_apply x0 x1 r ⟨d.val, by omega⟩

/-- The values' block at `(r, d)`: the right half of the fused product. -/
theorem pay3_apply (x0 : Vec Ideal S1x1024x896 .f32) (x1 : Vec Ideal S896x1792 .bf16) (r : Fin 1024) (d : Fin 896) :
    k0_pay3 (F := Ideal) x0 x1 (ix3 (0 : Fin 1) r d) = ∑ k : Fin 896, x0 (ix3 (0 : Fin 1) r k) * x1 (ix2 k ⟨896 + d.val, by omega⟩) := by
  unfold k0_pay3
  refine (shapeCast_ab_1ab_apply _ _ (0 : Fin 1) r d).trans ?_
  show extractStridedSlice S1024x896 ![0, 896] (k0_pay1 (F := Ideal) x0 x1) Facts₀.slices_S1024x1792_o0_896_S1024x896 (ix2 r d) = _
  refine (slice2_axis1_apply 896 (k0_pay1 (F := Ideal) x0 x1) Facts₀.slices_S1024x1792_o0_896_S1024x896 r d ⟨896 + d.val, by omega⟩ rfl).trans ?_
  exact pay1_kv_apply x0 x1 r ⟨896 + d.val, by omega⟩

/-! ### The attention tile, stage by stage

The tile's payload is cut at three named vectors: the scores, the softmax numerators, and the rows before pooling. -/

/-- The tile's score vector as the kernel computes it: the tokens times the query weights, times the keys transposed. -/
def scoreVec (x : Vec Ideal S1x256x896 .f32) (wq : FVec Ideal S896x896 .bf16) (k : FVec Ideal S4096x896 .bf16) :
    FVec Ideal S256x4096 .f32 :=
  matmul dot_S256x896_S4096x896_S256x4096_1_1_0_0_n_n none
    (truncf .bf16 (matmul dot_S256x896_S896x896_S256x896_1_0_0_1_n_n none
      (truncf .bf16 (shapeCast S256x896 x Facts₀.shapeCasts_S1x256x896_S256x896) Facts₀.bitsLt_bf16_f32) wq
      (constant S256x896 .f32 0x00000000#32)) Facts₀.bitsLt_bf16_f32)
    k (constant S256x4096 .f32 0x00000000#32)

/-- The softmax numerators of a score vector: each row less its maximum, exponentiated. -/
def expoVec (s : FVec Ideal S256x4096 .f32) : FVec Ideal S256x4096 .f32 :=
  exp (subf s (broadcastTo S256x4096 (shapeCast S256x1
    (multiReduction (F := Ideal) .maximumf [1] S256 s 0xFF800000#32 Facts₀.reduces_S256x4096_S256 (.inl rfl) rfl)
    Facts₀.shapeCasts_S256_S256x1) Facts₀.broadcasts_S256x1_S256x4096))

/-- The tile's rows before pooling, from a vector of numerators: the weighted values over the denominator, projected,
    plus the bias, plus the tokens. -/
def rowsVec (x : Vec Ideal S1x256x896 .f32) (v : FVec Ideal S4096x896 .bf16) (wp : FVec Ideal S896x896 .bf16)
    (bp : Vec Ideal S1x896 .f32) (p : FVec Ideal S256x4096 .f32) : FVec Ideal S256x896 .f32 :=
  addf (addf (matmul dot_S256x896_S896x896_S256x896_1_0_0_1_n_n none
      (truncf .bf16 (divf
        (matmul dot_S256x4096_S4096x896_S256x896_1_0_0_1_n_n none (truncf .bf16 p Facts₀.bitsLt_bf16_f32) v
          (constant S256x896 .f32 0x00000000#32))
        (broadcastTo S256x896 (shapeCast S256x1
          (multiReduction (F := Ideal) .add [1] S256 p 0x00000000#32 Facts₀.reduces_S256x4096_S256 (.inl rfl) rfl)
          Facts₀.shapeCasts_S256_S256x1) Facts₀.broadcasts_S256x1_S256x896)) Facts₀.bitsLt_bf16_f32)
      wp (constant S256x896 .f32 0x00000000#32))
      (broadcastTo S256x896 bp Facts₀.broadcasts_S1x896_S256x896))
    (shapeCast S256x896 x Facts₀.shapeCasts_S1x256x896_S256x896)

/-- The payload is the column sums of those rows, as a `[1, 896]` vector. -/
theorem pay4_eq (x : Vec Ideal S1x256x896 .f32) (wq : Vec Ideal S896x896 .bf16) (k v : Vec Ideal S4096x896 .bf16)
    (wp : Vec Ideal S896x896 .bf16) (bp : Vec Ideal S1x896 .f32) :
    k1_pay4 (F := Ideal) x wq k v wp bp
      = shapeCast S1x896 (multiReduction (F := Ideal) .add [0] S896 (rowsVec x v wp bp (expoVec (scoreVec x wq k)))
          0x00000000#32 Facts₀.reduces_S256x896_S896 (.inl rfl) rfl) Facts₀.shapeCasts_S896_S1x896 := by
  unfold k1_pay4
  simp only [shapeCast_self]
  rfl

/-- The scores are `Spec.scoreTile` of the tile's tokens, the query weights and the keys. -/
theorem scoreVec_apply (x : Vec Ideal S1x256x896 .f32) (wq : FVec Ideal S896x896 .bf16) (k : FVec Ideal S4096x896 .bf16)
    (i : Fin 256) (j : Fin 4096) :
    scoreVec x wq k (ix2 i j)
      = Cert.Spec.scoreTile (fun i c => x (ix3 (0 : Fin 1) i c)) (fun a b => wq (ix2 a b)) (fun j d => k (ix2 j d)) i j := by
  unfold scoreVec
  refine (matmul_qk_apply _ _ i j).trans ?_
  show _ = ∑ d : Fin 896, (∑ c : Fin 896, x (ix3 (0 : Fin 1) i c) * wq (ix2 c d)) * k (ix2 j d)
  refine Finset.sum_congr rfl fun d _ => congrArg (· * k (ix2 j d)) ?_
  refine (truncf_apply (φ := .f32) (ψ := .bf16) _ Facts₀.bitsLt_bf16_f32 (ix2 i d)).trans ?_
  refine (matmul_qw_apply _ _ i d).trans ?_
  exact Finset.sum_congr rfl fun c _ => congrArg (· * wq (ix2 c d)) (shapeCast_1ab_ab_apply x _ i c)

/-- A numerator is the exponential of the score less its row's maximum. -/
theorem expoVec_apply (s : FVec Ideal S256x4096 .f32) (i : Fin 256) (j : Fin 4096) :
    expoVec s (ix2 i j) = Ideal.exp (s (ix2 i j) - Cert.Spec.rowMax (fun j' : Fin 4096 => s (ix2 i j'))) := by
  unfold expoVec
  show Ideal.exp (s (ix2 i j) - broadcastTo S256x4096 _ Facts₀.broadcasts_S256x1_S256x4096 (ix2 i j)) = _
  refine congrArg (fun m => Ideal.exp (s (ix2 i j) - m)) ?_
  refine (broadcastTo_a1_ab_apply _ _ i j).trans ?_
  refine (shapeCast_a_a1_apply _ _ i (0 : Fin 1)).trans ?_
  exact rowmax_apply s i

/-- The softmax denominator of a vector of numerators, spread over the 896 channels: the row's sum. -/
theorem denom_apply (p : FVec Ideal S256x4096 .f32) (i : Fin 256) (d : Fin 896) :
    broadcastTo S256x896 (shapeCast S256x1
        (multiReduction (F := Ideal) .add [1] S256 p 0x00000000#32 Facts₀.reduces_S256x4096_S256 (.inl rfl) rfl)
        Facts₀.shapeCasts_S256_S256x1) Facts₀.broadcasts_S256x1_S256x896 (ix2 i d)
      = ∑ j : Fin 4096, p (ix2 i j) :=
  (broadcastTo_a1_ab_apply _ _ i d).trans ((shapeCast_a_a1_apply _ _ i (0 : Fin 1)).trans (rowsum_apply p i))

/-- One row before pooling: the weighted sum of the values divided by the denominator, the output projection, the
    bias, the residual. -/
theorem rowsVec_apply (x : Vec Ideal S1x256x896 .f32) (v : FVec Ideal S4096x896 .bf16) (wp : FVec Ideal S896x896 .bf16)
    (bp : Vec Ideal S1x896 .f32) (p : FVec Ideal S256x4096 .f32) (i : Fin 256) (e : Fin 896) :
    rowsVec x v wp bp p (ix2 i e)
      = (∑ d : Fin 896, Ideal.div (∑ j : Fin 4096, p (ix2 i j) * v (ix2 j d)) (∑ j : Fin 4096, p (ix2 i j)) * wp (ix2 d e))
          + bp (ix2 (0 : Fin 1) e) + x (ix3 (0 : Fin 1) i e) := by
  unfold rowsVec
  refine (addf_apply _ _ _).trans ?_
  refine congrArg₂ (· + ·) ((addf_apply _ _ _).trans (congrArg₂ (· + ·) ?_ ?_)) ?_
  · refine (matmul_qw_apply _ _ i e).trans ?_
    refine Finset.sum_congr rfl fun d _ => congrArg (· * wp (ix2 d e)) ?_
    refine (truncf_apply (φ := .f32) (ψ := .bf16) _ Facts₀.bitsLt_bf16_f32 (ix2 i d)).trans ?_
    refine (divf_apply _ _ _).trans ?_
    exact congrArg₂ Ideal.div (matmul_pv_apply _ _ i d) (denom_apply p i d)
  · exact broadcastTo_1b_ab_apply bp _ i e
  · exact shapeCast_1ab_ab_apply x _ i e

/-- THE ATTENTION TILE at a channel: the column sum over the tile's 256 rows of `Spec.tokTile`. -/
theorem pay4_apply (x : Vec Ideal S1x256x896 .f32) (wq : Vec Ideal S896x896 .bf16) (k v : Vec Ideal S4096x896 .bf16)
    (wp : Vec Ideal S896x896 .bf16) (bp : Vec Ideal S1x896 .f32) (e : Fin 896) :
    k1_pay4 (F := Ideal) x wq k v wp bp (ix2 (0 : Fin 1) e)
      = ∑ i : Fin 256, Cert.Spec.tokTile (fun i c => x (ix3 (0 : Fin 1) i c)) (fun a b => wq (ix2 a b)) (fun j d => k (ix2 j d))
          (fun j d => v (ix2 j d)) (fun a b => wp (ix2 a b)) (fun a => bp (ix2 (0 : Fin 1) a)) i e := by
  rw [pay4_eq]
  refine (shapeCast_a_1a_apply _ _ (0 : Fin 1) e).trans ?_
  refine (colsum_apply _ e).trans ?_
  refine Finset.sum_congr rfl fun i _ => ?_
  refine (rowsVec_apply x v wp bp _ i e).trans ?_
  -- every numerator of row `i`, read through the scores
  have hexp : ∀ j : Fin 4096, expoVec (scoreVec x wq k) (ix2 i j)
      = Ideal.exp (Cert.Spec.scoreTile (fun i c => x (ix3 (0 : Fin 1) i c)) (fun a b => wq (ix2 a b)) (fun j d => k (ix2 j d)) i j
          - Cert.Spec.rowMax (Cert.Spec.scoreTile (fun i c => x (ix3 (0 : Fin 1) i c)) (fun a b => wq (ix2 a b)) (fun j d => k (ix2 j d)) i)) :=
    fun j => by
      refine (expoVec_apply _ i j).trans ?_
      rw [scoreVec_apply x wq k i j,
        (funext fun j' => scoreVec_apply x wq k i j' : (fun j' : Fin 4096 => scoreVec x wq k (ix2 i j')) = _)]
  simp only [hexp]
  rfl

end Cert.KernelIdeal.PayIdx

end
-- ==== Proof.KI.Value0.lean ====
/-
  What the first launch leaves in the keys' and the values' arrays, as whole-array functions of what the
  region finds on entry.
  The launch runs over 32 grid points, point `t` standing for batch `t / 4` and row tile `t % 4`. At a point
  the body forms, from rows `1024 (t % 4) … 1024 (t % 4) + 1023` of batch `t / 4` of the token array and from
  the whole fused weight matrix, the products row · column; columns `0 … 895` go to the same rows of the keys'
  array, columns `896 … 1791` to the same rows of the values' array. The 32 row tiles cover both arrays, so
  after the launch entry `(b, n, d)` of the keys' array is `∑ k, x (b, n, k) · w (k, d)` and that of the values'
  array is `∑ k, x (b, n, k) · w (k, 896 + d)`, with `x` the token array and `w` the fused weights, read in the
  ideal arithmetic where the roundings are the identity.
-/
import proofs.«423680_j33105607917868_3_alg».proof.Proof.KI.Region0
import proofs.«423680_j33105607917868_3_alg».proof.Proof.KI.PayIdx
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The two arrays as functions of the tokens and the fused weights -/

/-- A column of the keys' half is a column of the fused matrix; one of the values' half sits 896 further. -/
theorem keyCol_lt (d : Fin 896) : d.val < 1792 := by omega
theorem valCol_lt (d : Fin 896) : 896 + d.val < 1792 := by omega

/-- The keys: tokens times the left half of the fused weights, entry by entry. -/
def keysG (x : S8x4096x896.Idx → EReal) (w : S896x1792.Idx → EReal) : S8x4096x896.Idx → EReal :=
  fun j => ∑ k : Fin 896, x (ix3 (j 0) (j 1) k) * w (ix2 k ⟨(j 2).val, keyCol_lt (j 2)⟩)

/-- The values: tokens times the right half. -/
def valuesG (x : S8x4096x896.Idx → EReal) (w : S896x1792.Idx → EReal) : S8x4096x896.Idx → EReal :=
  fun j => ∑ k : Fin 896, x (ix3 (j 0) (j 1) k) * w (ix2 k ⟨896 + (j 2).val, valCol_lt (j 2)⟩)

/-! ## The index maps over the grid -/

theorem zero3 : (![0, 0, 0] : Fin 3 → Nat) = fun _ => 0 := funext fun a => by fin_cases a <;> rfl
theorem zero2 : (![0, 0] : Fin 2 → Nat) = fun _ => 0 := funext fun a => by fin_cases a <;> rfl

/-- Point `t` is batch `t / 4`, row tile `t % 4`, for the tokens' window and both outputs' alike; the weights'
    window stays at its one block. Decided over the 32 points. -/
theorem idx_grid : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0) :=
  (by decide +kernel : ∀ t : Fin grid0.N, _)

/-! ## The input blocks, read off the arrays -/

/-- The tokens' block at point `t` is rows `1024 (t % 4) …` of batch `t / 4` of the token array. -/
theorem tok_block (c : Dev nD) (t : Fin cfg0.N) (y : S1x1024x896.Idx) (i : S8x4096x896.Idx)
    (h0 : (i 0).val = t.val / 4) (h1 : (i 1).val = t.val % 4 * 1024 + (y 1).val) (h2 : (i 2).val = (y 2).val) :
    (iblk0 V c 0 t : Vec Ideal S1x1024x896 .f32) y = (V c main_arg0 : S8x4096x896.Idx → EReal) i := by
  obtain ⟨⟨e0, e1, e2⟩, -, -, -⟩ := idx_grid t
  unfold iblk0
  rw [View.read_apply]
  show V c main_arg0 _ = V c main_arg0 _
  congr 1
  funext a
  apply Fin.ext
  match a with
  | ⟨0, _⟩ =>
    show win0_0.index t (0 : Fin 3) * 1 + 1 * (y 0).val = (i 0).val
    have hy : (y 0).val < 1 := (y 0).isLt
    rw [e0, h0]; omega
  | ⟨1, _⟩ =>
    show win0_0.index t (1 : Fin 3) * 1024 + 1 * (y 1).val = (i 1).val
    rw [e1, h1]; omega
  | ⟨2, _⟩ =>
    show win0_0.index t (2 : Fin 3) * 896 + 1 * (y 2).val = (i 2).val
    rw [e2, h2]; omega

/-- The weights' block is the whole fused matrix, at every point. -/
theorem wgt_block (c : Dev nD) (t : Fin cfg0.N) (y : S896x1792.Idx) :
    (iblk0 V c 1 t : Vec Ideal S896x1792 .bf16) y = (V c main_v4 : S896x1792.Idx → EReal) y := by
  obtain ⟨-, ⟨e0, e1⟩, -, -⟩ := idx_grid t
  unfold iblk0
  rw [View.read_apply]
  show V c main_v4 _ = V c main_v4 _
  congr 1
  funext a
  apply Fin.ext
  match a with
  | ⟨0, _⟩ =>
    show win0_1.index t (0 : Fin 2) * 896 + 1 * (y 0).val = (y 0).val
    rw [e0]; omega
  | ⟨1, _⟩ =>
    show win0_1.index t (1 : Fin 2) * 1792 + 1 * (y 1).val = (y 1).val
    rw [e1]; omega

/-! ## One point's output block -/

/-- The keys' payload at row `r`, column `d` of a block is the keys' function at an array index `i`, once the
    tokens' block row `r` is row `(i 0, i 1)` of the token array, the weights' block is the fused matrix, and
    `d` is `i`'s column. Stated over any blocks and arrays. -/
theorem keys_block (x : S8x4096x896.Idx → EReal) (w : S896x1792.Idx → EReal)
    (x0 : Vec Ideal S1x1024x896 .f32) (x1 : Vec Ideal S896x1792 .bf16) (i : S8x4096x896.Idx) (r : Fin 1024) (d : Fin 896)
    (h0 : ∀ k : Fin 896, x0 (ix3 0 r k) = x (ix3 (i 0) (i 1) k)) (h1 : ∀ y : S896x1792.Idx, x1 y = w y)
    (h2 : (i 2).val = d.val) :
    k0_pay2 (F := Ideal) x0 x1 (ix3 0 r d) = keysG x w i := by
  refine (PayIdx.pay2_apply x0 x1 r d).trans ?_
  unfold keysG
  refine Finset.sum_congr rfl fun k _ => ?_
  rw [h0 k, h1]
  have hc : (⟨d.val, keyCol_lt d⟩ : Fin 1792) = ⟨(i 2).val, keyCol_lt (i 2)⟩ := Fin.ext h2.symm
  rw [hc]

/-- The same for the values' payload, 896 columns further. -/
theorem values_block (x : S8x4096x896.Idx → EReal) (w : S896x1792.Idx → EReal)
    (x0 : Vec Ideal S1x1024x896 .f32) (x1 : Vec Ideal S896x1792 .bf16) (i : S8x4096x896.Idx) (r : Fin 1024) (d : Fin 896)
    (h0 : ∀ k : Fin 896, x0 (ix3 0 r k) = x (ix3 (i 0) (i 1) k)) (h1 : ∀ y : S896x1792.Idx, x1 y = w y)
    (h2 : (i 2).val = d.val) :
    k0_pay3 (F := Ideal) x0 x1 (ix3 0 r d) = valuesG x w i := by
  refine (PayIdx.pay3_apply x0 x1 r d).trans ?_
  unfold valuesG
  refine Finset.sum_congr rfl fun k _ => ?_
  rw [h0 k, h1]
  have hc : (⟨896 + d.val, valCol_lt d⟩ : Fin 1792) = ⟨896 + (i 2).val, valCol_lt (i 2)⟩ := Fin.ext (show 896 + d.val = 896 + (i 2).val by omega)
  rw [hc]

/-- A block index in coordinates: its leading coordinate is 0. -/
theorem blockIdx_eq (y : S1x1024x896.Idx) : y = ix3 (0 : Fin 1) (y 1) (y 2) := by
  have hlt : (y 0).val < 1 := (y 0).isLt
  have hy : y 0 = (0 : Fin 1) := Fin.ext (show (y 0).val = 0 by omega)
  exact (eq_ix3 y).trans (congrArg (fun z => ix3 z (y 1) (y 2)) hy)

/-- At point `t`, entry `y` of the keys' output block is the keys' function at the array index `i` the block's
    rectangle sends `y` to. -/
theorem keys_point (c : Dev nD) (t : Fin cfg0.N) (y : S1x1024x896.Idx) (i : S8x4096x896.Idx)
    (h0 : (i 0).val = t.val / 4) (h1 : (i 1).val = t.val % 4 * 1024 + (y 1).val) (h2 : (i 2).val = (y 2).val) :
    k0_pay2 (F := Ideal) (iblk0 V c 0 t) (iblk0 V c 1 t) y = keysG (V c main_arg0) (V c main_v4) i := by
  rw [blockIdx_eq y]
  exact keys_block (V c main_arg0) (V c main_v4) (iblk0 V c 0 t) (iblk0 V c 1 t) i (y 1) (y 2)
    (fun k => tok_block V c t (ix3 0 (y 1) k) (ix3 (i 0) (i 1) k) h0 h1 rfl) (fun z => wgt_block V c t z) h2

theorem values_point (c : Dev nD) (t : Fin cfg0.N) (y : S1x1024x896.Idx) (i : S8x4096x896.Idx)
    (h0 : (i 0).val = t.val / 4) (h1 : (i 1).val = t.val % 4 * 1024 + (y 1).val) (h2 : (i 2).val = (y 2).val) :
    k0_pay3 (F := Ideal) (iblk0 V c 0 t) (iblk0 V c 1 t) y = valuesG (V c main_arg0) (V c main_v4) i := by
  rw [blockIdx_eq y]
  exact values_block (V c main_arg0) (V c main_v4) (iblk0 V c 0 t) (iblk0 V c 1 t) i (y 1) (y 2)
    (fun k => tok_block V c t (ix3 0 (y 1) k) (ix3 (i 0) (i 1) k) h0 h1 rfl) (fun z => wgt_block V c t z) h2

/-! ## What a point writes back -/

/-- Point `t` writes to the keys' array block `t` of the keys' function of the arrays at entry. -/
theorem keys_flushed (c : Dev nD) (t : Fin cfg0.N) :
    (dat0 (F := Ideal) V c).flushed 2 t
      = ((cfg0.win 2).blk t).view.read (Elt Ideal) (keysG (V c main_arg0) (V c main_v4)) := by
  show (cfg0.win 2).cut (grid0.coords t) ((dat0 V c).after 2 t) = _
  rw [after0_2]
  unfold out0_2
  rw [View.canon_unit_zero zero3]
  simp only [View.ld_unit_zero (S := S1x1024x896) zero3, View.ld_unit_zero (S := S896x1792) zero2]
  obtain ⟨-, -, ⟨e0, e1, e2⟩, -⟩ := idx_grid t
  funext j
  rw [View.read_apply]
  show k0_pay2 (F := Ideal) (iblk0 V c 0 t) (iblk0 V c 1 t) ((cfg0.win 2).xinj (grid0.coords t) j)
    = keysG (V c main_arg0) (V c main_v4) (((cfg0.win 2).blk t).view.emb j)
  refine keys_point V c t _ _ ?_ ?_ ?_
  · show win0_2.index t (0 : Fin 3) * 1 + 1 * (j 0).val = t.val / 4
    have hj : (j 0).val < 1 := (j 0).isLt
    rw [e0]; omega
  · show win0_2.index t (1 : Fin 3) * 1024 + 1 * (j 1).val = t.val % 4 * 1024 + (j 1).val
    rw [e1]; omega
  · show win0_2.index t (2 : Fin 3) * 896 + 1 * (j 2).val = (j 2).val
    rw [e2]; omega

/-- Point `t` writes to the values' array block `t` of the values' function. -/
theorem values_flushed (c : Dev nD) (t : Fin cfg0.N) :
    (dat0 (F := Ideal) V c).flushed 3 t
      = ((cfg0.win 3).blk t).view.read (Elt Ideal) (valuesG (V c main_arg0) (V c main_v4)) := by
  show (cfg0.win 3).cut (grid0.coords t) ((dat0 V c).after 3 t) = _
  rw [after0_3]
  unfold out0_3
  rw [View.canon_unit_zero zero3]
  simp only [View.ld_unit_zero (S := S1x1024x896) zero3, View.ld_unit_zero (S := S896x1792) zero2]
  obtain ⟨-, -, -, ⟨e0, e1, e2⟩⟩ := idx_grid t
  funext j
  rw [View.read_apply]
  show k0_pay3 (F := Ideal) (iblk0 V c 0 t) (iblk0 V c 1 t) ((cfg0.win 3).xinj (grid0.coords t) j)
    = valuesG (V c main_arg0) (V c main_v4) (((cfg0.win 3).blk t).view.emb j)
  refine values_point V c t _ _ ?_ ?_ ?_
  · show win0_3.index t (0 : Fin 3) * 1 + 1 * (j 0).val = t.val / 4
    have hj : (j 0).val < 1 := (j 0).isLt
    rw [e0]; omega
  · show win0_3.index t (1 : Fin 3) * 1024 + 1 * (j 1).val = t.val % 4 * 1024 + (j 1).val
    rw [e1]; omega
  · show win0_3.index t (2 : Fin 3) * 896 + 1 * (j 2).val = (j 2).val
    rw [e2]; omega

/-! ## The 32 blocks cover the arrays -/

/-- An index of the keys' array is in point `t`'s block iff every coordinate is in the block's range on its axis. -/
theorem mem_keys_blk (t : Fin cfg0.N) (i : S8x4096x896.Idx) :
    i ∈ ((cfg0.win 2).blk t).view.set ↔ ∀ a : Fin 3, win0_2.index t a * S1x1024x896.size a ≤ (i a).val
      ∧ (i a).val < win0_2.index t a * S1x1024x896.size a + S1x1024x896.size a := by
  show i ∈ ((View.whole main_v7_0).slice (win0_2.rect t)).set ↔ _
  rw [View.set_slice_whole, Rect.mem_set_unit]
  exact Iff.rfl

theorem mem_values_blk (t : Fin cfg0.N) (i : S8x4096x896.Idx) :
    i ∈ ((cfg0.win 3).blk t).view.set ↔ ∀ a : Fin 3, win0_3.index t a * S1x1024x896.size a ≤ (i a).val
      ∧ (i a).val < win0_3.index t a * S1x1024x896.size a + S1x1024x896.size a := by
  show i ∈ ((View.whole main_v7_1).slice (win0_3.rect t)).set ↔ _
  rw [View.set_slice_whole, Rect.mem_set_unit]
  exact Iff.rfl

/-- The point whose row tile holds row `n` of batch `b`: `4 b + n / 1024`. -/
def pointOf (i : S8x4096x896.Idx) : Fin cfg0.N :=
  ⟨4 * (i 0).val + (i 1).val / 1024, by
    have h0 : (i 0).val < 8 := (i 0).isLt
    have h1 : (i 1).val < 4096 := (i 1).isLt
    show 4 * (i 0).val + (i 1).val / 1024 < grid0.N
    rw [N_0]; omega⟩

theorem pointOf_val (i : S8x4096x896.Idx) : (pointOf i).val = 4 * (i 0).val + (i 1).val / 1024 := rfl

/-- Every index of the keys' array lies in the block of a point that writes back. -/
theorem keys_cover (i : S8x4096x896.Idx) :
    ∃ t : Fin cfg0.N, (cfg0.win 2).flush t = true ∧ i ∈ ((cfg0.win 2).blk t).view.set := by
  refine ⟨pointOf i, flush0_2 _, ?_⟩
  rw [mem_keys_blk]
  obtain ⟨-, -, ⟨e0, e1, e2⟩, -⟩ := idx_grid (pointOf i)
  rw [pointOf_val] at e0 e1
  have h0 : (i 0).val < 8 := (i 0).isLt
  have h1 : (i 1).val < 4096 := (i 1).isLt
  have h2 : (i 2).val < 896 := (i 2).isLt
  intro a
  match a with
  | ⟨0, _⟩ =>
    show win0_2.index (pointOf i) (0 : Fin 3) * 1 ≤ (i 0).val ∧ (i 0).val < win0_2.index (pointOf i) (0 : Fin 3) * 1 + 1
    rw [e0]; omega
  | ⟨1, _⟩ =>
    show win0_2.index (pointOf i) (1 : Fin 3) * 1024 ≤ (i 1).val ∧ (i 1).val < win0_2.index (pointOf i) (1 : Fin 3) * 1024 + 1024
    rw [e1]; omega
  | ⟨2, _⟩ =>
    show win0_2.index (pointOf i) (2 : Fin 3) * 896 ≤ (i 2).val ∧ (i 2).val < win0_2.index (pointOf i) (2 : Fin 3) * 896 + 896
    rw [e2]; omega

theorem values_cover (i : S8x4096x896.Idx) :
    ∃ t : Fin cfg0.N, (cfg0.win 3).flush t = true ∧ i ∈ ((cfg0.win 3).blk t).view.set := by
  refine ⟨pointOf i, flush0_3 _, ?_⟩
  rw [mem_values_blk]
  obtain ⟨-, -, -, ⟨e0, e1, e2⟩⟩ := idx_grid (pointOf i)
  rw [pointOf_val] at e0 e1
  have h0 : (i 0).val < 8 := (i 0).isLt
  have h1 : (i 1).val < 4096 := (i 1).isLt
  have h2 : (i 2).val < 896 := (i 2).isLt
  intro a
  match a with
  | ⟨0, _⟩ =>
    show win0_3.index (pointOf i) (0 : Fin 3) * 1 ≤ (i 0).val ∧ (i 0).val < win0_3.index (pointOf i) (0 : Fin 3) * 1 + 1
    rw [e0]; omega
  | ⟨1, _⟩ =>
    show win0_3.index (pointOf i) (1 : Fin 3) * 1024 ≤ (i 1).val ∧ (i 1).val < win0_3.index (pointOf i) (1 : Fin 3) * 1024 + 1024
    rw [e1]; omega
  | ⟨2, _⟩ =>
    show win0_3.index (pointOf i) (2 : Fin 3) * 896 ≤ (i 2).val ∧ (i 2).val < win0_3.index (pointOf i) (2 : Fin 3) * 896 + 896
    rw [e2]; omega

/-! ## The arrays after the launch -/

/-- After the 32 points the keys' array is the keys' function of the tokens and the fused weights at entry. -/
theorem keys_final (c : Dev nD) :
    (dat0 (F := Ideal) V c).arrAt 2 cfg0.N = keysG (V c main_arg0) (V c main_v4) :=
  (dat0 (F := Ideal) V c).arrAt_eq_of_cover 2 (keysG (V c main_arg0) (V c main_v4))
    (fun t _ => keys_flushed V c t) keys_cover

/-- And the values' array the values' function. -/
theorem values_final (c : Dev nD) :
    (dat0 (F := Ideal) V c).arrAt 3 cfg0.N = valuesG (V c main_arg0) (V c main_v4) :=
  (dat0 (F := Ideal) V c).arrAt_eq_of_cover 3 (valuesG (V c main_arg0) (V c main_v4))
    (fun t _ => values_flushed V c t) values_cover

/-- The token array and the fused weights as the region finds them, at their literal types (products and sums of
    their entries are then products and sums of extended reals). -/
abbrev tokArr (c : Dev nD) : S8x4096x896.Idx → EReal := V c main_arg0
abbrev wgtArr (c : Dev nD) : S896x1792.Idx → EReal := V c main_v4

/-- Entry `(b, n, d)` of the keys' array after the launch: row `n` of batch `b` of the tokens times column `d`
    of the fused weights. -/
theorem keys_apply (c : Dev nD) (b : Fin 8) (n : Fin 4096) (d : Fin 896) :
    ((dat0 (F := Ideal) V c).arrAt 2 cfg0.N : S8x4096x896.Idx → EReal) (ix3 b n d)
      = ∑ k : Fin 896, tokArr V c (ix3 b n k) * wgtArr V c (ix2 k ⟨d.val, by omega⟩) := by
  rw [keys_final]
  rfl

/-- Entry `(b, n, d)` of the values' array after the launch: the same row times column `896 + d`. -/
theorem values_apply (c : Dev nD) (b : Fin 8) (n : Fin 4096) (d : Fin 896) :
    ((dat0 (F := Ideal) V c).arrAt 3 cfg0.N : S8x4096x896.Idx → EReal) (ix3 b n d)
      = ∑ k : Fin 896, tokArr V c (ix3 b n k) * wgtArr V c (ix2 k ⟨896 + d.val, by omega⟩) := by
  rw [values_final]
  rfl

end Cert.KernelIdeal.Hand

end
-- ==== Proof.KI.Pieces1.lean ====
/-
  What the attention kernel's three cases leave in the scratch buffers and in the pooled output's buffer, in the
  skeleton's payload terms: the running sum after a first, a middle and a last q-tile, the pooled output after a last
  one, and the keys' and values' buffers after a first q-tile as the batch's rows of the projected keys and values.
-/
import proofs.«423680_j33105607917868_3_alg».proof.Proof.KI.Region1
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The zero offsets, and whole buffers read back -/

namespace Pieces1

theorem hz2 : (![0, 0] : Fin 2 → ℕ) = fun _ => 0 := funext fun a => by fin_cases a <;> rfl
theorem hz3 : (![0, 0, 0] : Fin 3 → ℕ) = fun _ => 0 := funext fun a => by fin_cases a <;> rfl

/-- A whole buffer's raw contents that read a given array, read back through the buffer's view. -/
theorem read_whole_unread {Val : EltTy → Type} {κ : Kind} (b : Ref sig κ) (h : (Memref.whole b).IsWhole)
    (X : b.ty.shape.Idx → Val b.ty.elt) : (View.whole b).read Val (h.unread X) = X := h.read_unread X

/-- A load of a whole buffer after writes over junk reads what the writes leave in it. -/
theorem readCov_unit_zero_eq_read {Val : EltTy → Type} [∀ e, Nonempty (Val e)] {κ : Kind} {sp : Space} {S : Shape} {e : EltTy}
    (v : View sig κ sp S e) {off : Fin S.rank → ℕ} (h : off = fun _ => 0) (inb : ∀ a, off a + S.size a ≤ S.size a)
    (L : List (View.Piece Val S e)) :
    v.readCov L (Rect.unit off S.size inb).toLoadRect = v.read Val (v.writes Val v.junk L) := by
  unfold View.readCov
  rw [View.readAt_eq_ld, View.ld_unit_zero h]

/-- One write through the whole shape leaves its payload. -/
theorem canon_whole {Val : EltTy → Type} [∀ e, Nonempty (Val e)] {S : Shape} {e : EltTy} (w : S.Idx → Val e) :
    View.canon [(⟨Rect.whole S, w⟩ : View.Piece Val S e)] = w := View.canon_unit_zero rfl _ w

/-- The first grid coordinate of a point, as the 32-bit word the kernel slices with, is the point's batch. -/
theorem batch_word : ∀ t : Fin cfg1.N, (BitVec.ofNat 32 (grid1.coords t 0).val).toNat = t.val / 16 :=
  (by decide +kernel : ∀ t : Fin grid1.N, (BitVec.ofNat 32 (grid1.coords t 0).val).toNat = t.val / 16)

end Pieces1

open Pieces1

/-! ## The running sum after each case, and the pooled output after the last -/

/-- After a middle q-tile the running sum is what it was plus the tile's pooled rows. -/
theorem soutB_4_eq (c : Dev nD) (t : Fin cfg1.N) (h0 : ¬t.val % 16 = 0) (h1 : ¬t.val % 16 = 15) (xs0 xs1 : Vec F S4096x896 .bf16) (xs4 : Vec F S1x1x896 .f32) :
    soutB_4 V c t h0 h1 xs0 xs1 xs4 = k1_pay1 (k1_pay4 (iblk1 V c 0 t) (iblk1 V c 1 t) xs0 xs1 (iblk1 V c 2 t) (iblk1 V c 3 t)) xs4 := by
  unfold soutB_4
  rw [View.read_writes_eq_canon _ _ _ (scoverB_4 V c t h0 h1 xs0 xs1 xs4)]
  unfold runB kernelRun1_B
  dsimp only
  sl_unfold_words
  rw [View.canon_unit_zero hz3]
  simp only [View.readAt_eq_ld, Memref.IsWhole.read_unread, read_whole_unread, View.ld_unit_zero (S := S1x256x896) hz3, View.ld_unit_zero (S := S896x896) hz2,
    View.ld_unit_zero (S := S4096x896) hz2, View.ld_unit_zero (S := S1x896) hz2, View.ld_unit_zero (S := S1x1x896) hz3]

/-- After a last q-tile the running sum is what it was plus the tile's pooled rows. -/
theorem soutC_4_eq (c : Dev nD) (t : Fin cfg1.N) (h0 : ¬t.val % 16 = 0) (h1 : t.val % 16 = 15) (xs0 xs1 : Vec F S4096x896 .bf16) (xs4 : Vec F S1x1x896 .f32) :
    soutC_4 V c t h0 h1 xs0 xs1 xs4 = k1_pay1 (k1_pay4 (iblk1 V c 0 t) (iblk1 V c 1 t) xs0 xs1 (iblk1 V c 2 t) (iblk1 V c 3 t)) xs4 := by
  unfold soutC_4
  rw [View.read_writes_eq_canon _ _ _ (scoverC_4 V c t h0 h1 xs0 xs1 xs4)]
  unfold runC kernelRun1_C
  dsimp only
  sl_unfold_words
  rw [View.canon_unit_zero hz3]
  simp only [View.readAt_eq_ld, Memref.IsWhole.read_unread, read_whole_unread, View.ld_unit_zero (S := S1x256x896) hz3, View.ld_unit_zero (S := S896x896) hz2,
    View.ld_unit_zero (S := S4096x896) hz2, View.ld_unit_zero (S := S1x896) hz2, View.ld_unit_zero (S := S1x1x896) hz3]

/-- After a last q-tile the pooled output's buffer holds the output payload of the running sum. -/
theorem outC_4_eq (c : Dev nD) (t : Fin cfg1.N) (h0 : ¬t.val % 16 = 0) (h1 : t.val % 16 = 15) (xs0 xs1 : Vec F S4096x896 .bf16) (xs4 : Vec F S1x1x896 .f32) :
    outC_4 V c t h0 h1 xs0 xs1 xs4 = k1_pay2 (soutC_4 V c t h0 h1 xs0 xs1 xs4) := by
  rw [soutC_4_eq]
  unfold outC_4
  rw [View.read_writes_eq_canon _ _ _ (coverC_4 V c t h0 h1 xs0 xs1 xs4)]
  unfold runC kernelRun1_C
  dsimp only
  sl_unfold_words
  rw [View.canon_unit_zero hz3, View.readCov_unit_zero (S := S1x1x896) _ hz3]
  simp only [View.readAt_eq_ld, Memref.IsWhole.read_unread, read_whole_unread, View.ld_unit_zero (S := S1x256x896) hz3, View.ld_unit_zero (S := S896x896) hz2,
    View.ld_unit_zero (S := S4096x896) hz2, View.ld_unit_zero (S := S1x896) hz2, View.ld_unit_zero (S := S1x1x896) hz3]

/-- After a first q-tile the running sum is the tile's pooled rows added to the reset value, the keys and values
    being what the two copies delivered. -/
theorem soutA_4_eq (c : Dev nD) (t : Fin cfg1.N) (h0 : t.val % 16 = 0) (h1 : ¬t.val % 16 = 15) :
    soutA_4 V c t h0 h1 = k1_pay1 (k1_pay4 (iblk1 V c 0 t) (iblk1 V c 1 t) (soutA_0 V c t h0 h1) (soutA_1 V c t h0 h1) (iblk1 V c 2 t) (iblk1 V c 3 t)) (k1_pay3 (F := F)) := by
  unfold soutA_4
  rw [View.read_writes_eq_canon _ _ _ (scoverA_4 V c t h0 h1)]
  unfold soutA_0 soutA_1 runA kernelRun1_A
  dsimp only
  sl_unfold_words
  rw [View.canon_cons_unit_zero (S := S1x1x896) hz3, View.readCov_unit_zero (S := S1x1x896) _ hz3,
    readCov_unit_zero_eq_read (S := S4096x896) scM1_0.view hz2, readCov_unit_zero_eq_read (S := S4096x896) scM1_1.view hz2]
  simp only [View.readAt_eq_ld, Memref.IsWhole.read_unread, read_whole_unread, View.ld_unit_zero (S := S1x256x896) hz3, View.ld_unit_zero (S := S896x896) hz2,
    View.ld_unit_zero (S := S4096x896) hz2, View.ld_unit_zero (S := S1x896) hz2, View.ld_unit_zero (S := S1x1x896) hz3]

/-! ## The keys' and values' buffers after a first q-tile -/

/-- The keys' buffer after a first q-tile holds the batch's rows of the projected keys. -/
theorem soutA_0_apply (c : Dev nD) (t : Fin cfg1.N) (h0 : t.val % 16 = 0) (h1 : ¬t.val % 16 = 15) (n : Fin 4096) (d : Fin 896) :
    soutA_0 V c t h0 h1 (ValueIdx.ix2 n d) = (V c main_v7_0 : S8x4096x896.Idx → Elt F .bf16) (ValueIdx.ix3 ⟨t.val / 16, by have := t.isLt; have : cfg1.N = 128 := N_1; omega⟩ n d) := by
  unfold soutA_0
  rw [View.read_writes_eq_canon _ _ _ (scoverA_0 V c t h0 h1)]
  unfold runA kernelRun1_A
  dsimp only
  sl_unfold_words
  rw [canon_whole, ReadAs.apply_same, Memref.read_squeeze_slice _ _ _ _ (show S1x4096x896.ShapeCasts S4096x896 by decide)]
  refine (ValueIdx.shapeCast_1ab_ab_apply _ _ n d).trans ?_
  rw [View.readAt_apply]
  refine congrArg (V c main_v7_0 : S8x4096x896.Idx → Elt F .bf16) (funext fun a => Fin.ext ?_)
  match a with
  | ⟨0, _⟩ => exact (show (BitVec.ofNat 32 (grid1.coords t 0).val).toNat + 1 * 0 = t.val / 16 by rw [batch_word t]; omega)
  | ⟨1, _⟩ => exact (show 0 + 1 * n.val = n.val by omega)
  | ⟨2, _⟩ => exact (show 0 + 1 * d.val = d.val by omega)
/-- The values' buffer after a first q-tile holds the batch's rows of the projected values. -/
theorem soutA_1_apply (c : Dev nD) (t : Fin cfg1.N) (h0 : t.val % 16 = 0) (h1 : ¬t.val % 16 = 15) (n : Fin 4096) (d : Fin 896) :
    soutA_1 V c t h0 h1 (ValueIdx.ix2 n d) = (V c main_v7_1 : S8x4096x896.Idx → Elt F .bf16) (ValueIdx.ix3 ⟨t.val / 16, by have := t.isLt; have : cfg1.N = 128 := N_1; omega⟩ n d) := by
  unfold soutA_1
  rw [View.read_writes_eq_canon _ _ _ (scoverA_1 V c t h0 h1)]
  unfold runA kernelRun1_A
  dsimp only
  sl_unfold_words
  rw [canon_whole, ReadAs.apply_same, Memref.read_squeeze_slice _ _ _ _ (show S1x4096x896.ShapeCasts S4096x896 by decide)]
  refine (ValueIdx.shapeCast_1ab_ab_apply _ _ n d).trans ?_
  rw [View.readAt_apply]
  refine congrArg (V c main_v7_1 : S8x4096x896.Idx → Elt F .bf16) (funext fun a => Fin.ext ?_)
  match a with
  | ⟨0, _⟩ => exact (show (BitVec.ofNat 32 (grid1.coords t 0).val).toNat + 1 * 0 = t.val / 16 by rw [batch_word t]; omega)
  | ⟨1, _⟩ => exact (show 0 + 1 * n.val = n.val by omega)
  | ⟨2, _⟩ => exact (show 0 + 1 * d.val = d.val by omega)

end Cert.KernelIdeal.Hand

end
-- ==== Proof.KI.Blocks1.lean ====
/-
  The attention launch's input blocks read at coordinates, generic in the float instance. At grid point `t`
  (batch `t / 16`, q-tile `t % 16`) the tokens' block is 256 consecutive rows of one batch; the three other
  input windows never move and their block is their whole array. A block's coordinate on an axis is always the
  window's block index times the block's extent plus the coordinate inside the block.
-/
import proofs.«423680_j33105607917868_3_alg».proof.Proof.KI.Region1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The index maps, decided over the grid -/

/-- Window 0 (the tokens) moves with the point: batch `t / 16`, q-tile `t % 16`, all channels. -/
theorem idx1_0 : ∀ t : Fin cfg1.N, win1_0.index t (0 : Fin 3) = t.val / 16 ∧ win1_0.index t (1 : Fin 3) = t.val % 16
    ∧ win1_0.index t (2 : Fin 3) = 0 :=
  (by decide +kernel : ∀ t : Fin grid1.N, _)

/-- Windows 1, 2 and 3 (the scaled query weights, the projection weights, the bias row) stay at block `(0, 0)`. -/
theorem idx1_123 : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-! ## The input blocks at coordinates -/

/-- The tokens' block at point `t` is rows `(t % 16) · 256 …` of batch `t / 16`. -/
theorem iblk1_0_apply (c : Dev nD) (t : Fin cfg1.N) (r : Fin 256) (k : Fin 896) :
    iblk1 V c 0 t (ix3 0 r k)
      = (V c main_arg0 : S8x4096x896.Idx → Elt F .f32)
          (ix3 ⟨t.val / 16, by have := t.isLt; have : cfg1.N = 128 := N_1; omega⟩
            ⟨(t.val % 16) * 256 + r.val, by have := r.isLt; omega⟩ k) := by
  unfold iblk1
  obtain ⟨e0, e1, e2⟩ := idx1_0 t
  show V c main_arg0 (((cfg1.win 0).blk t).view.emb (ix3 0 r k)) = _
  refine congrArg (V c main_arg0) (funext fun a => Fin.ext ?_)
  match a with
  | ⟨0, _⟩ => show win1_0.index t (0 : Fin 3) * 1 + 1 * 0 = t.val / 16; omega
  | ⟨1, _⟩ => show win1_0.index t (1 : Fin 3) * 256 + 1 * r.val = (t.val % 16) * 256 + r.val; omega
  | ⟨2, _⟩ => show win1_0.index t (2 : Fin 3) * 896 + 1 * k.val = k.val; omega

/-- The scaled query weights' block is the whole array, at every point. -/
theorem iblk1_1_eq (c : Dev nD) (t : Fin cfg1.N) : (iblk1 V c 1 t : S896x896.Idx → Elt F .bf16) = V c main_v2 := by
  unfold iblk1
  obtain ⟨e0, e1, -, -, -, -⟩ := idx1_123 t
  funext j
  show V c main_v2 (((cfg1.win 1).blk t).view.emb j) = V c main_v2 j
  refine congrArg (V c main_v2) (funext fun a => Fin.ext ?_)
  match a with
  | ⟨0, _⟩ => show win1_1.index t (0 : Fin 2) * 896 + 1 * (j 0).val = (j 0).val; omega
  | ⟨1, _⟩ => show win1_1.index t (1 : Fin 2) * 896 + 1 * (j 1).val = (j 1).val; omega

/-- The projection weights' block is the whole array, at every point. -/
theorem iblk1_2_eq (c : Dev nD) (t : Fin cfg1.N) : (iblk1 V c 2 t : S896x896.Idx → Elt F .bf16) = V c main_v5 := by
  unfold iblk1
  obtain ⟨-, -, e0, e1, -, -⟩ := idx1_123 t
  funext j
  show V c main_v5 (((cfg1.win 2).blk t).view.emb j) = V c main_v5 j
  refine congrArg (V c main_v5) (funext fun a => Fin.ext ?_)
  match a with
  | ⟨0, _⟩ => show win1_2.index t (0 : Fin 2) * 896 + 1 * (j 0).val = (j 0).val; omega
  | ⟨1, _⟩ => show win1_2.index t (1 : Fin 2) * 896 + 1 * (j 1).val = (j 1).val; omega

/-- The bias row's block is the whole array, at every point. -/
theorem iblk1_3_eq (c : Dev nD) (t : Fin cfg1.N) : (iblk1 V c 3 t : S1x896.Idx → Elt F .f32) = V c main_v6 := by
  unfold iblk1
  obtain ⟨-, -, -, -, e0, e1⟩ := idx1_123 t
  funext j
  show V c main_v6 (((cfg1.win 3).blk t).view.emb j) = V c main_v6 j
  refine congrArg (V c main_v6) (funext fun a => Fin.ext ?_)
  match a with
  | ⟨0, _⟩ => show win1_3.index t (0 : Fin 2) * 1 + 1 * (j 0).val = (j 0).val; omega
  | ⟨1, _⟩ => show win1_3.index t (1 : Fin 2) * 896 + 1 * (j 1).val = (j 1).val; omega

end Cert.KernelIdeal.Hand

end
-- ==== Proof.KI.Value1.lean ====
/-
  The attention launch's grid walk, read as values over the extended reals. The launch visits 8 batches × 16 tiles of
  256 query rows, row-major: the point at position `n` is tile `n % 16` of batch `n / 16`. Between points it keeps three
  scratch buffers: the batch's keys and values, copied in at the batch's first tile and only read afterwards, and a
  running sum with one entry per channel, set to zero at the first tile and increased at every tile by the column sums
  of the tile's 256 rows (each row: softmax attention against all 4096 keys and values of the batch, the output
  projection, the bias, the residual).

  This module proves the invariant of that walk by induction on the position: after the point at position `n` the
  keys' and values' scratch hold batch `n / 16`'s keys and values, and the running sum at channel `e` is the sum of
  the first `n % 16 + 1` tile sums of the batch's rows at `e` (`Cert.Spec.accTiles` of `tileRow`). One tile's step
  is: the tile's tokens are rows `256 (n % 16) … 256 (n % 16) + 255` of the batch, the three weight windows are their
  whole arrays, so the column sums the body adds are exactly `Cert.Spec.tileSum` of the batch's rows at that tile;
  adding them to the sum of the first `q` tiles is the defining equation of the sum of the first `q + 1`.
  At a batch's last tile the output window's buffer takes the running sum of all sixteen tiles times 2⁻¹².
-/
import proofs.«423680_j33105607917868_3_alg».proof.Proof.KI.Region1
import proofs.«423680_j33105607917868_3_alg».proof.Proof.KI.Pieces1
import proofs.«423680_j33105607917868_3_alg».proof.Proof.KI.Blocks1
import proofs.«423680_j33105607917868_3_alg».proof.Proof.KI.TileRow
import proofs.«423680_j33105607917868_3_alg».proof.Proof.KI.PayIdx
import proofs.«423680_j33105607917868_3_alg».proof.Proof.Spec
import proofs.«423680_j33105607917868_3_alg».proof.Proof.SpecTile
import Idealize.ShloMosaic.Lib.ValueIdx

set_option maxRecDepth 16384

noncomputable section

open scoped BigOperators
namespace Cert.KernelIdeal.Hand

open Cert.KernelIdeal Cert.KernelIdeal.Gen
open Idealize.ShloMosaic Idealize.ShloMosaic.TcCoe Idealize.ShloMosaic.ValueIdx
open Idealize.SL.Sem
open Cert.KernelIdeal.PayIdx

variable (V : (c : Dev nD) → (b : Ref sig .tc) → Buf (Elt Ideal) ((c : Thread nD τ).loc b))

/-! ## The input blocks at their literal types -/

/-- The four input windows' blocks at point `t`: the tile's tokens, the scaled query weights, the output weights,
    the bias row. -/
abbrev tokBlk (c : Dev nD) (t : Fin cfg1.N) : Vec Ideal S1x256x896 .f32 := iblk1 V c 0 t
abbrev wqBlk (c : Dev nD) (t : Fin cfg1.N) : Vec Ideal S896x896 .bf16 := iblk1 V c 1 t
abbrev wpBlk (c : Dev nD) (t : Fin cfg1.N) : Vec Ideal S896x896 .bf16 := iblk1 V c 2 t
abbrev bpBlk (c : Dev nD) (t : Fin cfg1.N) : Vec Ideal S1x896 .f32 := iblk1 V c 3 t

namespace Value1

/-- A tile row depends on its operands and on its row index only through their values. -/
theorem tokTile_congr {r n k : ℕ} {xq xq' : Cert.Spec.Mat r k} {wq wq' : Cert.Spec.Mat k k} {K K' W W' : Cert.Spec.Mat n k}
    {wp wp' : Cert.Spec.Mat k k} {bp bp' : Fin k → EReal} {i i' : Fin r} (e : Fin k)
    (h1 : xq = xq') (h2 : wq = wq') (h3 : K = K') (h4 : W = W') (h5 : wp = wp') (h6 : bp = bp') (h7 : i = i') :
    Cert.Spec.tokTile xq wq K W wp bp i e = Cert.Spec.tokTile xq' wq' K' W' wp' bp' i' e := by
  subst h1 h2 h3 h4 h5 h6 h7; rfl

/-- Equal coordinates give equal indices. -/
theorem ix3_congr {n0 n1 n2 : ℕ} {a a' : Fin n0} {b b' : Fin n1} {c c' : Fin n2} (ha : a = a') (hb : b = b') (hc : c = c') :
    ix3 a b c = ix3 a' b' c' := by subst ha hb hc; rfl

end Value1

/-! ## One tile -/

/-- ONE TILE: at point `t` of batch `b`, with the keys' and values' scratch holding the batch's keys and values, the
    column sums of the tile's 256 rows at channel `e` are the tile sum of the batch's rows: row `i` of the tile is row
    `256 (t % 16) + i` of the batch, which lies in tile `t % 16` at row `i`. -/
theorem tile_sum (c : Dev nD) (t : Fin cfg1.N) (b : Fin 8) (hb : t.val / 16 = b.val) (k v : Vec Ideal S4096x896 .bf16)
    (hk : ∀ j d, k (ix2 j d) = keyA V c (ix3 b j d)) (hv : ∀ j d, v (ix2 j d) = valA V c (ix3 b j d)) (e : Fin 896) :
    k1_pay4 (F := Ideal) (tokBlk V c t) (wqBlk V c t) k v (wpBlk V c t) (bpBlk V c t) (ix2 0 e)
      = Cert.Spec.tileSum (tileRow V c b e) ⟨t.val % 16, Nat.mod_lt _ (by decide)⟩ := by
  refine (pay4_apply (tokBlk V c t) (wqBlk V c t) k v (wpBlk V c t) (bpBlk V c t) e).trans ?_
  unfold Cert.Spec.tileSum
  refine Finset.sum_congr rfl fun i _ => ?_
  have hi : i.val < 256 := i.isLt
  have hwq : wqBlk V c t = wqA V c := iblk1_1_eq V c t
  have hwp : wpBlk V c t = wpA V c := iblk1_2_eq V c t
  have hbp : bpBlk V c t = bpA V c := iblk1_3_eq V c t
  refine Value1.tokTile_congr e ?_ ?_ ?_ ?_ ?_ ?_ ?_
  · funext i' k'
    have hi' : i'.val < 256 := i'.isLt
    refine (iblk1_0_apply V c t i' k').trans ?_
    show tokA V c _ = tokA V c _
    refine congrArg (tokA V c) (Value1.ix3_congr (Fin.ext ?_) (Fin.ext ?_) rfl)
    · exact hb
    · show t.val % 16 * 256 + i'.val = (t.val % 16 * 256 + i.val) / 256 * 256 + i'.val
      omega
  · funext a a'; exact congrFun hwq (ix2 a a')
  · funext j d; exact hk j d
  · funext j d; exact hv j d
  · funext a a'; exact congrFun hwp (ix2 a a')
  · funext a; exact congrFun hbp (ix2 0 a)
  · apply Fin.ext
    show i.val = (t.val % 16 * 256 + i.val) % 256
    omega

/-- ONE STEP OF THE RUNNING SUM: the body's update at tile `q = t % 16`, from a running sum that is the sum of the
    batch's first `q` tiles, leaves the sum of its first `q + 1`. -/
theorem acc_step (c : Dev nD) (t : Fin cfg1.N) (b : Fin 8) (hb : t.val / 16 = b.val) (k v : Vec Ideal S4096x896 .bf16)
    (hk : ∀ j d, k (ix2 j d) = keyA V c (ix3 b j d)) (hv : ∀ j d, v (ix2 j d) = valA V c (ix3 b j d))
    (a : Vec Ideal S1x1x896 .f32) (e : Fin 896) (q : ℕ) (hq : t.val % 16 = q)
    (ha : a (ix3 0 0 e) = Cert.Spec.accTiles (tileRow V c b e) q) :
    k1_pay1 (F := Ideal) (k1_pay4 (F := Ideal) (tokBlk V c t) (wqBlk V c t) k v (wpBlk V c t) (bpBlk V c t)) a (ix3 0 0 e)
      = Cert.Spec.accTiles (tileRow V c b e) (q + 1) := by
  refine (pay1_apply (k1_pay4 (F := Ideal) (tokBlk V c t) (wqBlk V c t) k v (wpBlk V c t) (bpBlk V c t)) a e).trans ?_
  rw [ha, tile_sum V c t b hb k v hk hv e]
  subst hq
  have hlt : t.val % 16 < 16 := Nat.mod_lt _ (by decide)
  show _ = Cert.Spec.accTiles (tileRow V c b e) (t.val % 16) + (if h : t.val % 16 < 16 then Cert.Spec.tileSum (tileRow V c b e) ⟨t.val % 16, h⟩ else 0)
  rw [dif_pos hlt]

/-! ## The invariant of the grid walk -/

/-- A FIRST TILE (`t % 16 = 0`): the keys' and values' scratch take the batch's keys and values, the running sum
    starts from zero and takes the first tile's column sums. -/
theorem inv_first (c : Dev nD) (t : Fin cfg1.N) (h0 : t.val % 16 = 0) (h1 : ¬t.val % 16 = 15) (b : Fin 8) (hb : t.val / 16 = b.val) :
    (∀ j d, soutA_0 V c t h0 h1 (ix2 j d) = keyA V c (ix3 b j d))
    ∧ (∀ j d, soutA_1 V c t h0 h1 (ix2 j d) = valA V c (ix3 b j d))
    ∧ (∀ e, soutA_4 V c t h0 h1 (ix3 0 0 e) = Cert.Spec.accTiles (tileRow V c b e) (t.val % 16 + 1)) := by
  have hk : ∀ j d, soutA_0 V c t h0 h1 (ix2 j d) = keyA V c (ix3 b j d) := fun j d =>
    (soutA_0_apply V c t h0 h1 j d).trans (congrArg (keyA V c) (Value1.ix3_congr (Fin.ext hb) rfl rfl))
  have hv : ∀ j d, soutA_1 V c t h0 h1 (ix2 j d) = valA V c (ix3 b j d) := fun j d =>
    (soutA_1_apply V c t h0 h1 j d).trans (congrArg (valA V c) (Value1.ix3_congr (Fin.ext hb) rfl rfl))
  refine ⟨hk, hv, fun e => ?_⟩
  refine (congrFun (soutA_4_eq V c t h0 h1) (ix3 0 0 e)).trans ?_
  refine acc_step V c t b hb (soutA_0 V c t h0 h1) (soutA_1 V c t h0 h1) hk hv (k1_pay3 (F := Ideal)) e (t.val % 16) rfl ?_
  rw [h0]
  exact pay3'_apply e

/-- THE INVARIANT, over any name `b` of the batch: after the point at position `n` of batch `b = n / 16`, the keys'
    and values' scratch hold the batch's keys and values and the running sum at channel `e` is the sum of the batch's
    first `n % 16 + 1` tiles. By induction on the position: a first tile starts afresh; a later tile of the same batch
    steps from what the point before left. -/
theorem inv (c : Dev nD) (n : ℕ) : ∀ (hn : n < cfg1.N) (b : Fin 8), n / 16 = b.val →
    (∀ j d, (outsAt1 V c n hn).2.1 (ix2 j d) = keyA V c (ix3 b j d))
    ∧ (∀ j d, (outsAt1 V c n hn).2.2.1 (ix2 j d) = valA V c (ix3 b j d))
    ∧ (∀ e, (outsAt1 V c n hn).2.2.2 (ix3 0 0 e) = Cert.Spec.accTiles (tileRow V c b e) (n % 16 + 1)) := by
  induction n using Nat.strong_induction_on with
  | _ n ih =>
    intro hn b hb
    by_cases h0 : n % 16 = 0
    · have h1 : ¬n % 16 = 15 := by omega
      rw [outsAt1_A V c ⟨n, hn⟩ h0 h1]
      dsimp only
      exact inv_first V c ⟨n, hn⟩ h0 h1 b hb
    · obtain ⟨pk, pv, pa⟩ := ih (n - 1) (by omega) (by omega) b (by omega)
      have hq : (n - 1) % 16 + 1 = n % 16 := by omega
      rw [hq] at pa
      by_cases h1 : n % 16 = 15
      · rw [outsAt1_C V c ⟨n, hn⟩ h0 h1]
        dsimp only
        refine ⟨pk, pv, fun e => ?_⟩
        refine (congrFun (soutC_4_eq V c ⟨n, hn⟩ h0 h1 (prevAt V c ⟨n, hn⟩).2.1 (prevAt V c ⟨n, hn⟩).2.2.1 (prevAt V c ⟨n, hn⟩).2.2.2) (ix3 0 0 e)).trans ?_
        exact acc_step V c ⟨n, hn⟩ b hb (prevAt V c ⟨n, hn⟩).2.1 (prevAt V c ⟨n, hn⟩).2.2.1 pk pv (prevAt V c ⟨n, hn⟩).2.2.2 e (n % 16) rfl (pa e)
      · rw [outsAt1_B V c ⟨n, hn⟩ h0 h1]
        dsimp only
        refine ⟨pk, pv, fun e => ?_⟩
        refine (congrFun (soutB_4_eq V c ⟨n, hn⟩ h0 h1 (prevAt V c ⟨n, hn⟩).2.1 (prevAt V c ⟨n, hn⟩).2.2.1 (prevAt V c ⟨n, hn⟩).2.2.2) (ix3 0 0 e)).trans ?_
        exact acc_step V c ⟨n, hn⟩ b hb (prevAt V c ⟨n, hn⟩).2.1 (prevAt V c ⟨n, hn⟩).2.2.1 pk pv (prevAt V c ⟨n, hn⟩).2.2.2 e (n % 16) rfl (pa e)

/-- THE INVARIANT at the batch `n / 16` itself. -/
theorem state_inv (c : Dev nD) (n : ℕ) (hn : n < cfg1.N) :
    (∀ (j : Fin 4096) (d : Fin 896), ((outsAt1 V c n hn).2.1 : S4096x896.Idx → EReal) (ix2 j d) = keyA V c (ix3 ⟨n / 16, by have : cfg1.N = 128 := N_1; omega⟩ j d))
    ∧ (∀ (j : Fin 4096) (d : Fin 896), ((outsAt1 V c n hn).2.2.1 : S4096x896.Idx → EReal) (ix2 j d) = valA V c (ix3 ⟨n / 16, by have : cfg1.N = 128 := N_1; omega⟩ j d))
    ∧ (∀ e : Fin 896, ((outsAt1 V c n hn).2.2.2 : S1x1x896.Idx → EReal) (ix3 0 0 e) = Cert.Spec.accTiles (tileRow V c ⟨n / 16, by have : cfg1.N = 128 := N_1; omega⟩ e) (n % 16 + 1)) :=
  inv V c n hn ⟨n / 16, by have : cfg1.N = 128 := N_1; omega⟩ rfl

/-- A LAST TILE (`n % 16 = 15`): the output window's buffer takes the running sum of all sixteen tiles times 2⁻¹²,
    the pooled value of batch `b = n / 16` at channel `e`. -/
theorem pooled_buf_last (c : Dev nD) (n : ℕ) (hn : n < cfg1.N) (h1 : n % 16 = 15) (b : Fin 8) (hb : n / 16 = b.val) (e : Fin 896) :
    (outsAt1 V c n hn).1 (ix3 0 0 e) = Cert.Spec.pooledK (tileRow V c b e) := by
  have h0 : ¬n % 16 = 0 := by omega
  have h4 := (inv V c n hn b hb).2.2 e
  rw [outsAt1_C V c ⟨n, hn⟩ h0 h1] at h4 ⊢
  dsimp only at h4 ⊢
  refine (congrFun (outC_4_eq V c ⟨n, hn⟩ h0 h1 (prevAt V c ⟨n, hn⟩).2.1 (prevAt V c ⟨n, hn⟩).2.2.1 (prevAt V c ⟨n, hn⟩).2.2.2) (ix3 0 0 e)).trans ?_
  refine (pay2'_apply (soutC_4 V c ⟨n, hn⟩ h0 h1 (prevAt V c ⟨n, hn⟩).2.1 (prevAt V c ⟨n, hn⟩).2.2.1 (prevAt V c ⟨n, hn⟩).2.2.2) e).trans ?_
  rw [h4, h1]
  rfl

end Cert.KernelIdeal.Hand

end
-- ==== Proof.KI.Value1Final.lean ====
/-
  The attention launch's pooled output, read at an index. The output window's block at grid point t is row t / 16 of
  the [8, 1, 896] array; it is written back exactly at the last q-tile of each batch, where the body's third case
  left in its buffer the output payload of the running sum, and the running sum there is the sixteen tiles'
  accumulation. So entry (b, 0, e) of the array the launch leaves is the accumulated sum times the word of 2⁻¹².
-/
import proofs.«423680_j33105607917868_3_alg».proof.Proof.KI.Region1
import proofs.«423680_j33105607917868_3_alg».proof.Proof.KI.Pieces1
import proofs.«423680_j33105607917868_3_alg».proof.Proof.KI.TileRow
import proofs.«423680_j33105607917868_3_alg».proof.Proof.KI.PayIdx
import proofs.«423680_j33105607917868_3_alg».proof.Proof.KI.Value1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The output window over the grid -/

namespace Value1Final

/-- The output window's block index at point t is (t / 16, 0, 0), and its block is never cut. -/
theorem idx1_4 : ∀ t : Fin cfg1.N, win1_4.index t (0 : Fin 3) = t.val / 16 ∧ win1_4.index t (1 : Fin 3) = 0
    ∧ win1_4.index t (2 : Fin 3) = 0 :=
  (by decide +kernel : ∀ t : Fin grid1.N, _)
theorem xsize1_4 : ∀ t : Fin cfg1.N, win1_4.xsize (grid1.coords t) (0 : Fin 3) = 1 ∧ win1_4.xsize (grid1.coords t) (1 : Fin 3) = 1
    ∧ win1_4.xsize (grid1.coords t) (2 : Fin 3) = 896 :=
  (by decide +kernel : ∀ t : Fin grid1.N, _)

/-- The last q-tile of batch b. -/
def lastPt (b : Fin 8) : Fin cfg1.N := ⟨16 * b.val + 15, by have := b.isLt; have : cfg1.N = 128 := N_1; omega⟩
theorem lastPt_val (b : Fin 8) : (lastPt b).val = 16 * b.val + 15 := rfl

/-- The pooled array, entry by entry: the sixteen tiles' accumulated sum of the batch's rows, times the word of 2⁻¹². -/
def poolG (c : Dev nD) : S8x1x896.Idx → EReal := fun i => Cert.Spec.pooledK (tileRow V c (i 0) (i 2))

/-! ## The write-backs, and the array they leave -/

/-- What a write-back of the output window writes is its block of the pooled array. -/
theorem flushed1_4_eq (c : Dev nD) (t : Fin cfg1.N) (hf : (cfg1.win 4).flush t = true) :
    (dat1 (F := Ideal) V c).flushed 4 t = ((cfg1.win 4).blk t).view.read (Elt Ideal) (poolG V c) := by
  have hN : cfg1.N = 128 := N_1
  have h1 : t.val % 16 = 15 := (flush1_4 t).mp hf
  have h0 : ¬ t.val % 16 = 0 := by omega
  obtain ⟨e0, e1, e2⟩ := idx1_4 t
  have hS : (outsAt1 V c t.val t.isLt).2.2.2 = soutC_4 V c t h0 h1 (prevAt V c t).2.1 (prevAt V c t).2.2.1 (prevAt V c t).2.2.2 := by
    rw [outsAt1_C V c t h0 h1]
  funext y
  obtain ⟨u, v, e, rfl⟩ : ∃ (u v : Fin 1) (e : Fin 896), y = ix3 u v e := ⟨y 0, y 1, y 2, eq_ix3 y⟩
  obtain rfl : u = 0 := Subsingleton.elim _ _
  obtain rfl : v = 0 := Subsingleton.elim _ _
  show (cfg1.win 4).cut (grid1.coords t) ((dat1 V c).after 4 t) (ix3 0 0 e) = poolG V c (((cfg1.win 4).blk t).view.emb (ix3 0 0 e))
  rw [after1_4, outsAt1_C V c t h0 h1]
  dsimp only
  show outC_4 V c t h0 h1 (prevAt V c t).2.1 (prevAt V c t).2.2.1 (prevAt V c t).2.2.2 (ix3 0 0 e) = _
  rw [outC_4_eq V c t h0 h1 (prevAt V c t).2.1 (prevAt V c t).2.2.1 (prevAt V c t).2.2.2, ← hS]
  refine (Cert.KernelIdeal.PayIdx.pay2'_apply ((outsAt1 V c t.val t.isLt).2.2.2) e).trans ?_
  rw [(state_inv V c t.val t.isLt).2.2 e, h1]
  have hi : ((View.whole main_v8).slice ((win1 4).rect t)).emb (ix3 0 0 e)
      = (ix3 ⟨t.val / 16, by omega⟩ 0 e : S8x1x896.Idx) := funext fun a => Fin.ext (by
    match a with
    | ⟨0, _⟩ => show win1_4.index t (0 : Fin 3) * 1 + 1 * 0 = t.val / 16; omega
    | ⟨1, _⟩ => show win1_4.index t (1 : Fin 3) * 1 + 1 * 0 = 0; omega
    | ⟨2, _⟩ => show win1_4.index t (2 : Fin 3) * 896 + 1 * e.val = e.val; omega)
  rw [hi]
  rfl

end Value1Final

open Value1Final

/-- THE POOLED OUTPUT at an index. -/
theorem pooled_apply (c : Dev nD) (b : Fin 8) (e : Fin 896) :
    ((dat1 (F := Ideal) V c).arrAt 4 cfg1.N : S8x1x896.Idx → EReal) (ix3 b 0 e) = Cert.Spec.pooledK (tileRow V c b e) := by
  have hv := lastPt_val b
  have hf : (cfg1.win 4).flush (lastPt b) = true := (flush1_4 (lastPt b)).mpr (by rw [hv]; omega)
  obtain ⟨e0, e1, e2⟩ := idx1_4 (lastPt b)
  obtain ⟨s0, s1, s2⟩ := xsize1_4 (lastPt b)
  refine ((dat1 (F := Ideal) V c).arrAt_apply_of_mem 4 (poolG V c) (flushed1_4_eq V c) cfg1.N (lastPt b) (ix3 b 0 e) (lastPt b).isLt hf ?_).trans rfl
  show (ix3 b 0 e : S8x1x896.Idx) ∈ ((View.whole main_v8).slice (win1_4.rect (lastPt b))).set
  rw [View.set_slice_whole, Rect.mem_set_unit]
  intro a
  have hb := b.isLt
  have he := e.isLt
  match a with
  | ⟨0, _⟩ => show win1_4.index (lastPt b) 0 * win1_4.size 0 ≤ b.val ∧ b.val < win1_4.index (lastPt b) 0 * win1_4.size 0 + win1_4.xsize (grid1.coords (lastPt b)) 0
              rw [e0, s0, hv, show win1_4.size 0 = 1 from rfl]; omega
  | ⟨1, _⟩ => show win1_4.index (lastPt b) 1 * win1_4.size 1 ≤ 0 ∧ 0 < win1_4.index (lastPt b) 1 * win1_4.size 1 + win1_4.xsize (grid1.coords (lastPt b)) 1
              rw [e1, s1]; omega
  | ⟨2, _⟩ => show win1_4.index (lastPt b) 2 * win1_4.size 2 ≤ e.val ∧ e.val < win1_4.index (lastPt b) 2 * win1_4.size 2 + win1_4.xsize (grid1.coords (lastPt b)) 2
              rw [e2, s2]; omega

end Cert.KernelIdeal.Hand

end
-- ==== Proof.Bridge.lean ====
/-
  The pooled array `[8, 896]` both programs feed to the final two-layer perceptron, written over the programs' own
  index types: entry `(b, e)` is the mean over batch `b`'s 4096 tokens of a token's row at channel `e`, in the
  reference's form (`poolR`) and in the kernel's (`poolK`). They are equal on real tokens and real query, key and
  value weights (the specification's bridge theorem, batch by batch).
-/
import proofs.«423680_j33105607917868_3_alg».proof.Proof.Spec
import Idealize.ShloMosaic.Lib.ValueIdx

noncomputable section

namespace Cert.Bridge

open Idealize.ShloMosaic Idealize.ShloMosaic.ValueIdx

/-- The token array `[8, 4096, 896]`, a weight `[896, 896]`, a bias `[896]`, the pooled array `[8, 896]`. -/
abbrev A3 : Type := (⟨3, ![8, 4096, 896]⟩ : Shape).Idx → EReal
abbrev A2 : Type := (⟨2, ![896, 896]⟩ : Shape).Idx → EReal
abbrev A1 : Type := (⟨1, ![896]⟩ : Shape).Idx → EReal
abbrev P2 : Type := (⟨2, ![8, 896]⟩ : Shape).Idx → EReal

/-- Batch `b`'s tokens as a matrix; a weight as a matrix; a bias as a vector. -/
def batch (x : A3) (b : Fin 8) : Spec.Mat 4096 896 := fun i k => x (ix3 b i k)
def mat (w : A2) : Spec.Mat 896 896 := fun a b => w (ix2 a b)
def vec (v : A1) : Fin 896 → EReal := fun a => v (ix1 a)

/-- The scale word both programs carry. -/
abbrev σ : EReal := Ideal.ofBits .f32 0x3D08D677#32

/-- The pooled array as the reference computes it. -/
def poolR (x : A3) (wq wk wv wp : A2) (bp : A1) : P2 :=
  fun j => Spec.pooledR (fun i => Spec.tokR σ (batch x (j 0)) (mat wq) (mat wk) (mat wv) (mat wp) (vec bp) i (j 1))

/-- The pooled array as the kernel computes it. -/
def poolK (x : A3) (wq wk wv wp : A2) (bp : A1) : P2 :=
  fun j => Spec.pooledK (fun i => Spec.tokK σ (batch x (j 0)) (mat wq) (mat wk) (mat wv) (mat wp) (vec bp) i (j 1))

/-- Every entry of an array is a real number. -/
def Real3 (x : A3) : Prop := ∀ i, ∃ r : ℝ, x i = (r : EReal)
def Real2 (w : A2) : Prop := ∀ i, ∃ r : ℝ, w i = (r : EReal)

/-- On real tokens and real query, key and value weights the two pooled arrays are one. -/
theorem pool_eq (x : A3) (wq wk wv wp : A2) (bp : A1) (hx : Real3 x) (hq : Real2 wq) (hk : Real2 wk) (hv : Real2 wv) :
    poolK x wq wk wv wp bp = poolR x wq wk wv wp bp := by
  funext j
  exact Spec.pooled_tok_eq (batch x (j 0)) (mat wq) (mat wk) (mat wv) (mat wp) (vec bp)
    (fun i k => hx _) (fun a b => hq _) (fun a b => hk _) (fun a b => hv _) (j 1)

end Cert.Bridge

end
-- ==== Proof.RefValue.lean ====
/-
  The reference program's result, read stage by stage.

  Batch by batch the reference forms the queries, keys and values as products of the tokens with the weights,
  the scores as the query–key inner products times the scale, a softmax along each row of scores (the row's
  maximum folded from −∞, the exponentials, their sum from zero, the quotient), the softmax-weighted sum of the
  values, its product with the output weights, the bias and the token added, and the mean over the 4096 tokens.
  Each stage is read at explicit coordinates and identified with the specification's function of the same name;
  chained, they say that the pooled array the reference feeds to its final two-layer perceptron is the
  specification's pooled array. The perceptron itself is kept as the reference's own operations applied to the
  pooled array.
-/
import proofs.«423680_j33105607917868_3_alg».proof.Proof.Bridge
import proofs.«423680_j33105607917868_3_alg».proof.Proof.Gen.ReferenceIdeal.Read
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.Bridge

/-! ## Indices by their coordinates -/

theorem idx1_ext {n0 : Nat} (u : (⟨1, ![n0]⟩ : Shape).Idx) (a : Fin n0) (h0 : (u 0).val = a.val) : u = ix1 a :=
  funext fun t => Fin.ext (by match t with | ⟨0, _⟩ => exact h0)

theorem idx2_ext {n0 n1 : Nat} (u : (⟨2, ![n0, n1]⟩ : Shape).Idx) (a : Fin n0) (b : Fin n1)
    (h0 : (u 0).val = a.val) (h1 : (u 1).val = b.val) : u = ix2 a b :=
  funext fun t => Fin.ext (by match t with | ⟨0, _⟩ => exact h0 | ⟨1, _⟩ => exact h1)

theorem idx3_ext {n0 n1 n2 : Nat} (u : (⟨3, ![n0, n1, n2]⟩ : Shape).Idx) (a : Fin n0) (b : Fin n1) (c : Fin n2)
    (h0 : (u 0).val = a.val) (h1 : (u 1).val = b.val) (h2 : (u 2).val = c.val) : u = ix3 a b c :=
  funext fun t => Fin.ext (by match t with | ⟨0, _⟩ => exact h0 | ⟨1, _⟩ => exact h1 | ⟨2, _⟩ => exact h2)

/-! ## The stages, batch by batch -/

section Stages

variable (x0 : FVec Ideal S8x4096x896 .f32) (x1 x2 x3 x4 : FVec Ideal S896x896 .f32) (x5 : FVec Ideal S896 .f32)

/-- Batch b's scores, as the specification writes them. -/
abbrev sc (b : Fin 8) : Spec.Mat 4096 4096 := Spec.scoreR Cert.Bridge.σ (batch x0 b) (mat x1) (mat x2)

/-- The queries: the tokens times the query weights. -/
theorem q_ref (b : Fin 8) (i : Fin 4096) (d : Fin 896) :
    val_main_v0 (F := Ideal) x0 x1 (ix3 b i d) = Spec.proj (batch x0 b) (mat x1) i d := by
  rw [val_main_v0_apply]
  show _ = ∑ k : Fin 896, x0 (ix3 b i k) * x1 (ix2 k d)
  refine Finset.sum_congr rfl fun k _ => ?_
  rw [show lidx_main_v0 (ix3 b i d) k = ix3 b i k from idx3_ext _ _ _ _ rfl rfl rfl,
    show ridx_main_v0 (ix3 b i d) k = ix2 k d from idx2_ext _ _ _ rfl rfl]

/-- The keys: the tokens times the key weights. -/
theorem k_ref (b : Fin 8) (i : Fin 4096) (d : Fin 896) :
    val_main_v1 (F := Ideal) x0 x2 (ix3 b i d) = Spec.proj (batch x0 b) (mat x2) i d := by
  rw [val_main_v1_apply]
  show _ = ∑ k : Fin 896, x0 (ix3 b i k) * x2 (ix2 k d)
  refine Finset.sum_congr rfl fun k _ => ?_
  rw [show lidx_main_v1 (ix3 b i d) k = ix3 b i k from idx3_ext _ _ _ _ rfl rfl rfl,
    show ridx_main_v1 (ix3 b i d) k = ix2 k d from idx2_ext _ _ _ rfl rfl]

/-- The values: the tokens times the value weights. -/
theorem v_ref (b : Fin 8) (i : Fin 4096) (d : Fin 896) :
    val_main_v2 (F := Ideal) x0 x3 (ix3 b i d) = Spec.proj (batch x0 b) (mat x3) i d := by
  rw [val_main_v2_apply]
  show _ = ∑ k : Fin 896, x0 (ix3 b i k) * x3 (ix2 k d)
  refine Finset.sum_congr rfl fun k _ => ?_
  rw [show lidx_main_v2 (ix3 b i d) k = ix3 b i k from idx3_ext _ _ _ _ rfl rfl rfl,
    show ridx_main_v2 (ix3 b i d) k = ix2 k d from idx2_ext _ _ _ rfl rfl]

/-- The scores: the query–key inner products, then the scale. -/
theorem score_ref (b : Fin 8) (i j : Fin 4096) :
    val_main_v5 (F := Ideal) x0 x1 x2 (ix3 b i j) = sc x0 x1 x2 b i j := by
  rw [val_main_v5_apply, val_main_v3_apply, val_main_v4_apply, val_main_cst_apply]
  show (∑ k : Fin 896, _) * Cert.Bridge.σ = (∑ d : Fin 896, _) * Cert.Bridge.σ
  refine congrArg (fun t => t * Cert.Bridge.σ) (Finset.sum_congr rfl fun k _ => ?_)
  rw [show lidx_main_v3 (ix3 b i j) k = ix3 b i k from idx3_ext _ _ _ _ rfl rfl rfl,
    show ridx_main_v3 (ix3 b i j) k = ix3 b j k from idx3_ext _ _ _ _ rfl rfl rfl, q_ref, k_ref]

/-- The word of −∞. -/
theorem neg_inf_word : Ideal.ofBits .f32 0xFF800000#32 = ⊥ := by simp [Ideal.ofBits, Ideal.ieee]

/-- A row's maximum: the reduction's fold of the maximum from −∞ over the row, and the maximum with −∞ after it. -/
theorem rowmax_ref (b : Fin 8) (i : Fin 4096) :
    val_main_v8 (F := Ideal) x0 x1 x2 (ix2 b i) = Spec.rowMax (sc x0 x1 x2 b i) := by
  have hR : S8x4096x4096.Reduces [2] S8x4096 := by decide
  rw [val_main_v8_apply, val_main_v7_apply, val_main_cst_1_apply]
  unfold val_main_v6
  rw [Host.reduce_eq_fold_single FloatOps.maximumf _ _ reducesTo_S8x4096x4096_S8x4096_d2 hR h_S_, val_main_cst_0_apply]
  show max (Ideal.ofBits .f32 0xFF800000#32) ((Finset.univ : Finset (Fin 4096)).fold max (Ideal.ofBits .f32 0xFF800000#32) _) = _
  rw [neg_inf_word, max_eq_right bot_le]
  unfold Spec.rowMax
  refine Finset.fold_congr fun k _ => ?_
  show val_main_v5 (F := Ideal) x0 x1 x2 (hR.lift (ix2 b i) k) = _
  rw [show hR.lift (ix2 b i) k = ix3 b i k from idx3_ext _ _ _ _ rfl rfl rfl, score_ref]

/-- The softmax numerators: the exponential of a score less its row's maximum. -/
theorem expo_ref (b : Fin 8) (i j : Fin 4096) :
    val_main_v12 (F := Ideal) x0 x1 x2 (ix3 b i j) = Spec.expo (sc x0 x1 x2 b) i j := by
  rw [val_main_v12_apply, val_main_v11_apply, val_main_v10_apply, val_main_v9_apply,
    show idx_main_v9 (idx_main_v10 (ix3 b i j)) = ix2 b i from idx2_ext _ _ _ rfl rfl, rowmax_ref, score_ref]
  rfl

/-- The word of zero. -/
theorem zero_word : FloatOps.ofBits (F := Ideal) .f32 0x00000000#32 = 0 := Ideal.ofBits_zero_f32

/-- The softmax denominators: a row's numerators summed from zero. -/
theorem denom_ref (b : Fin 8) (i : Fin 4096) :
    val_main_v13 (F := Ideal) x0 x1 x2 (ix2 b i) = Spec.denom (sc x0 x1 x2 b) i := by
  rw [val_main_v13_apply, val_main_cst_2_apply, zero_word, zero_add]
  unfold Spec.denom
  refine Finset.sum_congr rfl fun k _ => ?_
  rw [show idx_main_v13 (ix2 b i) k = ix3 b i k from idx3_ext _ _ _ _ rfl rfl rfl, expo_ref]

/-- The softmax weights: a numerator divided by its row's denominator. -/
theorem weight_ref (b : Fin 8) (i j : Fin 4096) :
    val_main_v16 (F := Ideal) x0 x1 x2 (ix3 b i j)
      = Ideal.div (Spec.expo (sc x0 x1 x2 b) i j) (Spec.denom (sc x0 x1 x2 b) i) := by
  rw [val_main_v16_apply, val_main_v15_apply, val_main_v14_apply,
    show idx_main_v14 (idx_main_v15 (ix3 b i j)) = ix2 b i from idx2_ext _ _ _ rfl rfl, denom_ref, expo_ref]
  rfl

/-- The attention output: the weighted sum of the values. -/
theorem att_ref (b : Fin 8) (i : Fin 4096) (d : Fin 896) :
    val_main_v17 (F := Ideal) x0 x1 x2 x3 (ix3 b i d)
      = Spec.attR (sc x0 x1 x2 b) (Spec.proj (batch x0 b) (mat x3)) i d := by
  rw [val_main_v17_apply]
  unfold Spec.attR
  refine Finset.sum_congr rfl fun k _ => ?_
  rw [show lidx_main_v17 (ix3 b i d) k = ix3 b i k from idx3_ext _ _ _ _ rfl rfl rfl,
    show ridx_main_v17 (ix3 b i d) k = ix3 b k d from idx3_ext _ _ _ _ rfl rfl rfl, weight_ref, v_ref]

/-- A token's row: the attention output times the output weights, plus the bias, plus the token. -/
theorem tok_ref (b : Fin 8) (i : Fin 4096) (e : Fin 896) :
    val_main_v22 (F := Ideal) x0 x1 x2 x3 x4 x5 (ix3 b i e)
      = Spec.tokR Cert.Bridge.σ (batch x0 b) (mat x1) (mat x2) (mat x3) (mat x4) (vec x5) i e := by
  rw [val_main_v22_apply, val_main_v21_apply, val_main_v20_apply, val_main_v19_apply, val_main_v18_apply,
    show idx_main_v19 (idx_main_v20 (ix3 b i e)) = ix1 e from idx1_ext _ _ rfl]
  show (∑ k : Fin 896, _) + x5 (ix1 e) + x0 (ix3 b i e) = (∑ d : Fin 896, _) + x5 (ix1 e) + x0 (ix3 b i e)
  refine congrArg (fun t => t + x5 (ix1 e) + x0 (ix3 b i e)) (Finset.sum_congr rfl fun k _ => ?_)
  rw [show lidx_main_v18 (ix3 b i e) k = ix3 b i k from idx3_ext _ _ _ _ rfl rfl rfl,
    show ridx_main_v18 (ix3 b i e) k = ix2 k e from idx2_ext _ _ _ rfl rfl, att_ref]
  rfl

/-- The mean over the tokens: the rows summed from zero, divided by the word of 4096. -/
theorem mean_ref (b : Fin 8) (e : Fin 896) :
    val_main_v25 (F := Ideal) x0 x1 x2 x3 x4 x5 (ix2 b e)
      = Spec.pooledR fun i => Spec.tokR Cert.Bridge.σ (batch x0 b) (mat x1) (mat x2) (mat x3) (mat x4) (vec x5) i e := by
  rw [val_main_v25_apply, val_main_v24_apply, val_main_cst_4_apply, val_main_v23_apply, val_main_cst_3_apply, zero_word,
    zero_add]
  unfold Spec.pooledR
  refine congrArg (fun t => Ideal.div t (Ideal.ofBits .f32 0x45800000#32)) (Finset.sum_congr rfl fun k _ => ?_)
  rw [show idx_main_v23 (ix2 b e) k = ix3 b k e from idx3_ext _ _ _ _ rfl rfl rfl, tok_ref]

end Stages

/-! ## The pooled array -/

/-- The array the reference pools is the specification's. -/
theorem pooled_ref (x0 : FVec Ideal S8x4096x896 .f32) (x1 x2 x3 x4 : FVec Ideal S896x896 .f32) (x5 : FVec Ideal S896 .f32) :
    val_main_v25 (F := Ideal) x0 x1 x2 x3 x4 x5 = Cert.Bridge.poolR x0 x1 x2 x3 x4 x5 := by
  funext j
  obtain ⟨b, e, rfl⟩ : ∃ (b : Fin 8) (e : Fin 896), j = ix2 b e := ⟨j 0, j 1, eq_ix2 j⟩
  rw [mean_ref]
  rfl

/-! ## The final perceptron, on any pooled array -/

/-- The reference's last nine operations applied to a pooled array: a product with the first layer's weights, its
    bias, the maximum with zero, a product with the second layer's weights, its bias. -/
def tail (P : FVec Ideal S8x896 .f32) (x6 : FVec Ideal S896x896 .f32) (x7 : FVec Ideal S896 .f32)
    (x8 : FVec Ideal S896x896 .f32) (x9 : FVec Ideal S896 .f32) : FVec Ideal S8x896 .f32 :=
  addf (F := Ideal)
    (Host.dotGeneral (F := Ideal) dot_S8x896_S896x896_S8x896_1_0_0_1_n_n none
      (maximumf (F := Ideal)
        (addf (F := Ideal)
          (Host.dotGeneral (F := Ideal) dot_S8x896_S896x896_S8x896_1_0_0_1_n_n none P x6)
          (broadcastInDim S8x896 ![0, 1] bcast_S1x896_S8x896_0_1 (broadcastInDim S1x896 ![1] bcast_S896_S1x896_1 x7)))
        (broadcastInDim S8x896 ![] bcast_S_S8x896 (constant (F := Ideal) S_ .f32 0x00000000#32)))
      x8)
    (broadcastInDim S8x896 ![0, 1] bcast_S1x896_S8x896_0_1 (broadcastInDim S1x896 ![1] bcast_S896_S1x896_1 x9))

/-- The reference's result is its final perceptron applied to its pooled array. -/
theorem result_ref (x0 : FVec Ideal S8x4096x896 .f32) (x1 x2 x3 x4 : FVec Ideal S896x896 .f32) (x5 : FVec Ideal S896 .f32)
    (x6 : FVec Ideal S896x896 .f32) (x7 : FVec Ideal S896 .f32) (x8 : FVec Ideal S896x896 .f32) (x9 : FVec Ideal S896 .f32) :
    val_main_v34 (F := Ideal) x0 x1 x2 x3 x4 x5 x6 x7 x8 x9
      = tail (val_main_v25 (F := Ideal) x0 x1 x2 x3 x4 x5) x6 x7 x8 x9 := by
  unfold val_main_v34 val_main_v33 val_main_v32 val_main_v31 val_main_v30 val_main_call0_v0 val_main_call0_cst val_main_v29
    val_main_v28 val_main_v27 val_main_v26
  generalize val_main_v25 (F := Ideal) x0 x1 x2 x3 x4 x5 = P
  rfl

end Cert.ReferenceIdeal.RefValue

end
-- ==== Proof.TailEq.lean ====
/-
  The final two-layer perceptron is the same function in the two programs. The kernel program's host tail
  starts from the pooled array with a unit axis, `[8, 1, 896]`, and drops that axis first; the reference's
  tail starts from `[8, 896]`. A reshape moves no entry, so the kernel's tail is the reference's tail on the
  pooled array read at `(b, 0, e)`; every later operation is the same on both sides.
-/
import proofs.«423680_j33105607917868_3_alg».proof.Proof.RefValue
import proofs.«423680_j33105607917868_3_alg».proof.Proof.KI.HostVals
import Idealize.ShloMosaic.Lib.Pipeline.Value
import Idealize.ShloMosaic.Lib.ValueIdx

noncomputable section

namespace Cert.TailEq

open Idealize.ShloMosaic Idealize.ShloMosaic.ValueIdx

/-- Dropping the unit axis of an `[8, 1, 896]` array moves no entry: the result at `(b, e)` is the operand at `(b, 0, e)`. -/
theorem reshape_eq (P : FVec Ideal Cert.KernelIdeal.S8x1x896 .f32) :
    shapeCast Cert.KernelIdeal.S8x896 P Cert.KernelIdeal.Gen.shapeCasts_S8x1x896_S8x896
      = fun j => P (ix3 (j 0) 0 (j 1)) := by
  funext j
  refine shapeCast_apply P _ j _ ?_
  rw [Shape.rowMajor_val_three, Shape.rowMajor_val_two]
  show ((j 0).val * 1 + 0) * 896 + (j 1).val = (j 0).val * 896 + (j 1).val
  omega

/-- The two programs end in the same two dense layers: the kernel program's host tail, which first drops the pooled
    array's unit axis, is the reference's tail on the array so reindexed. The two sides name their contraction
    record and shape facts by different constants with the same fields. -/
theorem tail_eq (P : FVec Ideal Cert.KernelIdeal.S8x1x896 .f32) (x6 : FVec Ideal Cert.KernelIdeal.S896x896 .f32)
    (x7 : FVec Ideal Cert.KernelIdeal.S896 .f32) (x8 : FVec Ideal Cert.KernelIdeal.S896x896 .f32)
    (x9 : FVec Ideal Cert.KernelIdeal.S896 .f32) :
    Cert.KernelIdeal.HostVals.tailK P x6 x7 x8 x9
      = Cert.ReferenceIdeal.RefValue.tail (fun j => P (Idealize.ShloMosaic.ValueIdx.ix3 (j 0) 0 (j 1))) x6 x7 x8 x9 := by
  unfold Cert.KernelIdeal.HostVals.tailK
  rw [reshape_eq]
  rfl

end Cert.TailEq

end
-- ==== Proof.KI.KernelValue.lean ====
/-
  The idealized kernel program's RESULT, at the ideal instance, as mathematics of the argument arrays: the last
  boundary's contents at the result buffer are the final two-layer perceptron applied to the pooled array, and the
  pooled array is the kernel form `Bridge.poolK` of the arguments. The pieces: the host stretch before the launches
  scales the query weights and fuses the key and value weights; the projection launch leaves each batch's keys and
  values, the tokens times the key (value) weights; the attention launch leaves, per batch and channel, the sixteen
  tiles' column sums accumulated and multiplied by 2⁻¹²; a tile row computed against the batch's own keys and values is
  that token's row of the whole-batch form.
-/
import proofs.«423680_j33105607917868_3_alg».proof.Proof.KI.Run
import proofs.«423680_j33105607917868_3_alg».proof.Proof.KI.HostVals
import proofs.«423680_j33105607917868_3_alg».proof.Proof.KI.TileRow
import proofs.«423680_j33105607917868_3_alg».proof.Proof.KI.Value0
import proofs.«423680_j33105607917868_3_alg».proof.Proof.KI.Value1Final
import proofs.«423680_j33105607917868_3_alg».proof.Proof.Bridge
import proofs.«423680_j33105607917868_3_alg».proof.Proof.SpecTile
import proofs.«423680_j33105607917868_3_alg».proof.Proof.TailEq
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The ten argument arrays on core `c`. -/
abbrev ar0 (c : Dev nD) : S8x4096x896.Idx → EReal := m ((c : Thread nD τ).loc main_arg0)
abbrev ar1 (c : Dev nD) : S896x896.Idx → EReal := m ((c : Thread nD τ).loc main_arg1)
abbrev ar2 (c : Dev nD) : S896x896.Idx → EReal := m ((c : Thread nD τ).loc main_arg2)
abbrev ar3 (c : Dev nD) : S896x896.Idx → EReal := m ((c : Thread nD τ).loc main_arg3)
abbrev ar4 (c : Dev nD) : S896x896.Idx → EReal := m ((c : Thread nD τ).loc main_arg4)
abbrev ar5 (c : Dev nD) : S896.Idx → EReal := m ((c : Thread nD τ).loc main_arg5)
abbrev ar6 (c : Dev nD) : S896x896.Idx → EReal := m ((c : Thread nD τ).loc main_arg6)
abbrev ar7 (c : Dev nD) : S896.Idx → EReal := m ((c : Thread nD τ).loc main_arg7)
abbrev ar8 (c : Dev nD) : S896x896.Idx → EReal := m ((c : Thread nD τ).loc main_arg8)
abbrev ar9 (c : Dev nD) : S896.Idx → EReal := m ((c : Thread nD τ).loc main_arg9)

/-! ## The contents the launches are entered with -/

theorem V1_arg (c : Dev nD) (r : Ref sig .tc) (hr : r ∈ [main_arg0, main_arg1, main_arg2, main_arg3, main_arg4, main_arg5, main_arg6, main_arg7, main_arg8, main_arg9]) :
    V1 m c r = m ((c : Thread nD τ).loc r) :=
  HostVals.args_kept0 (W0 m c) r hr

theorem V2_tok (c : Dev nD) : tokA (V2 m) c = ar0 m c :=
  (W2_arr m c 0).trans (((dat0 (V1 m) c).arrAt_in 0 rfl _).trans ((A_eq0 (V1 m) c 0).trans (V1_arg m c main_arg0 (by simp))))

theorem V2_wq (c : Dev nD) (a a' : Fin 896) : wqA (V2 m) c (ix2 a a') = ar1 m c (ix2 a a') * Cert.Bridge.σ := by
  have e : wqA (V2 m) c = W1 m c (Proc.devRef .tc main_v2) := W2_of_ne m c main_v2 (by decide)
  exact (congrFun e (ix2 a a')).trans (HostVals.v2_apply (W0 m c) a a')

theorem V2_wp (c : Dev nD) : wpA (V2 m) c = ar4 m c := by
  have e : wpA (V2 m) c = W1 m c (Proc.devRef .tc main_v5) := W2_of_ne m c main_v5 (by decide)
  exact e.trans (HostVals.v5_eq (W0 m c))

theorem V2_bp (c : Dev nD) (e : Fin 896) : bpA (V2 m) c (ix2 0 e) = ar5 m c (ix1 e) := by
  have h : bpA (V2 m) c = W1 m c (Proc.devRef .tc main_v6) := W2_of_ne m c main_v6 (by decide)
  exact (congrFun h (ix2 0 e)).trans (HostVals.v6_apply (W0 m c) e)

theorem V2_keys (c : Dev nD) (b : Fin 8) (j : Fin 4096) (d : Fin 896) :
    keyA (V2 m) c (ix3 b j d) = Spec.proj (Cert.Bridge.batch (ar0 m c) b) (Cert.Bridge.mat (ar2 m c)) j d := by
  have e : keyA (V2 m) c = (dat0 (V1 m) c).arrAt 2 cfg0.N := W2_arr m c 2
  have h : keyA (V2 m) c (ix3 b j d) = ∑ k : Fin 896, tokArr (V1 m) c (ix3 b j k) * wgtArr (V1 m) c (ix2 k ⟨d.val, by omega⟩) :=
    (congrFun e (ix3 b j d)).trans (keys_apply (V1 m) c b j d)
  rw [h]
  unfold Spec.proj Cert.Bridge.batch Cert.Bridge.mat
  refine Finset.sum_congr rfl fun k _ => ?_
  congr 1
  all_goals first | exact HostVals.v4_left (W0 m c) k d | exact congrFun (V1_arg m c main_arg0 (by simp)) (ix3 b j k)

theorem V2_values (c : Dev nD) (b : Fin 8) (j : Fin 4096) (d : Fin 896) :
    valA (V2 m) c (ix3 b j d) = Spec.proj (Cert.Bridge.batch (ar0 m c) b) (Cert.Bridge.mat (ar3 m c)) j d := by
  have e : valA (V2 m) c = (dat0 (V1 m) c).arrAt 3 cfg0.N := W2_arr m c 3
  have h : valA (V2 m) c (ix3 b j d) = ∑ k : Fin 896, tokArr (V1 m) c (ix3 b j k) * wgtArr (V1 m) c (ix2 k ⟨896 + d.val, by omega⟩) :=
    (congrFun e (ix3 b j d)).trans (values_apply (V1 m) c b j d)
  rw [h]
  unfold Spec.proj Cert.Bridge.batch Cert.Bridge.mat
  refine Finset.sum_congr rfl fun k _ => ?_
  congr 1
  all_goals first | exact HostVals.v4_right (W0 m c) k d | exact congrFun (V1_arg m c main_arg0 (by simp)) (ix3 b j k)

/-! ## A tile row is the token's row -/

theorem tileRow_eq (c : Dev nD) (b : Fin 8) (e : Fin 896) (n : Fin 4096) :
    tileRow (V2 m) c b e n
      = Spec.tokK Cert.Bridge.σ (Cert.Bridge.batch (ar0 m c) b) (Cert.Bridge.mat (ar1 m c)) (Cert.Bridge.mat (ar2 m c)) (Cert.Bridge.mat (ar3 m c))
          (Cert.Bridge.mat (ar4 m c)) (Cert.Bridge.vec (ar5 m c)) n e := by
  have hn : (⟨(n.val / 256) * 256 + n.val % 256, by have := n.isLt; omega⟩ : Fin 4096) = n := Fin.ext (Nat.div_add_mod' n.val 256)
  have h0 : (fun i k => tokA (V2 m) c (ix3 b i k)) = Cert.Bridge.batch (ar0 m c) b := by
    rw [V2_tok m c]; rfl
  have h1 : (fun a a' => wqA (V2 m) c (ix2 a a')) = fun a a' => Cert.Bridge.mat (ar1 m c) a a' * Cert.Bridge.σ :=
    funext fun a => funext fun a' => V2_wq m c a a'
  have h2 : (fun j d => keyA (V2 m) c (ix3 b j d)) = Spec.proj (Cert.Bridge.batch (ar0 m c) b) (Cert.Bridge.mat (ar2 m c)) :=
    funext fun j => funext fun d => V2_keys m c b j d
  have h3 : (fun j d => valA (V2 m) c (ix3 b j d)) = Spec.proj (Cert.Bridge.batch (ar0 m c) b) (Cert.Bridge.mat (ar3 m c)) :=
    funext fun j => funext fun d => V2_values m c b j d
  have h4 : (fun a a' => wpA (V2 m) c (ix2 a a')) = Cert.Bridge.mat (ar4 m c) := by
    rw [V2_wp m c]; rfl
  have h5 : (fun a => bpA (V2 m) c (ix2 0 a)) = Cert.Bridge.vec (ar5 m c) :=
    funext fun a => V2_bp m c a
  unfold tileRow
  rw [h0, h1, h2, h3, h4, h5, Spec.tokTile_eq]
  exact congrArg (fun i => Spec.tokK Cert.Bridge.σ (Cert.Bridge.batch (ar0 m c) b) (Cert.Bridge.mat (ar1 m c)) (Cert.Bridge.mat (ar2 m c)) (Cert.Bridge.mat (ar3 m c))
          (Cert.Bridge.mat (ar4 m c)) (Cert.Bridge.vec (ar5 m c)) i e) hn

/-! ## The pooled array and the result -/

theorem pooled_kernel (c : Dev nD) (b : Fin 8) (e : Fin 896) :
    (W3 m c (Proc.devRef .tc main_v8) : S8x1x896.Idx → EReal) (ix3 b 0 e)
      = Cert.Bridge.poolK (ar0 m c) (ar1 m c) (ar2 m c) (ar3 m c) (ar4 m c) (ar5 m c) (ix2 b e) := by
  have e4 : (W3 m c (Proc.devRef .tc main_v8) : S8x1x896.Idx → EReal) = (dat1 (V2 m) c).arrAt 4 cfg1.N := W3_arr m c 4
  refine (congrFun e4 (ix3 b 0 e)).trans ((pooled_apply (V2 m) c b e).trans ?_)
  unfold Cert.Bridge.poolK
  exact congrArg Spec.pooledK (funext fun n => tileRow_eq m c b e n)

/-- The arguments reach the attention launch's exit as launched. -/
theorem W3_arg (c : Dev nD) (r : Ref sig .tc) (hr : r ∈ [main_arg6, main_arg7, main_arg8, main_arg9]) :
    W3 m c (Proc.devRef .tc r) = m ((c : Thread nD τ).loc r) := by
  simp only [List.mem_cons, List.mem_nil_iff, or_false] at hr
  rcases hr with rfl | rfl | rfl | rfl
  all_goals
    refine (W3_of_ne m c _ (by decide)).trans ((W2_of_ne m c _ (by decide)).trans ?_)
    exact HostVals.args_kept0 (W0 m c) _ (by simp)

/-- THE RESULT: the last boundary's contents at the result buffer are the perceptron of the kernel-form pooled array. -/
theorem result_kernel (c : Dev nD) :
    (W6 m c (Proc.devRef .tc main_v18) : S8x896.Idx → EReal)
      = Cert.ReferenceIdeal.RefValue.tail (Cert.Bridge.poolK (ar0 m c) (ar1 m c) (ar2 m c) (ar3 m c) (ar4 m c) (ar5 m c)) (ar6 m c) (ar7 m c) (ar8 m c) (ar9 m c) := by
  rw [show (W6 m c (Proc.devRef .tc main_v18) : S8x896.Idx → EReal)
      = HostVals.tailK (W3 m c (Proc.devRef .tc main_v8)) (W3 m c (Proc.devRef .tc main_arg6)) (W3 m c (Proc.devRef .tc main_arg7)) (W3 m c (Proc.devRef .tc main_arg8)) (W3 m c (Proc.devRef .tc main_arg9))
      from HostVals.v18_eq (W3 m c)]
  rw [Cert.TailEq.tail_eq, W3_arg m c main_arg6 (by simp), W3_arg m c main_arg7 (by simp), W3_arg m c main_arg8 (by simp), W3_arg m c main_arg9 (by simp)]
  congr 1
  funext j
  obtain ⟨b, e, rfl⟩ : ∃ (b : Fin 8) (e : Fin 896), j = ix2 b e := ⟨j 0, j 1, eq_ix2 j⟩
  exact pooled_kernel m c b e

end Cert.KernelIdeal.Hand

end
-- ==== Proof.Finite.lean ====
/-
  From the precondition (every float input finite) to real-valued arrays at the ideal instance: the printed
  predicate is a conjunction, one conjunct per argument array, of the all-reduction of `|x| < +inf`; at the
  extended reals `|x| < ⊤` holds exactly of the real numbers.
-/
import proofs.«423680_j33105607917868_3_alg».proof.Pre_finite_inputs
import proofs.«423680_j33105607917868_3_alg».proof.Proof.Gen.Pre_finite_inputs
import Idealize.ShloMosaic.Lib.ReduceAll
import Idealize.ShloMosaic.Lib.ValueIdx
import Idealize.ShloMosaic.PureOps.Ideal

open Idealize.ShloMosaic

namespace Cert.Finite

open Cert.Pre_finite_inputs

/-- An extended real whose absolute value lies strictly below the pattern of plus infinity is a real number. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- The shape of a scalar has one index. -/
instance : Subsingleton S_.Idx := ⟨fun a b => funext fun d => d.elim0⟩

/-- One printed conjunct read back: when the reduction by `and` of the comparisons `|a i| < +inf` over every axis
    is 1, every entry of `a` is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant S_ .f32 0x7F800000#32)))
        (constantI S_ 1 1#1) hr hu ValueIdx.ix0 = 1#1)
    (i : s.Idx) : ∃ r : ℝ, a i = (r : EReal) :=
  real_of_abs_lt (a i) (Host.reduce_andi_all _ _ hr hu _ e i)

/-- The precondition at the ideal instance makes the first four argument arrays real-valued. The predicate is a
    left-nested conjunction of ten all-reductions, one per argument; the first four conjuncts sit innermost. -/
theorem reals_of_pre [hP : Cert.Pre_finite_inputs.Facts]
    (a0 : FVec Ideal S8x4096x896 .f32) (a1 a2 a3 a4 : FVec Ideal S896x896 .f32) (a5 : FVec Ideal S896 .f32)
    (a6 : FVec Ideal S896x896 .f32) (a7 : FVec Ideal S896 .f32) (a8 : FVec Ideal S896x896 .f32) (a9 : FVec Ideal S896 .f32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h9 := congrFun h ValueIdx.ix0
  dsimp only [Cert.Pre_finite_inputs.fn, Cert.Pre_finite_inputs.fn_part1, Cert.Pre_finite_inputs.fn_part2, andi] at h9
  -- peel the six outer conjuncts (arguments 9 down to 4)
  have h8 := (IntOp.andi_eq_one.1 h9).1
  have h7 := (IntOp.andi_eq_one.1 h8).1
  have h6 := (IntOp.andi_eq_one.1 h7).1
  have h5 := (IntOp.andi_eq_one.1 h6).1
  have h4 := (IntOp.andi_eq_one.1 h5).1
  have h3 := (IntOp.andi_eq_one.1 h4).1
  -- the four inner conjuncts (arguments 3, 2, 1, 0)
  obtain ⟨h2, e3⟩ := IntOp.andi_eq_one.1 h3
  obtain ⟨h1, e2⟩ := IntOp.andi_eq_one.1 h2
  obtain ⟨e0, e1⟩ := IntOp.andi_eq_one.1 h1
  exact ⟨all_real a0 _ _ _ e0, all_real a1 _ _ _ e1, all_real a2 _ _ _ e2, all_real a3 _ _ _ e3⟩

end Cert.Finite
-- ==== Proof.lean ====
/-
  The certificate of the attention kernel against its reference, over the extended reals.

  Both programs compute, per batch of 4096 tokens: queries, keys and values (the tokens times three weight matrices),
  the scaled query–key scores, a softmax over each row of scores, the softmax-weighted sum of the values, an output
  projection plus bias plus the token itself, the mean over the tokens, and a two-layer perceptron with a relu on the
  pooled rows. The kernel folds the scale into the query weights, fuses the key and value projections into one product,
  divides by the softmax denominator after the weighted sum, and adds the tokens up in sixteen tiles of 256 before
  multiplying by 2⁻¹² — none of which changes the value when the tokens and the query, key and value weights are real
  numbers, which the precondition (every input finite) gives.

  The frames of the two kernel programs are their runs with the result dropped; the reference's frame is its run; the
  idealization rewrote nothing, so there is nothing to preserve; and at the ideal instance both runs end at the same
  perceptron applied to the same pooled array.
-/
import proofs.«423680_j33105607917868_3_alg».proof.Defs
import proofs.«423680_j33105607917868_3_alg».proof.Proof.Gen.Kernel
import proofs.«423680_j33105607917868_3_alg».proof.Proof.Gen.KernelIdeal
import proofs.«423680_j33105607917868_3_alg».proof.Proof.Gen.ReferenceIdeal
import proofs.«423680_j33105607917868_3_alg».proof.Proof.Gen.Pre_finite_inputs
import proofs.«423680_j33105607917868_3_alg».proof.Proof.Gen.ReferenceIdeal.Run
import proofs.«423680_j33105607917868_3_alg».proof.Proof.Gen.ReferenceIdeal.Read
import proofs.«423680_j33105607917868_3_alg».proof.Proof.K.Run
import proofs.«423680_j33105607917868_3_alg».proof.Proof.KI.Run
import proofs.«423680_j33105607917868_3_alg».proof.Proof.KI.KernelValue
import proofs.«423680_j33105607917868_3_alg».proof.Proof.RefValue
import proofs.«423680_j33105607917868_3_alg».proof.Proof.Bridge
import proofs.«423680_j33105607917868_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and keeps its arguments: its run, the result dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- The idealized kernel program likewise. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- The reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance, from memories agreeing on the arguments, both programs end at the perceptron of the pooled
    array: the kernel's pooled array in its own form, which on finite inputs is the reference's. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.ReferenceIdeal.RefValue.tail
      (Cert.Bridge.poolR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩) (Cert.KernelIdeal.Hand.run_main (F := Ideal) m ρ)
    obtain ⟨h0, h1, h2, h3⟩ := Cert.Finite.reals_of_pre _ _ _ _ _ _ _ _ _ _ (hpre c)
    rw [Cert.KernelIdeal.Hand.result_kernel m c, Cert.Bridge.pool_eq _ _ _ _ _ _ h0 h1 h2 h3]
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v34_eq, Cert.ReferenceIdeal.RefValue.result_ref, Cert.ReferenceIdeal.RefValue.pooled_ref,
      (hagree c).1, (hagree c).2.1, (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
